-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S11008x4096 : Shape := ⟨2, ![11008, 4096]⟩
abbrev S4096x11008 : Shape := ⟨2, ![4096, 11008]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  main_v18

def fn {F : FTy → Type} [FloatOps F] (main_arg0 : FVec F S2x2048x4096 .f32) (main_arg1 : FVec F S11008x4096 .f32) (main_arg2 : FVec F S11008x4096 .f32) (main_arg3 : FVec F S4096x11008 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_v13 main_v16
-- ==== Kernel.lean ====
abbrev S2x2048x4096 : Shape := ⟨3, ![2, 2048, 4096]⟩
abbrev S11008x4096 : Shape := ⟨2, ![11008, 4096]⟩
abbrev S4096x11008 : Shape := ⟨2, ![4096, 11008]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S256x4096 : Shape := ⟨2, ![256, 4096]⟩
abbrev S1024x256 : Shape := ⟨2, ![1024, 256]⟩
abbrev S4096x256 : Shape := ⟨2, ![4096, 256]⟩
abbrev S512x11008 : Shape := ⟨2, ![512, 11008]⟩
abbrev S256x11008 : Shape := ⟨2, ![256, 11008]⟩
abbrev S512x256 : Shape := ⟨2, ![512, 256]⟩
abbrev S11008x256 : Shape := ⟨2, ![11008, 256]⟩

abbrev nBuf : Space → Nat
  | .hbm => 130
  | .vmem => 14
  | .smem => 0
  | _ => 0

abbrev hbmTy0_0 (i : Nat) : BufTy := match i % 128 with
  | 0 => ⟨S2x2048x4096, .f32⟩
  | 1 => ⟨S11008x4096, .f32⟩
  | 2 => ⟨S11008x4096, .f32⟩
  | 3 => ⟨S4096x11008, .f32⟩
  | 4 => ⟨S4096x4096, .f32⟩
  | 5 => ⟨S4096x4096, .f32⟩
  | 6 => ⟨S_, .f32⟩
  | 7 => ⟨S4096, .f32⟩
  | 8 => ⟨S4096x1, .f32⟩
  | 9 => ⟨S_, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x4096, .f32⟩
  | 17 => ⟨S4096x4096, .f32⟩
  | 18 => ⟨S4096x4096, .f32⟩
  | 19 => ⟨S_, .i32⟩
  | 20 => ⟨S_, .i32⟩
  | 21 => ⟨S_, .f32⟩
  | 22 => ⟨S4096x4096, .f32⟩
  | 23 => ⟨S4096x4096, .f32⟩
  | 24 => ⟨S_, .f32⟩
  | 25 => ⟨S4096x4096, .f32⟩
  | 26 => ⟨S4096x4096, .f32⟩
  | 27 => ⟨S4096x4096, .f32⟩
  | 28 => ⟨S4096x4096, .f32⟩
  | 29 => ⟨S4096x4096, .bf16⟩
  | 30 => ⟨S11008x4096, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S11008x4096, .f32⟩
  | 41 => ⟨S11008x4096, .f32⟩
  | 42 => ⟨S11008x4096, .f32⟩
  | 43 => ⟨S_, .i32⟩
  | 44 => ⟨S_, .i32⟩
  | 45 => ⟨S_, .f32⟩
  | 46 => ⟨S11008x4096, .f32⟩
  | 47 => ⟨S11008x4096, .f32⟩
  | 48 => ⟨S_, .f32⟩
  | 49 => ⟨S11008x4096, .f32⟩
  | 50 => ⟨S11008x4096, .f32⟩
  | 51 => ⟨S11008x4096, .f32⟩
  | 52 => ⟨S11008x4096, .f32⟩
  | 53 => ⟨S11008x4096, .bf16⟩
  | 54 => ⟨S11008x4096, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S11008x4096, .f32⟩
  | 65 => ⟨S11008x4096, .f32⟩
  | 66 => ⟨S11008x4096, .f32⟩
  | 67 => ⟨S_, .i32⟩
  | 68 => ⟨S_, .i32⟩
  | 69 => ⟨S_, .f32⟩
  | 70 => ⟨S11008x4096, .f32⟩
  | 71 => ⟨S11008x4096, .f32⟩
  | 72 => ⟨S_, .f32⟩
  | 73 => ⟨S11008x4096, .f32⟩
  | 74 => ⟨S11008x4096, .f32⟩
  | 75 => ⟨S11008x4096, .f32⟩
  | 76 => ⟨S11008x4096, .f32⟩
  | 77 => ⟨S11008x4096, .bf16⟩
  | 78 => ⟨S4096x11008, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S4096x11008, .f32⟩
  | 89 => ⟨S4096x11008, .f32⟩
  | 90 => ⟨S4096x11008, .f32⟩
  | 91 => ⟨S_, .i32⟩
  | 92 => ⟨S_, .i32⟩
  | 93 => ⟨S_, .f32⟩
  | 94 => ⟨S4096x11008, .f32⟩
  | 95 => ⟨S4096x11008, .f32⟩
  | 96 => ⟨S_, .f32⟩
  | 97 => ⟨S4096x11008, .f32⟩
  | 98 => ⟨S4096x11008, .f32⟩
  | 99 => ⟨S4096x11008, .f32⟩
  | 100 => ⟨S4096x11008, .f32⟩
  | 101 => ⟨S4096x11008, .bf16⟩
  | 102 => ⟨S4096x11008, .f32⟩
  | 103 => ⟨S4096x11008, .f32⟩
  | 104 => ⟨S_, .f32⟩
  | 105 => ⟨S4096, .f32⟩
  | 106 => ⟨S4096x1, .f32⟩
  | 107 => ⟨S_, .f32⟩
  | 108 => ⟨S_, .f32⟩
  | 109 => ⟨S4096x1, .f32⟩
  | 110 => ⟨S4096x1, .f32⟩
  | 111 => ⟨S_, .f32⟩
  | 112 => ⟨S4096x1, .f32⟩
  | 113 => ⟨S4096x1, .f32⟩
  | 114 => ⟨S4096x11008, .f32⟩
  | 115 => ⟨S4096x11008, .f32⟩
  | 116 => ⟨S4096x11008, .f32⟩
  | 117 => ⟨S_, .i32⟩
  | 118 => ⟨S_, .i32⟩
  | 119 => ⟨S_, .f32⟩
  | 120 => ⟨S4096x11008, .f32⟩
  | 121 => ⟨S4096x11008, .f32⟩
  | 122 => ⟨S_, .f32⟩
  | 123 => ⟨S4096x11008, .f32⟩
  | 124 => ⟨S4096x11008, .f32⟩
  | 125 => ⟨S4096x11008, .f32⟩
  | 126 => ⟨S4096x11008, .f32⟩
  | 127 => ⟨S4096x11008, .bf16⟩
  | _ => ⟨S2x2048x4096, .f32⟩

abbrev hbmTy0_1 (i : Nat) : BufTy := match i % 128 with
  | 0 => ⟨S4096x4096, .f32⟩
  | 1 => ⟨S2x2048x4096, .f32⟩
  | _ => ⟨S2x2048x4096, .f32⟩

abbrev hbmTy (i : Nat) : BufTy := match i / 128 with
  | 0 => hbmTy0_0 i
  | 1 => hbmTy0_1 i
  | _ => ⟨S2x2048x4096, .f32⟩

abbrev bufTy : (tb : Table) → Fin (tcTables nBuf tb) → BufTy
  | .hbm, ⟨i, _⟩ => hbmTy i
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S1024x256, .f32⟩
  | .local _ .vmem, ⟨7, _⟩ => ⟨S1024x256, .f32⟩
  | .local _ .vmem, ⟨8, _⟩ => ⟨S512x11008, .bf16⟩
  | .local _ .vmem, ⟨9, _⟩ => ⟨S512x11008, .bf16⟩
  | .local _ .vmem, ⟨10, _⟩ => ⟨S256x11008, .bf16⟩
  | .local _ .vmem, ⟨11, _⟩ => ⟨S256x11008, .bf16⟩
  | .local _ .vmem, ⟨12, _⟩ => ⟨S512x256, .f32⟩
  | .local _ .vmem, ⟨13, _⟩ => ⟨S512x256, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_c_2 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_cst_5 : Ref sig .tc := ⟨.hbm, 35, rfl⟩
abbrev main_call3_v0 : Ref sig .tc := ⟨.hbm, 36, rfl⟩
abbrev main_v17 : Ref sig .tc := ⟨.hbm, 37, rfl⟩
abbrev main_cst_6 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_7 : Ref sig .tc := ⟨.hbm, 43, rfl⟩
abbrev main_c_8 : Ref sig .tc := ⟨.hbm, 44, rfl⟩
abbrev main_call5_v0 : Ref sig .tc := ⟨.hbm, 45, rfl⟩
abbrev main_call5_v1 : Ref sig .tc := ⟨.hbm, 46, rfl⟩
abbrev main_call5_v2 : Ref sig .tc := ⟨.hbm, 47, rfl⟩
abbrev main_call5_v3 : Ref sig .tc := ⟨.hbm, 48, rfl⟩
abbrev main_call5_v4 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_9 : Ref sig .tc := ⟨.hbm, 55, rfl⟩
abbrev main_v27 : Ref sig .tc := ⟨.hbm, 56, rfl⟩
abbrev main_cst_10 : Ref sig .tc := ⟨.hbm, 57, rfl⟩
abbrev main_v28 : Ref sig .tc := ⟨.hbm, 58, rfl⟩
abbrev main_cst_11 : Ref sig .tc := ⟨.hbm, 59, rfl⟩
abbrev main_call6_v0 : Ref sig .tc := ⟨.hbm, 60, rfl⟩
abbrev main_v29 : Ref sig .tc := ⟨.hbm, 61, rfl⟩
abbrev main_cst_12 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_c_13 : Ref sig .tc := ⟨.hbm, 67, rfl⟩
abbrev main_c_14 : Ref sig .tc := ⟨.hbm, 68, rfl⟩
abbrev main_call8_v0 : Ref sig .tc := ⟨.hbm, 69, rfl⟩
abbrev main_call8_v1 : Ref sig .tc := ⟨.hbm, 70, rfl⟩
abbrev main_call8_v2 : Ref sig .tc := ⟨.hbm, 71, rfl⟩
abbrev main_call8_v3 : Ref sig .tc := ⟨.hbm, 72, rfl⟩
abbrev main_call8_v4 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_15 : Ref sig .tc := ⟨.hbm, 79, rfl⟩
abbrev main_v39 : Ref sig .tc := ⟨.hbm, 80, rfl⟩
abbrev main_cst_16 : Ref sig .tc := ⟨.hbm, 81, rfl⟩
abbrev main_v40 : Ref sig .tc := ⟨.hbm, 82, rfl⟩
abbrev main_cst_17 : Ref sig .tc := ⟨.hbm, 83, rfl⟩
abbrev main_call9_v0 : Ref sig .tc := ⟨.hbm, 84, rfl⟩
abbrev main_v41 : Ref sig .tc := ⟨.hbm, 85, rfl⟩
abbrev main_cst_18 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_c_19 : Ref sig .tc := ⟨.hbm, 91, rfl⟩
abbrev main_c_20 : Ref sig .tc := ⟨.hbm, 92, rfl⟩
abbrev main_call11_v0 : Ref sig .tc := ⟨.hbm, 93, rfl⟩
abbrev main_call11_v1 : Ref sig .tc := ⟨.hbm, 94, rfl⟩
abbrev main_call11_v2 : Ref sig .tc := ⟨.hbm, 95, rfl⟩
abbrev main_call11_v3 : Ref sig .tc := ⟨.hbm, 96, rfl⟩
abbrev main_call11_v4 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_cst_21 : Ref sig .tc := ⟨.hbm, 104, rfl⟩
abbrev main_v52 : Ref sig .tc := ⟨.hbm, 105, rfl⟩
abbrev main_v53 : Ref sig .tc := ⟨.hbm, 106, rfl⟩
abbrev main_cst_22 : Ref sig .tc := ⟨.hbm, 107, rfl⟩
abbrev main_call12_v0 : Ref sig .tc := ⟨.hbm, 108, rfl⟩
abbrev main_call12_v1 : Ref sig .tc := ⟨.hbm, 109, rfl⟩
abbrev main_v54 : Ref sig .tc := ⟨.hbm, 110, rfl⟩
abbrev main_cst_23 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_c_24 : Ref sig .tc := ⟨.hbm, 117, rfl⟩
abbrev main_c_25 : Ref sig .tc := ⟨.hbm, 118, rfl⟩
abbrev main_call14_v0 : Ref sig .tc := ⟨.hbm, 119, rfl⟩
abbrev main_call14_v1 : Ref sig .tc := ⟨.hbm, 120, rfl⟩
abbrev main_call14_v2 : Ref sig .tc := ⟨.hbm, 121, rfl⟩
abbrev main_call14_v3 : Ref sig .tc := ⟨.hbm, 122, rfl⟩
abbrev main_call14_v4 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x11008 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x11008 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S2x2048x4096_S4096x4096 : S2x2048x4096.ShapeCasts S4096x4096
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bitsLt_bf16_f32 : FTy.bits .bf16 < FTy.bits .f32
  reducesTo_S11008x4096_S_d0_1 : S11008x4096.ReducesTo [0, 1] S_
  bcast_S_S11008x4096 : S_.BroadcastsInDim S11008x4096 (![] : Fin 0 → Fin S11008x4096.rank)
  reducesTo_S4096x11008_S_d0_1 : S4096x11008.ReducesTo [0, 1] S_
  bcast_S_S4096x11008 : S_.BroadcastsInDim S4096x11008 (![] : Fin 0 → Fin S4096x11008.rank)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  transposes_S256x4096_p1_0_S4096x256 : S256x4096.Transposes [1, 0] S4096x256
  inb_S1024x256_S1024x256_0_0 : ∀ a, (![0, 0] : Fin 2 → Nat) a + S1024x256.size a ≤ S1024x256.size a
  h_S1024x256 : 0 < S1024x256.numel
  reducesTo_S4096x11008_S4096_d1 : S4096x11008.ReducesTo [1] S4096
  bcast_S4096x1_S4096x11008_0_1 : S4096x1.BroadcastsInDim S4096x11008 (![0, 1] : Fin 2 → Fin S4096x11008.rank)
  inb_S512x11008_S512x11008_0_0 : ∀ a, (![0, 0] : Fin 2 → Nat) a + S512x11008.size a ≤ S512x11008.size a
  h_S512x11008 : 0 < S512x11008.numel
  shapeCasts_S512x11008_S512x11008 : S512x11008.ShapeCasts S512x11008
  inb_S256x11008_S256x11008_0_0 : ∀ a, (![0, 0] : Fin 2 → Nat) a + S256x11008.size a ≤ S256x11008.size a
  h_S256x11008 : 0 < S256x11008.numel
  shapeCasts_S256x11008_S256x11008 : S256x11008.ShapeCasts S256x11008
  transposes_S256x11008_p1_0_S11008x256 : S256x11008.Transposes [1, 0] S11008x256
  inb_S512x256_S512x256_0_0 : ∀ a, (![0, 0] : Fin 2 → Nat) a + S512x256.size a ≤ S512x256.size a
  h_S512x256 : 0 < S512x256.numel
  shapeCasts_S4096x4096_S2x2048x4096 : S4096x4096.ShapeCasts S2x2048x4096
  dot_S1024x4096_S4096x256_S1024x256_1_0_0_1_n_n_wf : DotDims.WF S1024x4096 S4096x256 S1024x256 [1] [0] [0] [1] [] []
  dot_S512x11008_S11008x256_S512x256_1_0_0_1_n_n_wf : DotDims.WF S512x11008 S11008x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S4096x11008.size a
  hwx0_3 : ∀ i : grid0.Coords, EltTy.bits .f32 = 32 ∨ (Rect.block (s := S4096x11008) S1024x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x11008.size a ≤ S4096x11008.size a
  hwx1_0 : ∀ i : grid1.Coords, EltTy.bits .bf16 = 32 ∨ (Rect.block (s := S4096x11008) S512x11008.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x11008.size a ≤ S4096x11008.size a
  hwx1_1 : ∀ i : grid1.Coords, EltTy.bits .bf16 = 32 ∨ (Rect.block (s := S4096x11008) S256x11008.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S4096x4096.size a
  hwx1_2 : ∀ i : grid1.Coords, EltTy.bits .f32 = 32 ∨ (Rect.block (s := S4096x4096) S512x256.size (cc1_transform_2 i) (hinb1_2 i)).WholeWords (EltTy.packing .f32)

variable [Facts₀]

def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf
def dot_S512x11008_S11008x256_S512x256_1_0_0_1_n_n : DotDims S512x11008 S11008x256 S512x256 where
  lhsContracting := [1]
  rhsContracting := [0]
  lhsNonContracting := [0]
  rhsNonContracting := [1]
  lhsBatch := []
  rhsBatch := []
  wf := dot_S512x11008_S11008x256_S512x256_1_0_0_1_n_n_wf

abbrev win0_0 : Pipeline.Window sig grid0 :=
  Pipeline.Window.ofSpec (Memref.whole main_v13) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v50) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v63) S512x11008.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S256x11008.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v64) S512x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x2048x4096 : Shape := ⟨3, ![2, 2048, 4096]⟩
abbrev S11008x4096 : Shape := ⟨2, ![11008, 4096]⟩
abbrev S4096x11008 : Shape := ⟨2, ![4096, 11008]⟩
abbrev S_ : Shape := ⟨0, ![]⟩
abbrev S2x2048 : Shape := ⟨2, ![2, 2048]⟩
abbrev S2x2048x1 : Shape := ⟨3, ![2, 2048, 1]⟩
abbrev S2x2048x11008 : Shape := ⟨3, ![2, 2048, 11008]⟩

abbrev nBuf : Space → Nat
  | .hbm => 165
  | .vmem => 0
  | .smem => 0
  | _ => 0

abbrev hbmTy0_0 (i : Nat) : BufTy := match i % 128 with
  | 0 => ⟨S2x2048x4096, .f32⟩
  | 1 => ⟨S11008x4096, .f32⟩
  | 2 => ⟨S11008x4096, .f32⟩
  | 3 => ⟨S4096x11008, .f32⟩
  | 4 => ⟨S2x2048x4096, .f32⟩
  | 5 => ⟨S_, .f32⟩
  | 6 => ⟨S2x2048, .f32⟩
  | 7 => ⟨S2x2048x1, .f32⟩
  | 8 => ⟨S_, .f32⟩
  | 9 => ⟨S_, .f32⟩
  | 10 => ⟨S2x2048x1, .f32⟩
  | 11 => ⟨S2x2048x1, .f32⟩
  | 12 => ⟨S_, .f32⟩
  | 13 => ⟨S2x2048x1, .f32⟩
  | 14 => ⟨S2x2048x1, .f32⟩
  | 15 => ⟨S2x2048x4096, .f32⟩
  | 16 => ⟨S2x2048x4096, .f32⟩
  | 17 => ⟨S2x2048x4096, .f32⟩
  | 18 => ⟨S_, .i32⟩
  | 19 => ⟨S_, .i32⟩
  | 20 => ⟨S_, .f32⟩
  | 21 => ⟨S2x2048x4096, .f32⟩
  | 22 => ⟨S2x2048x4096, .f32⟩
  | 23 => ⟨S_, .f32⟩
  | 24 => ⟨S2x2048x4096, .f32⟩
  | 25 => ⟨S2x2048x4096, .f32⟩
  | 26 => ⟨S2x2048x4096, .f32⟩
  | 27 => ⟨S2x2048x4096, .f32⟩
  | 28 => ⟨S2x2048x4096, .f32⟩
  | 29 => ⟨S2x2048x4096, .f32⟩
  | 30 => ⟨S11008x4096, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S11008x4096, .f32⟩
  | 41 => ⟨S11008x4096, .f32⟩
  | 42 => ⟨S11008x4096, .f32⟩
  | 43 => ⟨S_, .i32⟩
  | 44 => ⟨S_, .i32⟩
  | 45 => ⟨S_, .f32⟩
  | 46 => ⟨S11008x4096, .f32⟩
  | 47 => ⟨S11008x4096, .f32⟩
  | 48 => ⟨S_, .f32⟩
  | 49 => ⟨S11008x4096, .f32⟩
  | 50 => ⟨S11008x4096, .f32⟩
  | 51 => ⟨S11008x4096, .f32⟩
  | 52 => ⟨S11008x4096, .f32⟩
  | 53 => ⟨S11008x4096, .f32⟩
  | 54 => ⟨S11008x4096, .f32⟩
  | 55 => ⟨S2x2048x11008, .f32⟩
  | 56 => ⟨S_, .f32⟩
  | 57 => ⟨S2x2048x11008, .f32⟩
  | 58 => ⟨S2x2048x11008, .f32⟩
  | 59 => ⟨S2x2048x11008, .f32⟩
  | 60 => ⟨S2x2048x4096, .f32⟩
  | 61 => ⟨S_, .f32⟩
  | 62 => ⟨S2x2048, .f32⟩
  | 63 => ⟨S2x2048x1, .f32⟩
  | 64 => ⟨S_, .f32⟩
  | 65 => ⟨S_, .f32⟩
  | 66 => ⟨S2x2048x1, .f32⟩
  | 67 => ⟨S2x2048x1, .f32⟩
  | 68 => ⟨S_, .f32⟩
  | 69 => ⟨S2x2048x1, .f32⟩
  | 70 => ⟨S2x2048x1, .f32⟩
  | 71 => ⟨S2x2048x4096, .f32⟩
  | 72 => ⟨S2x2048x4096, .f32⟩
  | 73 => ⟨S2x2048x4096, .f32⟩
  | 74 => ⟨S_, .i32⟩
  | 75 => ⟨S_, .i32⟩
  | 76 => ⟨S_, .f32⟩
  | 77 => ⟨S2x2048x4096, .f32⟩
  | 78 => ⟨S2x2048x4096, .f32⟩
  | 79 => ⟨S_, .f32⟩
  | 80 => ⟨S2x2048x4096, .f32⟩
  | 81 => ⟨S2x2048x4096, .f32⟩
  | 82 => ⟨S2x2048x4096, .f32⟩
  | 83 => ⟨S2x2048x4096, .f32⟩
  | 84 => ⟨S2x2048x4096, .f32⟩
  | 85 => ⟨S2x2048x4096, .f32⟩
  | 86 => ⟨S11008x4096, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S11008x4096, .f32⟩
  | 97 => ⟨S11008x4096, .f32⟩
  | 98 => ⟨S11008x4096, .f32⟩
  | 99 => ⟨S_, .i32⟩
  | 100 => ⟨S_, .i32⟩
  | 101 => ⟨S_, .f32⟩
  | 102 => ⟨S11008x4096, .f32⟩
  | 103 => ⟨S11008x4096, .f32⟩
  | 104 => ⟨S_, .f32⟩
  | 105 => ⟨S11008x4096, .f32⟩
  | 106 => ⟨S11008x4096, .f32⟩
  | 107 => ⟨S11008x4096, .f32⟩
  | 108 => ⟨S11008x4096, .f32⟩
  | 109 => ⟨S11008x4096, .f32⟩
  | 110 => ⟨S11008x4096, .f32⟩
  | 111 => ⟨S2x2048x11008, .f32⟩
  | 112 => ⟨S2x2048x11008, .f32⟩
  | 113 => ⟨S2x2048x11008, .f32⟩
  | 114 => ⟨S_, .f32⟩
  | 115 => ⟨S2x2048, .f32⟩
  | 116 => ⟨S2x2048x1, .f32⟩
  | 117 => ⟨S_, .f32⟩
  | 118 => ⟨S_, .f32⟩
  | 119 => ⟨S2x2048x1, .f32⟩
  | 120 => ⟨S2x2048x1, .f32⟩
  | 121 => ⟨S_, .f32⟩
  | 122 => ⟨S2x2048x1, .f32⟩
  | 123 => ⟨S2x2048x1, .f32⟩
  | 124 => ⟨S2x2048x11008, .f32⟩
  | 125 => ⟨S2x2048x11008, .f32⟩
  | 126 => ⟨S2x2048x11008, .f32⟩
  | 127 => ⟨S_, .i32⟩
  | _ => ⟨S2x2048x4096, .f32⟩

abbrev hbmTy0_1 (i : Nat) : BufTy := match i % 128 with
  | 0 => ⟨S_, .i32⟩
  | 1 => ⟨S_, .f32⟩
  | 2 => ⟨S2x2048x11008, .f32⟩
  | 3 => ⟨S2x2048x11008, .f32⟩
  | 4 => ⟨S_, .f32⟩
  | 5 => ⟨S2x2048x11008, .f32⟩
  | 6 => ⟨S2x2048x11008, .f32⟩
  | 7 => ⟨S2x2048x11008, .f32⟩
  | 8 => ⟨S2x2048x11008, .f32⟩
  | 9 => ⟨S2x2048x11008, .f32⟩
  | 10 => ⟨S2x2048x11008, .f32⟩
  | 11 => ⟨S4096x11008, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S4096x11008, .f32⟩
  | 22 => ⟨S4096x11008, .f32⟩
  | 23 => ⟨S4096x11008, .f32⟩
  | 24 => ⟨S_, .i32⟩
  | 25 => ⟨S_, .i32⟩
  | 26 => ⟨S_, .f32⟩
  | 27 => ⟨S4096x11008, .f32⟩
  | 28 => ⟨S4096x11008, .f32⟩
  | 29 => ⟨S_, .f32⟩
  | 30 => ⟨S4096x11008, .f32⟩
  | 31 => ⟨S4096x11008, .f32⟩
  | 32 => ⟨S4096x11008, .f32⟩
  | 33 => ⟨S4096x11008, .f32⟩
  | 34 => ⟨S4096x11008, .f32⟩
  | 35 => ⟨S4096x11008, .f32⟩
  | 36 => ⟨S2x2048x4096, .f32⟩
  | _ => ⟨S2x2048x4096, .f32⟩

abbrev hbmTy (i : Nat) : BufTy := match i / 128 with
  | 0 => hbmTy0_0 i
  | 1 => hbmTy0_1 i
  | _ => ⟨S2x2048x4096, .f32⟩

abbrev bufTy : (tb : Table) → Fin (tcTables nBuf tb) → BufTy
  | .hbm, ⟨i, _⟩ => hbmTy i
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_c_2 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_cst_5 : Ref sig .tc := ⟨.hbm, 35, rfl⟩
abbrev main_call3_v0 : Ref sig .tc := ⟨.hbm, 36, rfl⟩
abbrev main_v17 : Ref sig .tc := ⟨.hbm, 37, rfl⟩
abbrev main_cst_6 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_7 : Ref sig .tc := ⟨.hbm, 43, rfl⟩
abbrev main_c_8 : Ref sig .tc := ⟨.hbm, 44, rfl⟩
abbrev main_call5_v0 : Ref sig .tc := ⟨.hbm, 45, rfl⟩
abbrev main_call5_v1 : Ref sig .tc := ⟨.hbm, 46, rfl⟩
abbrev main_call5_v2 : Ref sig .tc := ⟨.hbm, 47, rfl⟩
abbrev main_call5_v3 : Ref sig .tc := ⟨.hbm, 48, rfl⟩
abbrev main_call5_v4 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_call6_cst : Ref sig .tc := ⟨.hbm, 56, rfl⟩
abbrev main_call6_v0 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_9 : Ref sig .tc := ⟨.hbm, 61, rfl⟩
abbrev main_v31 : Ref sig .tc := ⟨.hbm, 62, rfl⟩
abbrev main_v32 : Ref sig .tc := ⟨.hbm, 63, rfl⟩
abbrev main_cst_10 : Ref sig .tc := ⟨.hbm, 64, rfl⟩
abbrev main_call7_v0 : Ref sig .tc := ⟨.hbm, 65, rfl⟩
abbrev main_call7_v1 : Ref sig .tc := ⟨.hbm, 66, rfl⟩
abbrev main_v33 : Ref sig .tc := ⟨.hbm, 67, rfl⟩
abbrev main_cst_11 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_c_12 : Ref sig .tc := ⟨.hbm, 74, rfl⟩
abbrev main_c_13 : Ref sig .tc := ⟨.hbm, 75, rfl⟩
abbrev main_call9_v0 : Ref sig .tc := ⟨.hbm, 76, rfl⟩
abbrev main_call9_v1 : Ref sig .tc := ⟨.hbm, 77, rfl⟩
abbrev main_call9_v2 : Ref sig .tc := ⟨.hbm, 78, rfl⟩
abbrev main_call9_v3 : Ref sig .tc := ⟨.hbm, 79, rfl⟩
abbrev main_call9_v4 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_cst_14 : Ref sig .tc := ⟨.hbm, 87, rfl⟩
abbrev main_v45 : Ref sig .tc := ⟨.hbm, 88, rfl⟩
abbrev main_cst_15 : Ref sig .tc := ⟨.hbm, 89, rfl⟩
abbrev main_v46 : Ref sig .tc := ⟨.hbm, 90, rfl⟩
abbrev main_cst_16 : Ref sig .tc := ⟨.hbm, 91, rfl⟩
abbrev main_call10_v0 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_c_18 : Ref sig .tc := ⟨.hbm, 99, rfl⟩
abbrev main_c_19 : Ref sig .tc := ⟨.hbm, 100, rfl⟩
abbrev main_call12_v0 : Ref sig .tc := ⟨.hbm, 101, rfl⟩
abbrev main_call12_v1 : Ref sig .tc := ⟨.hbm, 102, rfl⟩
abbrev main_call12_v2 : Ref sig .tc := ⟨.hbm, 103, rfl⟩
abbrev main_call12_v3 : Ref sig .tc := ⟨.hbm, 104, rfl⟩
abbrev main_call12_v4 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_cst_20 : Ref sig .tc := ⟨.hbm, 114, rfl⟩
abbrev main_v60 : Ref sig .tc := ⟨.hbm, 115, rfl⟩
abbrev main_v61 : Ref sig .tc := ⟨.hbm, 116, rfl⟩
abbrev main_cst_21 : Ref sig .tc := ⟨.hbm, 117, rfl⟩
abbrev main_call13_v0 : Ref sig .tc := ⟨.hbm, 118, rfl⟩
abbrev main_call13_v1 : Ref sig .tc := ⟨.hbm, 119, rfl⟩
abbrev main_v62 : Ref sig .tc := ⟨.hbm, 120, rfl⟩
abbrev main_cst_22 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_c_23 : Ref sig .tc := ⟨.hbm, 127, rfl⟩
abbrev main_c_24 : Ref sig .tc := ⟨.hbm, 128, rfl⟩
abbrev main_call15_v0 : Ref sig .tc := ⟨.hbm, 129, rfl⟩
abbrev main_call15_v1 : Ref sig .tc := ⟨.hbm, 130, rfl⟩
abbrev main_call15_v2 : Ref sig .tc := ⟨.hbm, 131, rfl⟩
abbrev main_call15_v3 : Ref sig .tc := ⟨.hbm, 132, rfl⟩
abbrev main_call15_v4 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_cst_25 : Ref sig .tc := ⟨.hbm, 140, rfl⟩
abbrev main_v74 : Ref sig .tc := ⟨.hbm, 141, rfl⟩
abbrev main_cst_26 : Ref sig .tc := ⟨.hbm, 142, rfl⟩
abbrev main_v75 : Ref sig .tc := ⟨.hbm, 143, rfl⟩
abbrev main_cst_27 : Ref sig .tc := ⟨.hbm, 144, rfl⟩
abbrev main_call16_v0 : Ref sig .tc := ⟨.hbm, 145, rfl⟩
abbrev main_v76 : Ref sig .tc := ⟨.hbm, 146, rfl⟩
abbrev main_cst_28 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_c_29 : Ref sig .tc := ⟨.hbm, 152, rfl⟩
abbrev main_c_30 : Ref sig .tc := ⟨.hbm, 153, rfl⟩
abbrev main_call18_v0 : Ref sig .tc := ⟨.hbm, 154, rfl⟩
abbrev main_call18_v1 : Ref sig .tc := ⟨.hbm, 155, rfl⟩
abbrev main_call18_v2 : Ref sig .tc := ⟨.hbm, 156, rfl⟩
abbrev main_call18_v3 : Ref sig .tc := ⟨.hbm, 157, rfl⟩
abbrev main_call18_v4 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩

abbrev nD : Nat := 1
abbrev τ : Topo := Topo.v7x

variable {F : FTy → Type} [FloatOps F]

class Facts₀ : Prop where
  reducesTo_S2x2048x4096_S2x2048_d2 : S2x2048x4096.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x4096_0_1_2 : S2x2048x1.BroadcastsInDim S2x2048x4096 (![0, 1, 2] : Fin 3 → Fin S2x2048x4096.rank)
  bcast_S_S2x2048x4096 : S_.BroadcastsInDim S2x2048x4096 (![] : Fin 0 → Fin S2x2048x4096.rank)
  reducesTo_S11008x4096_S_d0_1 : S11008x4096.ReducesTo [0, 1] S_
  bcast_S_S11008x4096 : S_.BroadcastsInDim S11008x4096 (![] : Fin 0 → Fin S11008x4096.rank)
  bcast_S_S2x2048x11008 : S_.BroadcastsInDim S2x2048x11008 (![] : Fin 0 → Fin S2x2048x11008.rank)
  reducesTo_S2x2048x11008_S2x2048_d2 : S2x2048x11008.ReducesTo [2] S2x2048
  bcast_S2x2048x1_S2x2048x11008_0_1_2 : S2x2048x1.BroadcastsInDim S2x2048x11008 (![0, 1, 2] : Fin 3 → Fin S2x2048x11008.rank)
  reducesTo_S4096x11008_S_d0_1 : S4096x11008.ReducesTo [0, 1] S_
  bcast_S_S4096x11008 : S_.BroadcastsInDim S4096x11008 (![] : Fin 0 → Fin S4096x11008.rank)
  dot_S2x2048x4096_S11008x4096_S2x2048x11008_2_1_01_0_n_n_wf : DotDims.WF S2x2048x4096 S11008x4096 S2x2048x11008 [2] [1] [0, 1] [0] [] []
  dot_S2x2048x11008_S4096x11008_S2x2048x4096_2_1_01_0_n_n_wf : DotDims.WF S2x2048x11008 S4096x11008 S2x2048x4096 [2] [1] [0, 1] [0] [] []

variable [Facts₀]

def dot_S2x2048x4096_S11008x4096_S2x2048x11008_2_1_01_0_n_n : DotDims S2x2048x4096 S11008x4096 S2x2048x11008 where
  lhsContracting := [2]
  rhsContracting := [1]
  lhsNonContracting := [0, 1]
  rhsNonContracting := [0]
  lhsBatch := []
  rhsBatch := []
  wf := dot_S2x2048x4096_S11008x4096_S2x2048x11008_2_1_01_0_n_n_wf
def dot_S2x2048x11008_S4096x11008_S2x2048x4096_2_1_01_0_n_n : DotDims S2x2048x11008 S4096x11008 S2x2048x4096 where
  lhsContracting := [2]
  rhsContracting := [1]
  lhsNonContracting := [0, 1]
  rhsNonContracting := [0]
  lhsBatch := []
  rhsBatch := []
  wf := dot_S2x2048x11008_S4096x11008_S2x2048x4096_2_1_01_0_n_n_wf

class Facts : Prop extends Facts₀ where

variable [Facts]
-- ==== Proof.RefRunVal.lean ====
/-
  The reference program's run, stated over its stages: every weakly fair execution of its 161 host operations ends with
  the result buffer at the last stage's value `val_main_v86` of the four argument arrays, and the arguments as launched.
  The operation list is read in consecutive chunks, each chunk's results named by the stages they compute and every
  buffer a later chunk still reads carried across unchanged; the chunks are joined by the fold's append law.
-/
import proofs.«143940_j18047452578029_1_alg».proof.Proof.RefRun
import proofs.«143940_j18047452578029_1_alg».proof.Proof.RefRead
import Idealize.ShloMosaic.Lib.StableHlo.Run
import Idealize.ShloMosaic.Lib.Pipeline.Frame

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-! ## The operation list in eight consecutive chunks

Each chunk ends at a stage that a later chunk reads. An operation of a called function, which the program's list spells
at typed references, is spelt here by the plain builder at the references themselves: at a literal reference the typed
builder is the plain one by computation, so the two lists are equal by reflexivity, and the plain spelling's results
carry no transport along the references' type equations. -/

/-- Chunk A: the first activation's quantisation, through `main_v13`; it reads the first argument only. -/
abbrev opsA : List (HloOp τ sig (Elt F)) :=
  [ unary main_arg0 main_v0 (Host.absf : (⟨S2x2048x4096, .f32⟩ : BufTy).Contents (Elt F) → (⟨S2x2048x4096, .f32⟩ : BufTy).Contents (Elt F)),
    nullary main_cst (constant S_ .f32 0xFF800000#32),
    binary main_v0 main_cst main_v1 ((fun x v => Host.reduce FloatOps.maximumf x v reducesTo_S2x2048x4096_S2x2048_d2 h_S_) : (⟨S2x2048x4096, .f32⟩ : BufTy).Contents (Elt F) → (⟨S_, .f32⟩ : BufTy).Contents (Elt F) → (⟨S2x2048, .f32⟩ : BufTy).Contents (Elt F)),
    unary main_v1 main_v2 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_0 (constant S_ .f32 0x3727C5AC#32),
    unary main_cst_0 main_call0_v0 (id : (⟨S_, .f32⟩ : BufTy).Contents (Elt F) → (⟨S_, .f32⟩ : BufTy).Contents (Elt F)),
    unary main_call0_v0 main_call0_v1 (broadcastInDim S2x2048x1 ![] bcast_S_S2x2048x1 : (⟨S_, .f32⟩ : BufTy).Contents (Elt F) → (⟨S2x2048x1, .f32⟩ : BufTy).Contents (Elt F)),
    binary main_call0_v1 main_v2 main_v3 (maximumf : (⟨S2x2048x1, .f32⟩ : BufTy).Contents (Elt F) → (⟨S2x2048x1, .f32⟩ : BufTy).Contents (Elt F) → (⟨S2x2048x1, .f32⟩ : BufTy).Contents (Elt F)),
    nullary main_cst_1 (constant S_ .f32 0x42FE0000#32),
    unary main_cst_1 main_v4 (broadcastInDim S2x2048x1 ![] bcast_S_S2x2048x1 : (⟨S_, .f32⟩ : BufTy).Contents (Elt F) → (⟨S2x2048x1, .f32⟩ : BufTy).Contents (Elt F)),
    binary main_v4 main_v3 main_v5 (Host.divf : (⟨S2x2048x1, .f32⟩ : BufTy).Contents (Elt F) → (⟨S2x2048x1, .f32⟩ : BufTy).Contents (Elt F) → (⟨S2x2048x1, .f32⟩ : BufTy).Contents (Elt F)),
    unary main_v5 main_v6 (broadcastInDim S2x2048x4096 ![0, 1, 2] bcast_S2x2048x1_S2x2048x4096_0_1_2 : (⟨S2x2048x1, .f32⟩ : BufTy).Contents (Elt F) → (⟨S2x2048x4096, .f32⟩ : BufTy).Contents (Elt F)),
    binary main_arg0 main_v6 main_v7 (mulf : (⟨S2x2048x4096, .f32⟩ : BufTy).Contents (Elt F) → (⟨S2x2048x4096, .f32⟩ : BufTy).Contents (Elt F) → (⟨S2x2048x4096, .f32⟩ : BufTy).Contents (Elt F)),
    unary main_v7 main_v8 (Host.roundeven : (⟨S2x2048x4096, .f32⟩ : BufTy).Contents (Elt F) → (⟨S2x2048x4096, .f32⟩ : BufTy).Contents (Elt F)),
    nullary main_c (constantI S_ 32 4294967168#32),
    nullary main_c_2 (constantI S_ 32 127#32),
    unary main_c main_call2_v0 (sitofp .f32 : (⟨S_, .i32⟩ : BufTy).Contents (Elt F) → (⟨S_, .f32⟩ : BufTy).Contents (Elt F)),
    unary main_call2_v0 main_call2_v1 (broadcastInDim S2x2048x4096 ![] bcast_S_S2x2048x4096 : (⟨S_, .f32⟩ : BufTy).Contents (Elt F) → (⟨S2x2048x4096, .f32⟩ : BufTy).Contents (Elt F)),
    binary main_call2_v1 main_v8 main_call2_v2 (maximumf : (⟨S2x2048x4096, .f32⟩ : BufTy).Contents (Elt F) → (⟨S2x2048x4096, .f32⟩ : BufTy).Contents (Elt F) → (⟨S2x2048x4096, .f32⟩ : BufTy).Contents (Elt F)),
    unary main_c_2 main_call2_v3 (sitofp .f32 : (⟨S_, .i32⟩ : BufTy).Contents (Elt F) → (⟨S_, .f32⟩ : BufTy).Contents (Elt F)),
    unary main_call2_v3 main_call2_v4 (broadcastInDim S2x2048x4096 ![] bcast_S_S2x2048x4096 : (⟨S_, .f32⟩ : BufTy).Contents (Elt F) → (⟨S2x2048x4096, .f32⟩ : BufTy).Contents (Elt F)),
    binary main_call2_v4 main_call2_v2 main_v9 (minimumf : (⟨S2x2048x4096, .f32⟩ : BufTy).Contents (Elt F) → (⟨S2x2048x4096, .f32⟩ : BufTy).Contents (Elt F) → (⟨S2x2048x4096, .f32⟩ : BufTy).Contents (Elt F)),
    unary main_v5 main_v10 (broadcastInDim S2x2048x4096 ![0, 1, 2] bcast_S2x2048x1_S2x2048x4096_0_1_2 : (⟨S2x2048x1, .f32⟩ : BufTy).Contents (Elt F) → (⟨S2x2048x4096, .f32⟩ : BufTy).Contents (Elt F)),
    binary main_v9 main_v10 main_v11 (Host.divf : (⟨S2x2048x4096, .f32⟩ : BufTy).Contents (Elt F) → (⟨S2x2048x4096, .f32⟩ : BufTy).Contents (Elt F) → (⟨S2x2048x4096, .f32⟩ : BufTy).Contents (Elt F)),
    binary main_v11 main_arg0 main_v12 (subf : (⟨S2x2048x4096, .f32⟩ : BufTy).Contents (Elt F) → (⟨S2x2048x4096, .f32⟩ : BufTy).Contents (Elt F) → (⟨S2x2048x4096, .f32⟩ : BufTy).Contents (Elt F)),
    binary main_arg0 main_v12 main_v13 (addf : (⟨S2x2048x4096, .f32⟩ : BufTy).Contents (Elt F) → (⟨S2x2048x4096, .f32⟩ : BufTy).Contents (Elt F) → (⟨S2x2048x4096, .f32⟩ : BufTy).Contents (Elt F)) ]

/-- Chunk B: the first weight's quantisation, through `main_v26`; it reads the second argument only. -/
abbrev opsB : List (HloOp τ sig (Elt F)) :=
  [ unary main_arg1 main_v14 (Host.absf : (⟨S11008x4096, .f32⟩ : BufTy).Contents (Elt F) → (⟨S11008x4096, .f32⟩ : BufTy).Contents (Elt F)),
    nullary main_cst_3 (constant S_ .f32 0x00000000#32),
    binary main_v14 main_cst_3 main_v15 ((fun x v => Host.reduceAdd x v reducesTo_S11008x4096_S_d0_1 h_S_) : (⟨S11008x4096, .f32⟩ : BufTy).Contents (Elt F) → (⟨S_, .f32⟩ : BufTy).Contents (Elt F) → (⟨S_, .f32⟩ : BufTy).Contents (Elt F)),
    nullary main_cst_4 (constant S_ .f32 0x4C2C0000#32),
    binary main_v15 main_cst_4 main_v16 (Host.divf : (⟨S_, .f32⟩ : BufTy).Contents (Elt F) → (⟨S_, .f32⟩ : BufTy).Contents (Elt F) → (⟨S_, .f32⟩ : BufTy).Contents (Elt F)),
    nullary main_cst_5 (constant S_ .f32 0x3727C5AC#32),
    unary main_cst_5 main_call3_v0 (id : (⟨S_, .f32⟩ : BufTy).Contents (Elt F) → (⟨S_, .f32⟩ : BufTy).Contents (Elt F)),
    binary main_call3_v0 main_v16 main_v17 (maximumf : (⟨S_, .f32⟩ : BufTy).Contents (Elt F) → (⟨S_, .f32⟩ : BufTy).Contents (Elt F) → (⟨S_, .f32⟩ : BufTy).Contents (Elt F)),
    nullary main_cst_6 (constant S_ .f32 0x3F800000#32),
    binary main_cst_6 main_v17 main_v18 (Host.divf : (⟨S_, .f32⟩ : BufTy).Contents (Elt F) → (⟨S_, .f32⟩ : BufTy).Contents (Elt F) → (⟨S_, .f32⟩ : BufTy).Contents (Elt F)),
    unary main_v18 main_v19 (broadcastInDim S11008x4096 ![] bcast_S_S11008x4096 : (⟨S_, .f32⟩ : BufTy).Contents (Elt F) → (⟨S11008x4096, .f32⟩ : BufTy).Contents (Elt F)),
    binary main_arg1 main_v19 main_v20 (mulf : (⟨S11008x4096, .f32⟩ : BufTy).Contents (Elt F) → (⟨S11008x4096, .f32⟩ : BufTy).Contents (Elt F) → (⟨S11008x4096, .f32⟩ : BufTy).Contents (Elt F)),
    unary main_v20 main_v21 (Host.roundeven : (⟨S11008x4096, .f32⟩ : BufTy).Contents (Elt F) → (⟨S11008x4096, .f32⟩ : BufTy).Contents (Elt F)),
    nullary main_c_7 (constantI S_ 32 4294967295#32),
    nullary main_c_8 (constantI S_ 32 1#32),
    unary main_c_7 main_call5_v0 (sitofp .f32 : (⟨S_, .i32⟩ : BufTy).Contents (Elt F) → (⟨S_, .f32⟩ : BufTy).Contents (Elt F)),
    unary main_call5_v0 main_call5_v1 (broadcastInDim S11008x4096 ![] bcast_S_S11008x4096 : (⟨S_, .f32⟩ : BufTy).Contents (Elt F) → (⟨S11008x4096, .f32⟩ : BufTy).Contents (Elt F)),
    binary main_call5_v1 main_v21 main_call5_v2 (maximumf : (⟨S11008x4096, .f32⟩ : BufTy).Contents (Elt F) → (⟨S11008x4096, .f32⟩ : BufTy).Contents (Elt F) → (⟨S11008x4096, .f32⟩ : BufTy).Contents (Elt F)),
    unary main_c_8 main_call5_v3 (sitofp .f32 : (⟨S_, .i32⟩ : BufTy).Contents (Elt F) → (⟨S_, .f32⟩ : BufTy).Contents (Elt F)),
    unary main_call5_v3 main_call5_v4 (broadcastInDim S11008x4096 ![] bcast_S_S11008x4096 : (⟨S_, .f32⟩ : BufTy).Contents (Elt F) → (⟨S11008x4096, .f32⟩ : BufTy).Contents (Elt F)),
    binary main_call5_v4 main_call5_v2 main_v22 (minimumf : (⟨S11008x4096, .f32⟩ : BufTy).Contents (Elt F) → (⟨S11008x4096, .f32⟩ : BufTy).Contents (Elt F) → (⟨S11008x4096, .f32⟩ : BufTy).Contents (Elt F)),
    unary main_v18 main_v23 (broadcastInDim S11008x4096 ![] bcast_S_S11008x4096 : (⟨S_, .f32⟩ : BufTy).Contents (Elt F) → (⟨S11008x4096, .f32⟩ : BufTy).Contents (Elt F)),
    binary main_v22 main_v23 main_v24 (Host.divf : (⟨S11008x4096, .f32⟩ : BufTy).Contents (Elt F) → (⟨S11008x4096, .f32⟩ : BufTy).Contents (Elt F) → (⟨S11008x4096, .f32⟩ : BufTy).Contents (Elt F)),
    binary main_v24 main_arg1 main_v25 (subf : (⟨S11008x4096, .f32⟩ : BufTy).Contents (Elt F) → (⟨S11008x4096, .f32⟩ : BufTy).Contents (Elt F) → (⟨S11008x4096, .f32⟩ : BufTy).Contents (Elt F)),
    binary main_arg1 main_v25 main_v26 (addf : (⟨S11008x4096, .f32⟩ : BufTy).Contents (Elt F) → (⟨S11008x4096, .f32⟩ : BufTy).Contents (Elt F) → (⟨S11008x4096, .f32⟩ : BufTy).Contents (Elt F)) ]

/-- Chunk C: the first product, clamped below at zero and squared, through `main_v29`; it reads `main_v13` and `main_v26`. -/
abbrev opsC : List (HloOp τ sig (Elt F)) :=
  [ binary main_v13 main_v26 main_v27 ((fun l r => Host.dotGeneral dot_S2x2048x4096_S11008x4096_S2x2048x11008_2_1_01_0_n_n none l r) : (⟨S2x2048x4096, .f32⟩ : BufTy).Contents (Elt F) → (⟨S11008x4096, .f32⟩ : BufTy).Contents (Elt F) → (⟨S2x2048x11008, .f32⟩ : BufTy).Contents (Elt F)),
    nullary main_call6_cst (constant S_ .f32 0x00000000#32),
    unary main_call6_cst main_call6_v0 (broadcastInDim S2x2048x11008 ![] bcast_S_S2x2048x11008 : (⟨S_, .f32⟩ : BufTy).Contents (Elt F) → (⟨S2x2048x11008, .f32⟩ : BufTy).Contents (Elt F)),
    binary main_v27 main_call6_v0 main_v28 (maximumf : (⟨S2x2048x11008, .f32⟩ : BufTy).Contents (Elt F) → (⟨S2x2048x11008, .f32⟩ : BufTy).Contents (Elt F) → (⟨S2x2048x11008, .f32⟩ : BufTy).Contents (Elt F)),
    binary main_v28 main_v28 main_v29 (mulf : (⟨S2x2048x11008, .f32⟩ : BufTy).Contents (Elt F) → (⟨S2x2048x11008, .f32⟩ : BufTy).Contents (Elt F) → (⟨S2x2048x11008, .f32⟩ : BufTy).Contents (Elt F)) ]

/-- Chunk D: the second copy of the activation's quantisation, through `main_v43`; it reads the first argument only. -/
abbrev opsD : List (HloOp τ sig (Elt F)) :=
  [ unary main_arg0 main_v30 (Host.absf : (⟨S2x2048x4096, .f32⟩ : BufTy).Contents (Elt F) → (⟨S2x2048x4096, .f32⟩ : BufTy).Contents (Elt F)),
    nullary main_cst_9 (constant S_ .f32 0xFF800000#32),
    binary main_v30 main_cst_9 main_v31 ((fun x v => Host.reduce FloatOps.maximumf x v reducesTo_S2x2048x4096_S2x2048_d2 h_S_) : (⟨S2x2048x4096, .f32⟩ : BufTy).Contents (Elt F) → (⟨S_, .f32⟩ : BufTy).Contents (Elt F) → (⟨S2x2048, .f32⟩ : BufTy).Contents (Elt F)),
    unary main_v31 main_v32 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_10 (constant S_ .f32 0x3727C5AC#32),
    unary main_cst_10 main_call7_v0 (id : (⟨S_, .f32⟩ : BufTy).Contents (Elt F) → (⟨S_, .f32⟩ : BufTy).Contents (Elt F)),
    unary main_call7_v0 main_call7_v1 (broadcastInDim S2x2048x1 ![] bcast_S_S2x2048x1 : (⟨S_, .f32⟩ : BufTy).Contents (Elt F) → (⟨S2x2048x1, .f32⟩ : BufTy).Contents (Elt F)),
    binary main_call7_v1 main_v32 main_v33 (maximumf : (⟨S2x2048x1, .f32⟩ : BufTy).Contents (Elt F) → (⟨S2x2048x1, .f32⟩ : BufTy).Contents (Elt F) → (⟨S2x2048x1, .f32⟩ : BufTy).Contents (Elt F)),
    nullary main_cst_11 (constant S_ .f32 0x42FE0000#32),
    unary main_cst_11 main_v34 (broadcastInDim S2x2048x1 ![] bcast_S_S2x2048x1 : (⟨S_, .f32⟩ : BufTy).Contents (Elt F) → (⟨S2x2048x1, .f32⟩ : BufTy).Contents (Elt F)),
    binary main_v34 main_v33 main_v35 (Host.divf : (⟨S2x2048x1, .f32⟩ : BufTy).Contents (Elt F) → (⟨S2x2048x1, .f32⟩ : BufTy).Contents (Elt F) → (⟨S2x2048x1, .f32⟩ : BufTy).Contents (Elt F)),
    unary main_v35 main_v36 (broadcastInDim S2x2048x4096 ![0, 1, 2] bcast_S2x2048x1_S2x2048x4096_0_1_2 : (⟨S2x2048x1, .f32⟩ : BufTy).Contents (Elt F) → (⟨S2x2048x4096, .f32⟩ : BufTy).Contents (Elt F)),
    binary main_arg0 main_v36 main_v37 (mulf : (⟨S2x2048x4096, .f32⟩ : BufTy).Contents (Elt F) → (⟨S2x2048x4096, .f32⟩ : BufTy).Contents (Elt F) → (⟨S2x2048x4096, .f32⟩ : BufTy).Contents (Elt F)),
    unary main_v37 main_v38 (Host.roundeven : (⟨S2x2048x4096, .f32⟩ : BufTy).Contents (Elt F) → (⟨S2x2048x4096, .f32⟩ : BufTy).Contents (Elt F)),
    nullary main_c_12 (constantI S_ 32 4294967168#32),
    nullary main_c_13 (constantI S_ 32 127#32),
    unary main_c_12 main_call9_v0 (sitofp .f32 : (⟨S_, .i32⟩ : BufTy).Contents (Elt F) → (⟨S_, .f32⟩ : BufTy).Contents (Elt F)),
    unary main_call9_v0 main_call9_v1 (broadcastInDim S2x2048x4096 ![] bcast_S_S2x2048x4096 : (⟨S_, .f32⟩ : BufTy).Contents (Elt F) → (⟨S2x2048x4096, .f32⟩ : BufTy).Contents (Elt F)),
    binary main_call9_v1 main_v38 main_call9_v2 (maximumf : (⟨S2x2048x4096, .f32⟩ : BufTy).Contents (Elt F) → (⟨S2x2048x4096, .f32⟩ : BufTy).Contents (Elt F) → (⟨S2x2048x4096, .f32⟩ : BufTy).Contents (Elt F)),
    unary main_c_13 main_call9_v3 (sitofp .f32 : (⟨S_, .i32⟩ : BufTy).Contents (Elt F) → (⟨S_, .f32⟩ : BufTy).Contents (Elt F)),
    unary main_call9_v3 main_call9_v4 (broadcastInDim S2x2048x4096 ![] bcast_S_S2x2048x4096 : (⟨S_, .f32⟩ : BufTy).Contents (Elt F) → (⟨S2x2048x4096, .f32⟩ : BufTy).Contents (Elt F)),
    binary main_call9_v4 main_call9_v2 main_v39 (minimumf : (⟨S2x2048x4096, .f32⟩ : BufTy).Contents (Elt F) → (⟨S2x2048x4096, .f32⟩ : BufTy).Contents (Elt F) → (⟨S2x2048x4096, .f32⟩ : BufTy).Contents (Elt F)),
    unary main_v35 main_v40 (broadcastInDim S2x2048x4096 ![0, 1, 2] bcast_S2x2048x1_S2x2048x4096_0_1_2 : (⟨S2x2048x1, .f32⟩ : BufTy).Contents (Elt F) → (⟨S2x2048x4096, .f32⟩ : BufTy).Contents (Elt F)),
    binary main_v39 main_v40 main_v41 (Host.divf : (⟨S2x2048x4096, .f32⟩ : BufTy).Contents (Elt F) → (⟨S2x2048x4096, .f32⟩ : BufTy).Contents (Elt F) → (⟨S2x2048x4096, .f32⟩ : BufTy).Contents (Elt F)),
    binary main_v41 main_arg0 main_v42 (subf : (⟨S2x2048x4096, .f32⟩ : BufTy).Contents (Elt F) → (⟨S2x2048x4096, .f32⟩ : BufTy).Contents (Elt F) → (⟨S2x2048x4096, .f32⟩ : BufTy).Contents (Elt F)),
    binary main_arg0 main_v42 main_v43 (addf : (⟨S2x2048x4096, .f32⟩ : BufTy).Contents (Elt F) → (⟨S2x2048x4096, .f32⟩ : BufTy).Contents (Elt F) → (⟨S2x2048x4096, .f32⟩ : BufTy).Contents (Elt F)) ]

/-- Chunk E: the second weight's quantisation, through `main_v56`; it reads the third argument only. -/
abbrev opsE : List (HloOp τ sig (Elt F)) :=
  [ unary main_arg2 main_v44 (Host.absf : (⟨S11008x4096, .f32⟩ : BufTy).Contents (Elt F) → (⟨S11008x4096, .f32⟩ : BufTy).Contents (Elt F)),
    nullary main_cst_14 (constant S_ .f32 0x00000000#32),
    binary main_v44 main_cst_14 main_v45 ((fun x v => Host.reduceAdd x v reducesTo_S11008x4096_S_d0_1 h_S_) : (⟨S11008x4096, .f32⟩ : BufTy).Contents (Elt F) → (⟨S_, .f32⟩ : BufTy).Contents (Elt F) → (⟨S_, .f32⟩ : BufTy).Contents (Elt F)),
    nullary main_cst_15 (constant S_ .f32 0x4C2C0000#32),
    binary main_v45 main_cst_15 main_v46 (Host.divf : (⟨S_, .f32⟩ : BufTy).Contents (Elt F) → (⟨S_, .f32⟩ : BufTy).Contents (Elt F) → (⟨S_, .f32⟩ : BufTy).Contents (Elt F)),
    nullary main_cst_16 (constant S_ .f32 0x3727C5AC#32),
    unary main_cst_16 main_call10_v0 (id : (⟨S_, .f32⟩ : BufTy).Contents (Elt F) → (⟨S_, .f32⟩ : BufTy).Contents (Elt F)),
    binary main_call10_v0 main_v46 main_v47 (maximumf : (⟨S_, .f32⟩ : BufTy).Contents (Elt F) → (⟨S_, .f32⟩ : BufTy).Contents (Elt F) → (⟨S_, .f32⟩ : BufTy).Contents (Elt F)),
    nullary main_cst_17 (constant S_ .f32 0x3F800000#32),
    binary main_cst_17 main_v47 main_v48 (Host.divf : (⟨S_, .f32⟩ : BufTy).Contents (Elt F) → (⟨S_, .f32⟩ : BufTy).Contents (Elt F) → (⟨S_, .f32⟩ : BufTy).Contents (Elt F)),
    unary main_v48 main_v49 (broadcastInDim S11008x4096 ![] bcast_S_S11008x4096 : (⟨S_, .f32⟩ : BufTy).Contents (Elt F) → (⟨S11008x4096, .f32⟩ : BufTy).Contents (Elt F)),
    binary main_arg2 main_v49 main_v50 (mulf : (⟨S11008x4096, .f32⟩ : BufTy).Contents (Elt F) → (⟨S11008x4096, .f32⟩ : BufTy).Contents (Elt F) → (⟨S11008x4096, .f32⟩ : BufTy).Contents (Elt F)),
    unary main_v50 main_v51 (Host.roundeven : (⟨S11008x4096, .f32⟩ : BufTy).Contents (Elt F) → (⟨S11008x4096, .f32⟩ : BufTy).Contents (Elt F)),
    nullary main_c_18 (constantI S_ 32 4294967295#32),
    nullary main_c_19 (constantI S_ 32 1#32),
    unary main_c_18 main_call12_v0 (sitofp .f32 : (⟨S_, .i32⟩ : BufTy).Contents (Elt F) → (⟨S_, .f32⟩ : BufTy).Contents (Elt F)),
    unary main_call12_v0 main_call12_v1 (broadcastInDim S11008x4096 ![] bcast_S_S11008x4096 : (⟨S_, .f32⟩ : BufTy).Contents (Elt F) → (⟨S11008x4096, .f32⟩ : BufTy).Contents (Elt F)),
    binary main_call12_v1 main_v51 main_call12_v2 (maximumf : (⟨S11008x4096, .f32⟩ : BufTy).Contents (Elt F) → (⟨S11008x4096, .f32⟩ : BufTy).Contents (Elt F) → (⟨S11008x4096, .f32⟩ : BufTy).Contents (Elt F)),
    unary main_c_19 main_call12_v3 (sitofp .f32 : (⟨S_, .i32⟩ : BufTy).Contents (Elt F) → (⟨S_, .f32⟩ : BufTy).Contents (Elt F)),
    unary main_call12_v3 main_call12_v4 (broadcastInDim S11008x4096 ![] bcast_S_S11008x4096 : (⟨S_, .f32⟩ : BufTy).Contents (Elt F) → (⟨S11008x4096, .f32⟩ : BufTy).Contents (Elt F)),
    binary main_call12_v4 main_call12_v2 main_v52 (minimumf : (⟨S11008x4096, .f32⟩ : BufTy).Contents (Elt F) → (⟨S11008x4096, .f32⟩ : BufTy).Contents (Elt F) → (⟨S11008x4096, .f32⟩ : BufTy).Contents (Elt F)),
    unary main_v48 main_v53 (broadcastInDim S11008x4096 ![] bcast_S_S11008x4096 : (⟨S_, .f32⟩ : BufTy).Contents (Elt F) → (⟨S11008x4096, .f32⟩ : BufTy).Contents (Elt F)),
    binary main_v52 main_v53 main_v54 (Host.divf : (⟨S11008x4096, .f32⟩ : BufTy).Contents (Elt F) → (⟨S11008x4096, .f32⟩ : BufTy).Contents (Elt F) → (⟨S11008x4096, .f32⟩ : BufTy).Contents (Elt F)),
    binary main_v54 main_arg2 main_v55 (subf : (⟨S11008x4096, .f32⟩ : BufTy).Contents (Elt F) → (⟨S11008x4096, .f32⟩ : BufTy).Contents (Elt F) → (⟨S11008x4096, .f32⟩ : BufTy).Contents (Elt F)),
    binary main_arg2 main_v55 main_v56 (addf : (⟨S11008x4096, .f32⟩ : BufTy).Contents (Elt F) → (⟨S11008x4096, .f32⟩ : BufTy).Contents (Elt F) → (⟨S11008x4096, .f32⟩ : BufTy).Contents (Elt F)) ]

/-- Chunk F: the second product and the gate, through `main_v58`; it reads `main_v43`, `main_v56` and `main_v29`. -/
abbrev opsF : List (HloOp τ sig (Elt F)) :=
  [ binary main_v43 main_v56 main_v57 ((fun l r => Host.dotGeneral dot_S2x2048x4096_S11008x4096_S2x2048x11008_2_1_01_0_n_n none l r) : (⟨S2x2048x4096, .f32⟩ : BufTy).Contents (Elt F) → (⟨S11008x4096, .f32⟩ : BufTy).Contents (Elt F) → (⟨S2x2048x11008, .f32⟩ : BufTy).Contents (Elt F)),
    binary main_v29 main_v57 main_v58 (mulf : (⟨S2x2048x11008, .f32⟩ : BufTy).Contents (Elt F) → (⟨S2x2048x11008, .f32⟩ : BufTy).Contents (Elt F) → (⟨S2x2048x11008, .f32⟩ : BufTy).Contents (Elt F)) ]

/-- Chunk G: the gate's quantisation, through `main_v72`; it reads `main_v58` only. -/
abbrev opsG : List (HloOp τ sig (Elt F)) :=
  [ unary main_v58 main_v59 (Host.absf : (⟨S2x2048x11008, .f32⟩ : BufTy).Contents (Elt F) → (⟨S2x2048x11008, .f32⟩ : BufTy).Contents (Elt F)),
    nullary main_cst_20 (constant S_ .f32 0xFF800000#32),
    binary main_v59 main_cst_20 main_v60 ((fun x v => Host.reduce FloatOps.maximumf x v reducesTo_S2x2048x11008_S2x2048_d2 h_S_) : (⟨S2x2048x11008, .f32⟩ : BufTy).Contents (Elt F) → (⟨S_, .f32⟩ : BufTy).Contents (Elt F) → (⟨S2x2048, .f32⟩ : BufTy).Contents (Elt F)),
    unary main_v60 main_v61 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_21 (constant S_ .f32 0x3727C5AC#32),
    unary main_cst_21 main_call13_v0 (id : (⟨S_, .f32⟩ : BufTy).Contents (Elt F) → (⟨S_, .f32⟩ : BufTy).Contents (Elt F)),
    unary main_call13_v0 main_call13_v1 (broadcastInDim S2x2048x1 ![] bcast_S_S2x2048x1 : (⟨S_, .f32⟩ : BufTy).Contents (Elt F) → (⟨S2x2048x1, .f32⟩ : BufTy).Contents (Elt F)),
    binary main_call13_v1 main_v61 main_v62 (maximumf : (⟨S2x2048x1, .f32⟩ : BufTy).Contents (Elt F) → (⟨S2x2048x1, .f32⟩ : BufTy).Contents (Elt F) → (⟨S2x2048x1, .f32⟩ : BufTy).Contents (Elt F)),
    nullary main_cst_22 (constant S_ .f32 0x42FE0000#32),
    unary main_cst_22 main_v63 (broadcastInDim S2x2048x1 ![] bcast_S_S2x2048x1 : (⟨S_, .f32⟩ : BufTy).Contents (Elt F) → (⟨S2x2048x1, .f32⟩ : BufTy).Contents (Elt F)),
    binary main_v63 main_v62 main_v64 (Host.divf : (⟨S2x2048x1, .f32⟩ : BufTy).Contents (Elt F) → (⟨S2x2048x1, .f32⟩ : BufTy).Contents (Elt F) → (⟨S2x2048x1, .f32⟩ : BufTy).Contents (Elt F)),
    unary main_v64 main_v65 (broadcastInDim S2x2048x11008 ![0, 1, 2] bcast_S2x2048x1_S2x2048x11008_0_1_2 : (⟨S2x2048x1, .f32⟩ : BufTy).Contents (Elt F) → (⟨S2x2048x11008, .f32⟩ : BufTy).Contents (Elt F)),
    binary main_v58 main_v65 main_v66 (mulf : (⟨S2x2048x11008, .f32⟩ : BufTy).Contents (Elt F) → (⟨S2x2048x11008, .f32⟩ : BufTy).Contents (Elt F) → (⟨S2x2048x11008, .f32⟩ : BufTy).Contents (Elt F)),
    unary main_v66 main_v67 (Host.roundeven : (⟨S2x2048x11008, .f32⟩ : BufTy).Contents (Elt F) → (⟨S2x2048x11008, .f32⟩ : BufTy).Contents (Elt F)),
    nullary main_c_23 (constantI S_ 32 4294967168#32),
    nullary main_c_24 (constantI S_ 32 127#32),
    unary main_c_23 main_call15_v0 (sitofp .f32 : (⟨S_, .i32⟩ : BufTy).Contents (Elt F) → (⟨S_, .f32⟩ : BufTy).Contents (Elt F)),
    unary main_call15_v0 main_call15_v1 (broadcastInDim S2x2048x11008 ![] bcast_S_S2x2048x11008 : (⟨S_, .f32⟩ : BufTy).Contents (Elt F) → (⟨S2x2048x11008, .f32⟩ : BufTy).Contents (Elt F)),
    binary main_call15_v1 main_v67 main_call15_v2 (maximumf : (⟨S2x2048x11008, .f32⟩ : BufTy).Contents (Elt F) → (⟨S2x2048x11008, .f32⟩ : BufTy).Contents (Elt F) → (⟨S2x2048x11008, .f32⟩ : BufTy).Contents (Elt F)),
    unary main_c_24 main_call15_v3 (sitofp .f32 : (⟨S_, .i32⟩ : BufTy).Contents (Elt F) → (⟨S_, .f32⟩ : BufTy).Contents (Elt F)),
    unary main_call15_v3 main_call15_v4 (broadcastInDim S2x2048x11008 ![] bcast_S_S2x2048x11008 : (⟨S_, .f32⟩ : BufTy).Contents (Elt F) → (⟨S2x2048x11008, .f32⟩ : BufTy).Contents (Elt F)),
    binary main_call15_v4 main_call15_v2 main_v68 (minimumf : (⟨S2x2048x11008, .f32⟩ : BufTy).Contents (Elt F) → (⟨S2x2048x11008, .f32⟩ : BufTy).Contents (Elt F) → (⟨S2x2048x11008, .f32⟩ : BufTy).Contents (Elt F)),
    unary main_v64 main_v69 (broadcastInDim S2x2048x11008 ![0, 1, 2] bcast_S2x2048x1_S2x2048x11008_0_1_2 : (⟨S2x2048x1, .f32⟩ : BufTy).Contents (Elt F) → (⟨S2x2048x11008, .f32⟩ : BufTy).Contents (Elt F)),
    binary main_v68 main_v69 main_v70 (Host.divf : (⟨S2x2048x11008, .f32⟩ : BufTy).Contents (Elt F) → (⟨S2x2048x11008, .f32⟩ : BufTy).Contents (Elt F) → (⟨S2x2048x11008, .f32⟩ : BufTy).Contents (Elt F)),
    binary main_v70 main_v58 main_v71 (subf : (⟨S2x2048x11008, .f32⟩ : BufTy).Contents (Elt F) → (⟨S2x2048x11008, .f32⟩ : BufTy).Contents (Elt F) → (⟨S2x2048x11008, .f32⟩ : BufTy).Contents (Elt F)),
    binary main_v58 main_v71 main_v72 (addf : (⟨S2x2048x11008, .f32⟩ : BufTy).Contents (Elt F) → (⟨S2x2048x11008, .f32⟩ : BufTy).Contents (Elt F) → (⟨S2x2048x11008, .f32⟩ : BufTy).Contents (Elt F)) ]

/-- Chunk H: the third weight's quantisation and the last product, through `main_v86`; it reads the fourth argument and `main_v72`. -/
abbrev opsH : List (HloOp τ sig (Elt F)) :=
  [ unary main_arg3 main_v73 (Host.absf : (⟨S4096x11008, .f32⟩ : BufTy).Contents (Elt F) → (⟨S4096x11008, .f32⟩ : BufTy).Contents (Elt F)),
    nullary main_cst_25 (constant S_ .f32 0x00000000#32),
    binary main_v73 main_cst_25 main_v74 ((fun x v => Host.reduceAdd x v reducesTo_S4096x11008_S_d0_1 h_S_) : (⟨S4096x11008, .f32⟩ : BufTy).Contents (Elt F) → (⟨S_, .f32⟩ : BufTy).Contents (Elt F) → (⟨S_, .f32⟩ : BufTy).Contents (Elt F)),
    nullary main_cst_26 (constant S_ .f32 0x4C2C0000#32),
    binary main_v74 main_cst_26 main_v75 (Host.divf : (⟨S_, .f32⟩ : BufTy).Contents (Elt F) → (⟨S_, .f32⟩ : BufTy).Contents (Elt F) → (⟨S_, .f32⟩ : BufTy).Contents (Elt F)),
    nullary main_cst_27 (constant S_ .f32 0x3727C5AC#32),
    unary main_cst_27 main_call16_v0 (id : (⟨S_, .f32⟩ : BufTy).Contents (Elt F) → (⟨S_, .f32⟩ : BufTy).Contents (Elt F)),
    binary main_call16_v0 main_v75 main_v76 (maximumf : (⟨S_, .f32⟩ : BufTy).Contents (Elt F) → (⟨S_, .f32⟩ : BufTy).Contents (Elt F) → (⟨S_, .f32⟩ : BufTy).Contents (Elt F)),
    nullary main_cst_28 (constant S_ .f32 0x3F800000#32),
    binary main_cst_28 main_v76 main_v77 (Host.divf : (⟨S_, .f32⟩ : BufTy).Contents (Elt F) → (⟨S_, .f32⟩ : BufTy).Contents (Elt F) → (⟨S_, .f32⟩ : BufTy).Contents (Elt F)),
    unary main_v77 main_v78 (broadcastInDim S4096x11008 ![] bcast_S_S4096x11008 : (⟨S_, .f32⟩ : BufTy).Contents (Elt F) → (⟨S4096x11008, .f32⟩ : BufTy).Contents (Elt F)),
    binary main_arg3 main_v78 main_v79 (mulf : (⟨S4096x11008, .f32⟩ : BufTy).Contents (Elt F) → (⟨S4096x11008, .f32⟩ : BufTy).Contents (Elt F) → (⟨S4096x11008, .f32⟩ : BufTy).Contents (Elt F)),
    unary main_v79 main_v80 (Host.roundeven : (⟨S4096x11008, .f32⟩ : BufTy).Contents (Elt F) → (⟨S4096x11008, .f32⟩ : BufTy).Contents (Elt F)),
    nullary main_c_29 (constantI S_ 32 4294967295#32),
    nullary main_c_30 (constantI S_ 32 1#32),
    unary main_c_29 main_call18_v0 (sitofp .f32 : (⟨S_, .i32⟩ : BufTy).Contents (Elt F) → (⟨S_, .f32⟩ : BufTy).Contents (Elt F)),
    unary main_call18_v0 main_call18_v1 (broadcastInDim S4096x11008 ![] bcast_S_S4096x11008 : (⟨S_, .f32⟩ : BufTy).Contents (Elt F) → (⟨S4096x11008, .f32⟩ : BufTy).Contents (Elt F)),
    binary main_call18_v1 main_v80 main_call18_v2 (maximumf : (⟨S4096x11008, .f32⟩ : BufTy).Contents (Elt F) → (⟨S4096x11008, .f32⟩ : BufTy).Contents (Elt F) → (⟨S4096x11008, .f32⟩ : BufTy).Contents (Elt F)),
    unary main_c_30 main_call18_v3 (sitofp .f32 : (⟨S_, .i32⟩ : BufTy).Contents (Elt F) → (⟨S_, .f32⟩ : BufTy).Contents (Elt F)),
    unary main_call18_v3 main_call18_v4 (broadcastInDim S4096x11008 ![] bcast_S_S4096x11008 : (⟨S_, .f32⟩ : BufTy).Contents (Elt F) → (⟨S4096x11008, .f32⟩ : BufTy).Contents (Elt F)),
    binary main_call18_v4 main_call18_v2 main_v81 (minimumf : (⟨S4096x11008, .f32⟩ : BufTy).Contents (Elt F) → (⟨S4096x11008, .f32⟩ : BufTy).Contents (Elt F) → (⟨S4096x11008, .f32⟩ : BufTy).Contents (Elt F)),
    unary main_v77 main_v82 (broadcastInDim S4096x11008 ![] bcast_S_S4096x11008 : (⟨S_, .f32⟩ : BufTy).Contents (Elt F) → (⟨S4096x11008, .f32⟩ : BufTy).Contents (Elt F)),
    binary main_v81 main_v82 main_v83 (Host.divf : (⟨S4096x11008, .f32⟩ : BufTy).Contents (Elt F) → (⟨S4096x11008, .f32⟩ : BufTy).Contents (Elt F) → (⟨S4096x11008, .f32⟩ : BufTy).Contents (Elt F)),
    binary main_v83 main_arg3 main_v84 (subf : (⟨S4096x11008, .f32⟩ : BufTy).Contents (Elt F) → (⟨S4096x11008, .f32⟩ : BufTy).Contents (Elt F) → (⟨S4096x11008, .f32⟩ : BufTy).Contents (Elt F)),
    binary main_arg3 main_v84 main_v85 (addf : (⟨S4096x11008, .f32⟩ : BufTy).Contents (Elt F) → (⟨S4096x11008, .f32⟩ : BufTy).Contents (Elt F) → (⟨S4096x11008, .f32⟩ : BufTy).Contents (Elt F)),
    binary main_v72 main_v85 main_v86 ((fun l r => Host.dotGeneral dot_S2x2048x11008_S4096x11008_S2x2048x4096_2_1_01_0_n_n none l r) : (⟨S2x2048x11008, .f32⟩ : BufTy).Contents (Elt F) → (⟨S4096x11008, .f32⟩ : BufTy).Contents (Elt F) → (⟨S2x2048x4096, .f32⟩ : BufTy).Contents (Elt F)) ]

set_option maxRecDepth 65536 in
set_option maxHeartbeats 4000000 in
/-- The program's operations are the eight chunks in a row. -/
theorem ops_split :
    (ops : List (HloOp τ sig (Elt F))) = opsA ++ (opsB ++ (opsC ++ (opsD ++ (opsE ++ (opsF ++ (opsG ++ opsH)))))) := rfl

/-! ## What each chunk leaves alone

The references a chunk's operations write, as a literal list; a reference not in the list keeps its contents through
the chunk. -/

/-- An operation that writes one listed reference writes inside the list. -/
theorem singleton_sub_of_mem {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- The references chunk A writes. -/
abbrev wrA : List (Ref sig .tc) :=
  [main_v0, main_cst, main_v1, main_v2, main_cst_0, main_call0_v0, main_call0_v1, main_v3, main_cst_1, main_v4, main_v5, main_v6, main_v7, main_v8, main_c, main_c_2, main_call2_v0, main_call2_v1, main_call2_v2, main_call2_v3, main_call2_v4, main_v9, main_v10, main_v11, main_v12, main_v13]
theorem opsA_writes : (opsA : List (HloOp τ sig (Elt F))).Forall fun op => op.writes ⊆ (wrA.map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide)⟩
/-- A reference chunk A does not write keeps its contents through it. -/
theorem keepA (W : Valuation τ sig (Elt F)) (r : Ref sig .tc) (h : r ∉ wrA) :
    after (opsA (F := F)) W (Proc.devRef .tc r) = W (Proc.devRef .tc r) :=
  after_of_writes_sub opsA W opsA_writes h

/-- The references chunk B writes. -/
abbrev wrB : List (Ref sig .tc) :=
  [main_v14, main_cst_3, main_v15, main_cst_4, main_v16, main_cst_5, main_call3_v0, main_v17, main_cst_6, main_v18, main_v19, main_v20, main_v21, main_c_7, main_c_8, main_call5_v0, main_call5_v1, main_call5_v2, main_call5_v3, main_call5_v4, main_v22, main_v23, main_v24, main_v25, main_v26]
theorem opsB_writes : (opsB : List (HloOp τ sig (Elt F))).Forall fun op => op.writes ⊆ (wrB.map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide)⟩
/-- A reference chunk B does not write keeps its contents through it. -/
theorem keepB (W : Valuation τ sig (Elt F)) (r : Ref sig .tc) (h : r ∉ wrB) :
    after (opsB (F := F)) W (Proc.devRef .tc r) = W (Proc.devRef .tc r) :=
  after_of_writes_sub opsB W opsB_writes h

/-- The references chunk C writes. -/
abbrev wrC : List (Ref sig .tc) :=
  [main_v27, main_call6_cst, main_call6_v0, main_v28, main_v29]
theorem opsC_writes : (opsC : List (HloOp τ sig (Elt F))).Forall fun op => op.writes ⊆ (wrC.map (Proc.devRef (τ := τ) .tc)).toFinset :=
  ⟨singleton_sub_of_mem (by decide), singleton_sub_of_mem (by decide), singleton_sub_of_mem (by decide), singleton_sub_of_mem (by decide), singleton_sub_of_mem (by decide)⟩
/-- A reference chunk C does not write keeps its contents through it. -/
theorem keepC (W : Valuation τ sig (Elt F)) (r : Ref sig .tc) (h : r ∉ wrC) :
    after (opsC (F := F)) W (Proc.devRef .tc r) = W (Proc.devRef .tc r) :=
  after_of_writes_sub opsC W opsC_writes h

/-- The references chunk D writes. -/
abbrev wrD : List (Ref sig .tc) :=
  [main_v30, main_cst_9, main_v31, main_v32, main_cst_10, main_call7_v0, main_call7_v1, main_v33, main_cst_11, main_v34, main_v35, main_v36, main_v37, main_v38, main_c_12, main_c_13, main_call9_v0, main_call9_v1, main_call9_v2, main_call9_v3, main_call9_v4, main_v39, main_v40, main_v41, main_v42, main_v43]
theorem opsD_writes : (opsD : List (HloOp τ sig (Elt F))).Forall fun op => op.writes ⊆ (wrD.map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide)⟩
/-- A reference chunk D does not write keeps its contents through it. -/
theorem keepD (W : Valuation τ sig (Elt F)) (r : Ref sig .tc) (h : r ∉ wrD) :
    after (opsD (F := F)) W (Proc.devRef .tc r) = W (Proc.devRef .tc r) :=
  after_of_writes_sub opsD W opsD_writes h

/-- The references chunk E writes. -/
abbrev wrE : List (Ref sig .tc) :=
  [main_v44, main_cst_14, main_v45, main_cst_15, main_v46, main_cst_16, main_call10_v0, main_v47, main_cst_17, main_v48, main_v49, main_v50, main_v51, main_c_18, main_c_19, main_call12_v0, main_call12_v1, main_call12_v2, main_call12_v3, main_call12_v4, main_v52, main_v53, main_v54, main_v55, main_v56]
theorem opsE_writes : (opsE : List (HloOp τ sig (Elt F))).Forall fun op => op.writes ⊆ (wrE.map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide)⟩
/-- A reference chunk E does not write keeps its contents through it. -/
theorem keepE (W : Valuation τ sig (Elt F)) (r : Ref sig .tc) (h : r ∉ wrE) :
    after (opsE (F := F)) W (Proc.devRef .tc r) = W (Proc.devRef .tc r) :=
  after_of_writes_sub opsE W opsE_writes h

/-- The references chunk F writes. -/
abbrev wrF : List (Ref sig .tc) :=
  [main_v57, main_v58]
theorem opsF_writes : (opsF : List (HloOp τ sig (Elt F))).Forall fun op => op.writes ⊆ (wrF.map (Proc.devRef (τ := τ) .tc)).toFinset :=
  ⟨singleton_sub_of_mem (by decide), singleton_sub_of_mem (by decide)⟩
/-- A reference chunk F does not write keeps its contents through it. -/
theorem keepF (W : Valuation τ sig (Elt F)) (r : Ref sig .tc) (h : r ∉ wrF) :
    after (opsF (F := F)) W (Proc.devRef .tc r) = W (Proc.devRef .tc r) :=
  after_of_writes_sub opsF W opsF_writes h

/-- The references chunk G writes. -/
abbrev wrG : List (Ref sig .tc) :=
  [main_v59, main_cst_20, main_v60, main_v61, main_cst_21, main_call13_v0, main_call13_v1, main_v62, main_cst_22, main_v63, main_v64, main_v65, main_v66, main_v67, main_c_23, main_c_24, main_call15_v0, main_call15_v1, main_call15_v2, main_call15_v3, main_call15_v4, main_v68, main_v69, main_v70, main_v71, main_v72]
theorem opsG_writes : (opsG : List (HloOp τ sig (Elt F))).Forall fun op => op.writes ⊆ (wrG.map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide)⟩
/-- A reference chunk G does not write keeps its contents through it. -/
theorem keepG (W : Valuation τ sig (Elt F)) (r : Ref sig .tc) (h : r ∉ wrG) :
    after (opsG (F := F)) W (Proc.devRef .tc r) = W (Proc.devRef .tc r) :=
  after_of_writes_sub opsG W opsG_writes h

/-- The references chunk H writes. -/
abbrev wrH : List (Ref sig .tc) :=
  [main_v73, main_cst_25, main_v74, main_cst_26, main_v75, main_cst_27, main_call16_v0, main_v76, main_cst_28, main_v77, main_v78, main_v79, main_v80, main_c_29, main_c_30, main_call18_v0, main_call18_v1, main_call18_v2, main_call18_v3, main_call18_v4, main_v81, main_v82, main_v83, main_v84, main_v85, main_v86]
theorem opsH_writes : (opsH : List (HloOp τ sig (Elt F))).Forall fun op => op.writes ⊆ (wrH.map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide)⟩
/-- A reference chunk H does not write keeps its contents through it. -/
theorem keepH (W : Valuation τ sig (Elt F)) (r : Ref sig .tc) (h : r ∉ wrH) :
    after (opsH (F := F)) W (Proc.devRef .tc r) = W (Proc.devRef .tc r) :=
  after_of_writes_sub opsH W opsH_writes h

/-! ## What each chunk computes

Over any contents `W` and any arrays: if `W` holds, at the buffers the chunk reads, the stages of those arrays, then
after the chunk its last buffer holds the next stage. The operations' results are read off the fold; the contents taken
over are replaced by the stages as given, which stay folded; what is left unfolds only the chunk's own stage
definitions. -/

theorem resA (W : Valuation τ sig (Elt F)) (x0 : (⟨S2x2048x4096, .f32⟩ : BufTy).Contents (Elt F))
    (h0 : W (Proc.devRef .tc main_arg0) = x0) :
    after (opsA (F := F)) W (Proc.devRef .tc main_v13) = Cert.ReferenceIdeal.ReadP.val_main_v13 (F := F) x0 := by
  simp only [opsA]
  after_results_simp
  rw [h0]
  rfl

theorem resB (W : Valuation τ sig (Elt F)) (x1 : (⟨S11008x4096, .f32⟩ : BufTy).Contents (Elt F))
    (h1 : W (Proc.devRef .tc main_arg1) = x1) :
    after (opsB (F := F)) W (Proc.devRef .tc main_v26) = Cert.ReferenceIdeal.ReadP.val_main_v26 (F := F) x1 := by
  simp only [opsB]
  after_results_simp
  rw [h1]
  rfl

theorem resC (W : Valuation τ sig (Elt F)) (x0 : (⟨S2x2048x4096, .f32⟩ : BufTy).Contents (Elt F)) (x1 : (⟨S11008x4096, .f32⟩ : BufTy).Contents (Elt F))
    (h13 : W (Proc.devRef .tc main_v13) = Cert.ReferenceIdeal.ReadP.val_main_v13 (F := F) x0)
    (h26 : W (Proc.devRef .tc main_v26) = Cert.ReferenceIdeal.ReadP.val_main_v26 (F := F) x1) :
    after (opsC (F := F)) W (Proc.devRef .tc main_v29) = Cert.ReferenceIdeal.ReadP.val_main_v29 (F := F) x0 x1 := by
  simp only [opsC]
  after_results_simp
  rw [h13, h26]
  rfl

theorem resD (W : Valuation τ sig (Elt F)) (x0 : (⟨S2x2048x4096, .f32⟩ : BufTy).Contents (Elt F))
    (h0 : W (Proc.devRef .tc main_arg0) = x0) :
    after (opsD (F := F)) W (Proc.devRef .tc main_v43) = Cert.ReferenceIdeal.ReadP.val_main_v43 (F := F) x0 := by
  simp only [opsD]
  after_results_simp
  rw [h0]
  rfl

theorem resE (W : Valuation τ sig (Elt F)) (x2 : (⟨S11008x4096, .f32⟩ : BufTy).Contents (Elt F))
    (h2 : W (Proc.devRef .tc main_arg2) = x2) :
    after (opsE (F := F)) W (Proc.devRef .tc main_v56) = Cert.ReferenceIdeal.ReadP.val_main_v56 (F := F) x2 := by
  simp only [opsE]
  after_results_simp
  rw [h2]
  rfl

theorem resF (W : Valuation τ sig (Elt F)) (x0 : (⟨S2x2048x4096, .f32⟩ : BufTy).Contents (Elt F)) (x1 x2 : (⟨S11008x4096, .f32⟩ : BufTy).Contents (Elt F))
    (h43 : W (Proc.devRef .tc main_v43) = Cert.ReferenceIdeal.ReadP.val_main_v43 (F := F) x0)
    (h56 : W (Proc.devRef .tc main_v56) = Cert.ReferenceIdeal.ReadP.val_main_v56 (F := F) x2)
    (h29 : W (Proc.devRef .tc main_v29) = Cert.ReferenceIdeal.ReadP.val_main_v29 (F := F) x0 x1) :
    after (opsF (F := F)) W (Proc.devRef .tc main_v58) = Cert.ReferenceIdeal.ReadP.val_main_v58 (F := F) x0 x1 x2 := by
  simp only [opsF]
  after_results_simp
  rw [h43, h56, h29]
  rfl

theorem resG (W : Valuation τ sig (Elt F)) (x0 : (⟨S2x2048x4096, .f32⟩ : BufTy).Contents (Elt F)) (x1 x2 : (⟨S11008x4096, .f32⟩ : BufTy).Contents (Elt F))
    (h58 : W (Proc.devRef .tc main_v58) = Cert.ReferenceIdeal.ReadP.val_main_v58 (F := F) x0 x1 x2) :
    after (opsG (F := F)) W (Proc.devRef .tc main_v72) = Cert.ReferenceIdeal.ReadP.val_main_v72 (F := F) x0 x1 x2 := by
  simp only [opsG]
  after_results_simp
  rw [h58]
  rfl

theorem resH (W : Valuation τ sig (Elt F)) (x0 : (⟨S2x2048x4096, .f32⟩ : BufTy).Contents (Elt F)) (x1 x2 : (⟨S11008x4096, .f32⟩ : BufTy).Contents (Elt F)) (x3 : (⟨S4096x11008, .f32⟩ : BufTy).Contents (Elt F))
    (h72 : W (Proc.devRef .tc main_v72) = Cert.ReferenceIdeal.ReadP.val_main_v72 (F := F) x0 x1 x2)
    (h3 : W (Proc.devRef .tc main_arg3) = x3) :
    after (opsH (F := F)) W (Proc.devRef .tc main_v86) = Cert.ReferenceIdeal.ReadP.val_main_v86 (F := F) x0 x1 x2 x3 := by
  simp only [opsH]
  after_results_simp
  rw [h72, h3]
  rfl

/-! ## The contents after each prefix of chunks -/

section Prefixes

variable (V : Valuation τ sig (Elt F))

/-- The contents after the first chunk, the first two, …, all eight, from contents `V`. -/
def c1 : Valuation τ sig (Elt F) := after opsA V
@[inherit_doc c1] def c2 : Valuation τ sig (Elt F) := after opsB (c1 V)
@[inherit_doc c1] def c3 : Valuation τ sig (Elt F) := after opsC (c2 V)
@[inherit_doc c1] def c4 : Valuation τ sig (Elt F) := after opsD (c3 V)
@[inherit_doc c1] def c5 : Valuation τ sig (Elt F) := after opsE (c4 V)
@[inherit_doc c1] def c6 : Valuation τ sig (Elt F) := after opsF (c5 V)
@[inherit_doc c1] def c7 : Valuation τ sig (Elt F) := after opsG (c6 V)
@[inherit_doc c1] def c8 : Valuation τ sig (Elt F) := after opsH (c7 V)

/-- The fold over the whole list is the fold over the chunks, one after the other. -/
theorem after_ops_eq : after (ops (F := F)) V = c8 V := by
  unfold c8 c7 c6 c5 c4 c3 c2 c1
  rw [ops_split, after_append, after_append, after_append, after_append, after_append, after_append, after_append]

/-- A reference no chunk writes. -/
def Kept (r : Ref sig .tc) : Prop :=
  r ∉ wrA ∧ r ∉ wrB ∧ r ∉ wrC ∧ r ∉ wrD ∧ r ∉ wrE ∧ r ∉ wrF ∧ r ∉ wrG ∧ r ∉ wrH

theorem kept_arg0 : Kept main_arg0 := ⟨by decide, by decide, by decide, by decide, by decide, by decide, by decide, by decide⟩
theorem kept_arg1 : Kept main_arg1 := ⟨by decide, by decide, by decide, by decide, by decide, by decide, by decide, by decide⟩
theorem kept_arg2 : Kept main_arg2 := ⟨by decide, by decide, by decide, by decide, by decide, by decide, by decide, by decide⟩
theorem kept_arg3 : Kept main_arg3 := ⟨by decide, by decide, by decide, by decide, by decide, by decide, by decide, by decide⟩

variable {r : Ref sig .tc} (h : Kept r)
include h

/-- A reference no chunk writes holds after each prefix what `V` holds. -/
theorem c1_kept : c1 V (Proc.devRef .tc r) = V (Proc.devRef .tc r) := keepA V r h.1
theorem c2_kept : c2 V (Proc.devRef .tc r) = V (Proc.devRef .tc r) := (keepB _ r h.2.1).trans (c1_kept V h)
theorem c3_kept : c3 V (Proc.devRef .tc r) = V (Proc.devRef .tc r) := (keepC _ r h.2.2.1).trans (c2_kept V h)
theorem c4_kept : c4 V (Proc.devRef .tc r) = V (Proc.devRef .tc r) := (keepD _ r h.2.2.2.1).trans (c3_kept V h)
theorem c5_kept : c5 V (Proc.devRef .tc r) = V (Proc.devRef .tc r) := (keepE _ r h.2.2.2.2.1).trans (c4_kept V h)
theorem c6_kept : c6 V (Proc.devRef .tc r) = V (Proc.devRef .tc r) := (keepF _ r h.2.2.2.2.2.1).trans (c5_kept V h)
theorem c7_kept : c7 V (Proc.devRef .tc r) = V (Proc.devRef .tc r) := (keepG _ r h.2.2.2.2.2.2.1).trans (c6_kept V h)
theorem c8_kept : c8 V (Proc.devRef .tc r) = V (Proc.devRef .tc r) := (keepH _ r h.2.2.2.2.2.2.2).trans (c7_kept V h)

omit h

/-! The stages, prefix by prefix: each chunk's result from what the prefix before it holds, and every stage a later
chunk still reads carried across the chunks between. -/

theorem c1_v13 : c1 V (Proc.devRef .tc main_v13) = Cert.ReferenceIdeal.ReadP.val_main_v13 (F := F) (V (Proc.devRef .tc main_arg0)) :=
  resA V _ rfl
theorem c2_v13 : c2 V (Proc.devRef .tc main_v13) = Cert.ReferenceIdeal.ReadP.val_main_v13 (F := F) (V (Proc.devRef .tc main_arg0)) :=
  (keepB _ main_v13 (by decide)).trans (c1_v13 V)
theorem c2_v26 : c2 V (Proc.devRef .tc main_v26) = Cert.ReferenceIdeal.ReadP.val_main_v26 (F := F) (V (Proc.devRef .tc main_arg1)) :=
  resB (c1 V) _ (c1_kept V kept_arg1)
theorem c3_v29 : c3 V (Proc.devRef .tc main_v29) = Cert.ReferenceIdeal.ReadP.val_main_v29 (F := F) (V (Proc.devRef .tc main_arg0)) (V (Proc.devRef .tc main_arg1)) :=
  resC (c2 V) _ _ (c2_v13 V) (c2_v26 V)
theorem c4_v29 : c4 V (Proc.devRef .tc main_v29) = Cert.ReferenceIdeal.ReadP.val_main_v29 (F := F) (V (Proc.devRef .tc main_arg0)) (V (Proc.devRef .tc main_arg1)) :=
  (keepD _ main_v29 (by decide)).trans (c3_v29 V)
theorem c4_v43 : c4 V (Proc.devRef .tc main_v43) = Cert.ReferenceIdeal.ReadP.val_main_v43 (F := F) (V (Proc.devRef .tc main_arg0)) :=
  resD (c3 V) _ (c3_kept V kept_arg0)
theorem c5_v29 : c5 V (Proc.devRef .tc main_v29) = Cert.ReferenceIdeal.ReadP.val_main_v29 (F := F) (V (Proc.devRef .tc main_arg0)) (V (Proc.devRef .tc main_arg1)) :=
  (keepE _ main_v29 (by decide)).trans (c4_v29 V)
theorem c5_v43 : c5 V (Proc.devRef .tc main_v43) = Cert.ReferenceIdeal.ReadP.val_main_v43 (F := F) (V (Proc.devRef .tc main_arg0)) :=
  (keepE _ main_v43 (by decide)).trans (c4_v43 V)
theorem c5_v56 : c5 V (Proc.devRef .tc main_v56) = Cert.ReferenceIdeal.ReadP.val_main_v56 (F := F) (V (Proc.devRef .tc main_arg2)) :=
  resE (c4 V) _ (c4_kept V kept_arg2)
theorem c6_v58 : c6 V (Proc.devRef .tc main_v58)
    = Cert.ReferenceIdeal.ReadP.val_main_v58 (F := F) (V (Proc.devRef .tc main_arg0)) (V (Proc.devRef .tc main_arg1)) (V (Proc.devRef .tc main_arg2)) :=
  resF (c5 V) _ _ _ (c5_v43 V) (c5_v56 V) (c5_v29 V)
theorem c7_v72 : c7 V (Proc.devRef .tc main_v72)
    = Cert.ReferenceIdeal.ReadP.val_main_v72 (F := F) (V (Proc.devRef .tc main_arg0)) (V (Proc.devRef .tc main_arg1)) (V (Proc.devRef .tc main_arg2)) :=
  resG (c6 V) _ _ _ (c6_v58 V)
theorem c8_v86 : c8 V (Proc.devRef .tc main_v86)
    = Cert.ReferenceIdeal.ReadP.val_main_v86 (F := F) (V (Proc.devRef .tc main_arg0)) (V (Proc.devRef .tc main_arg1)) (V (Proc.devRef .tc main_arg2)) (V (Proc.devRef .tc main_arg3)) :=
  resH (c7 V) _ _ _ _ (c7_v72 V) (c7_kept V kept_arg3)

end Prefixes

/-- The result buffer after all operations, from any contents `V`: the last stage of the four arguments as `V` holds them. -/
theorem after_ops_v86 (V : Valuation τ sig (Elt F)) :
    after (ops (F := F)) V (Proc.devRef .tc main_v86)
      = Cert.ReferenceIdeal.ReadP.val_main_v86 (F := F) (V (Proc.devRef .tc main_arg0)) (V (Proc.devRef .tc main_arg1))
          (V (Proc.devRef .tc main_arg2)) (V (Proc.devRef .tc main_arg3)) := by
  rw [after_ops_eq]
  exact c8_v86 V

/-- No operation writes an argument. -/
theorem after_ops_arg0 (V : Valuation τ sig (Elt F)) : after (ops (F := F)) V (Proc.devRef .tc main_arg0) = V (Proc.devRef .tc main_arg0) := by
  rw [after_ops_eq]
  exact c8_kept V kept_arg0
theorem after_ops_arg1 (V : Valuation τ sig (Elt F)) : after (ops (F := F)) V (Proc.devRef .tc main_arg1) = V (Proc.devRef .tc main_arg1) := by
  rw [after_ops_eq]
  exact c8_kept V kept_arg1
theorem after_ops_arg2 (V : Valuation τ sig (Elt F)) : after (ops (F := F)) V (Proc.devRef .tc main_arg2) = V (Proc.devRef .tc main_arg2) := by
  rw [after_ops_eq]
  exact c8_kept V kept_arg2
theorem after_ops_arg3 (V : Valuation τ sig (Elt F)) : after (ops (F := F)) V (Proc.devRef .tc main_arg3) = V (Proc.devRef .tc main_arg3) := by
  rw [after_ops_eq]
  exact c8_kept V kept_arg3

/-- The run: the result at the last stage of the launch contents of the arguments, the arguments unchanged. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86)
          = Cert.ReferenceIdeal.ReadP.val_main_v86 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v86).trans (after_ops_v86 _), (h c main_arg0).trans (after_ops_arg0 _),
      (h c main_arg1).trans (after_ops_arg1 _), (h c main_arg2).trans (after_ops_arg2 _), (h c main_arg3).trans (after_ops_arg3 _)⟩)
    (run_seq scopedRefs_eq scopedSems_eq defs main (fun _ => ops) main_eq (fun _ => ops_sub) m ρ)

end Cert.ReferenceIdeal.ValueP

end
-- ==== Proof.Spec.lean ====
/-
  The mathematics of the certificate, row by row, on the extended reals.

  One token's row `x` (4096 entries) goes through: the row's int8 quantization `actQ` (scale 127 / max(1e-5, max |x|),
  round to nearest even, clip to [-128, 127], divide the scale back out); two products against the ternary-quantized
  weights `W1`, `W2` (11008 rows of 4096); the gate relu(a)² · b; the same row quantization of the 11008 gated values;
  the product against the quantized `W3` (4096 rows of 11008). Both programs compute exactly this function of the row
  and of the three weight arrays; the reference spells each quantization as v + (q(v) − v), which is q(v) wherever v is
  a real number, so the second half of this file is about which of these values are real.
-/
import Idealize.ShloMosaic.PureOps.Ideal
import Idealize.ShloMosaic.PureOps.Ideal.Laws
import Idealize.ShloMosaic.Lib.ValueIdx

noncomputable section

namespace Cert.Spec

open Idealize.ShloMosaic

/-! ## The literals, as the extended reals their bit patterns denote -/

/-- −∞, the start of a maximum. -/
def negInf : EReal := Ideal.ofBits .f32 0xFF800000#32
/-- 1e-5 as an f32: the floor under a scale's denominator. -/
def eps : EReal := Ideal.ofBits .f32 0x3727C5AC#32
/-- 127.0 -/
def c127 : EReal := Ideal.ofBits .f32 0x42FE0000#32
/-- 1.0 -/
def one : EReal := Ideal.ofBits .f32 0x3F800000#32
/-- 45088768.0 = 11008 · 4096, the number of entries of a weight array. -/
def cnt : EReal := Ideal.ofBits .f32 0x4C2C0000#32
/-- 0.0 -/
def zero : EReal := Ideal.ofBits .f32 0x00000000#32
/-- The integer clip bounds, converted: −128, 127, −1, 1. -/
def lo8 : EReal := FloatOps.sitofp (F := Ideal) .f32 (4294967168#32 : BitVec 32)
def hi8 : EReal := FloatOps.sitofp (F := Ideal) .f32 (127#32 : BitVec 32)
def lo1 : EReal := FloatOps.sitofp (F := Ideal) .f32 (4294967295#32 : BitVec 32)
def hi1 : EReal := FloatOps.sitofp (F := Ideal) .f32 (1#32 : BitVec 32)

/-- |x| as the host computes it. -/
def absE (x : EReal) : EReal := FloatOps.hostAbsf (F := Ideal) (φ := .f32) x
/-- Round to nearest, ties to even, as the host computes it. -/
def rnd (x : EReal) : EReal := FloatOps.hostUnary (F := Ideal) (φ := .f32) .roundeven x

/-! ## A row's int8 quantization -/

/-- The largest magnitude of a row, from −∞. -/
def rowMax {n : Nat} (row : Fin n → EReal) : EReal := (Finset.univ : Finset (Fin n)).fold max negInf (fun k => absE (row k))
/-- The row's scale from its largest magnitude: 127 / max(1e-5, mx). -/
def aScale (mx : EReal) : EReal := Ideal.div c127 (max eps mx)
/-- One entry quantized at scale `s`: clip(round(x·s), −128, 127) / s. -/
def aQ (s x : EReal) : EReal := Ideal.div (min hi8 (max lo8 (rnd (x * s)))) s
/-- The quantized row. -/
def actQ {n : Nat} (row : Fin n → EReal) (k : Fin n) : EReal := aQ (aScale (rowMax row)) (row k)

/-! ## A weight array's ternary quantization -/

/-- The sum of the magnitudes of all entries, from 0.0. -/
def absSum {ι : Type} [Fintype ι] (w : ι → EReal) : EReal := zero + ∑ i, absE (w i)
/-- The array's scale from that sum: 1 / max(1e-5, sum / count). -/
def wScale (sm : EReal) : EReal := Ideal.div one (max eps (Ideal.div sm cnt))
/-- One entry quantized at scale `s`: clip(round(w·s), −1, 1) / s. -/
def wQ (s w : EReal) : EReal := Ideal.div (min hi1 (max lo1 (rnd (w * s)))) s

/-! ## Products and the gate -/

/-- The product of two rows. -/
def dotRow {n : Nat} (a b : Fin n → EReal) : EReal := ∑ k, a k * b k
/-- relu(a)² · b for a = x·w1, b = x·w2. -/
def gate {n : Nat} (xr w1r w2r : Fin n → EReal) : EReal :=
  (max (dotRow xr w1r) 0 * max (dotRow xr w1r) 0) * dotRow xr w2r
/-- The gated row: one gate per row of the two weight arrays. -/
def gatedRow {n p : Nat} (xq : Fin n → EReal) (W1 W2 : Fin p → Fin n → EReal) (j : Fin p) : EReal := gate xq (W1 j) (W2 j)
/-- The whole function of one token's row. -/
def outRow {n p q : Nat} (xr : Fin n → EReal) (W1 W2 : Fin p → Fin n → EReal) (W3 : Fin q → Fin p → EReal) (h : Fin q) : EReal :=
  dotRow (actQ (gatedRow (actQ xr) W1 W2)) (W3 h)

/-! ## Which values are real numbers -/

/-- An extended real that is a real number. -/
def IsReal (x : EReal) : Prop := x ≠ ⊤ ∧ x ≠ ⊥

/-- A weight array quantized whole, entry (j, k): every entry at the one scale of the array. -/
def qW {p n : Nat} (w : (⟨2, ![p, n]⟩ : Shape).Idx → EReal) (j : Fin p) (k : Fin n) : EReal :=
  wQ (wScale (absSum w)) (w (ValueIdx.ix2 j k))

/-- Token (b, s) of a [2, 2048, ·] array is row b·2048 + s of its [4096, ·] flattening. -/
abbrev tok (b : Fin 2) (s : Fin 2048) : Fin 4096 := ⟨b.val * 2048 + s.val, by omega⟩

end Cert.Spec

end
-- ==== Proof.SpecReal.lean ====
/-
  Which of the specification's values are real numbers (neither infinity): a row quantization of real entries, a
  weight quantization of real entries, products and gates of real rows; and the one cancellation the reference's
  spelling v + (q(v) − v) needs.
-/
import proofs.«143940_j18047452578029_1_alg».proof.Proof.Spec

noncomputable section

namespace Cert.Spec

open Idealize.ShloMosaic

/-! ## Real numbers among the extended reals: closure under the operations used -/

/-- A real number, read as an extended real, is real. -/
theorem isReal_coe (r : ℝ) : IsReal (r : EReal) := ⟨EReal.coe_ne_top r, EReal.coe_ne_bot r⟩

theorem isReal_zero : IsReal (0 : EReal) := by
  rw [← EReal.coe_zero]; exact isReal_coe 0

theorem isReal_add {x y : EReal} (hx : IsReal x) (hy : IsReal y) : IsReal (x + y) := by
  lift x to ℝ using ⟨hx.1, hx.2⟩
  lift y to ℝ using ⟨hy.1, hy.2⟩
  rw [← EReal.coe_add]; exact isReal_coe _

theorem isReal_mul {x y : EReal} (hx : IsReal x) (hy : IsReal y) : IsReal (x * y) := by
  lift x to ℝ using ⟨hx.1, hx.2⟩
  lift y to ℝ using ⟨hy.1, hy.2⟩
  rw [← EReal.coe_mul]; exact isReal_coe _

theorem isReal_neg {x : EReal} (hx : IsReal x) : IsReal (-x) := by
  lift x to ℝ using ⟨hx.1, hx.2⟩
  rw [← EReal.coe_neg]; exact isReal_coe _

/-- A maximum of two values is one of them. -/
theorem isReal_max {x y : EReal} (hx : IsReal x) (hy : IsReal y) : IsReal (max x y) := by
  rcases max_choice x y with h | h <;> rw [h] <;> assumption

theorem isReal_min {x y : EReal} (hx : IsReal x) (hy : IsReal y) : IsReal (min x y) := by
  rcases min_choice x y with h | h <;> rw [h] <;> assumption

/-- |x| = max(x, −x). -/
theorem isReal_absE {x : EReal} (hx : IsReal x) : IsReal (absE x) := by
  show IsReal (max x (-x))
  exact isReal_max hx (isReal_neg hx)

/-- A clip between two real bounds is real whatever is clipped: it lies between min(hi, lo) and hi. -/
theorem isReal_clip {lo hi : EReal} (hlo : IsReal lo) (hhi : IsReal hi) (y : EReal) : IsReal (min hi (max lo y)) := by
  refine ⟨ne_top_of_le_ne_top hhi.1 (min_le_left _ _), ?_⟩
  exact ne_bot_of_le_ne_bot (isReal_min hhi hlo).2 (min_le_min le_rfl (le_max_left _ _))

/-- A finite sum of reals is real. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih (fun i hi => h i (Finset.mem_insert_of_mem hi)))

/-! ## Positive reals: the denominators of the scales -/

/-- An extended real that is a positive real number. -/
def IsPos (x : EReal) : Prop := ∃ r : ℝ, 0 < r ∧ x = (r : EReal)

theorem IsPos.isReal {x : EReal} (h : IsPos x) : IsReal x := by
  obtain ⟨r, _, rfl⟩ := h; exact isReal_coe r

/-- A quotient of positive reals is a positive real. -/
theorem isPos_div {x y : EReal} (hx : IsPos x) (hy : IsPos y) : IsPos (Ideal.div x y) := by
  obtain ⟨a, ha, rfl⟩ := hx
  obtain ⟨b, hb, rfl⟩ := hy
  rw [Ideal.div_coe (ne_of_gt hb), ← EReal.coe_mul]
  exact ⟨a * (1 / b), by positivity, rfl⟩

/-- A real divided by a positive real is real. -/
theorem isReal_div {x y : EReal} (hx : IsReal x) (hy : IsPos y) : IsReal (Ideal.div x y) := by
  obtain ⟨b, hb, rfl⟩ := hy
  rw [Ideal.div_coe (ne_of_gt hb)]
  exact isReal_mul hx (isReal_coe _)

/-- The maximum of a positive real and anything below +∞ is a positive real. -/
theorem isPos_max {a b : EReal} (ha : IsPos a) (hb : b ≠ ⊤) : IsPos (max a b) := by
  obtain ⟨r, hr, rfl⟩ := ha
  induction b using EReal.rec with
  | bot => exact ⟨r, hr, max_eq_left bot_le⟩
  | top => exact absurd rfl hb
  | coe s =>
    rcases le_total r s with hrs | hrs
    · exact ⟨s, lt_of_lt_of_le hr hrs, max_eq_right (EReal.coe_le_coe_iff.2 hrs)⟩
    · exact ⟨r, hr, max_eq_left (EReal.coe_le_coe_iff.2 hrs)⟩

/-! ## The literals -/

theorem negInf_eq : negInf = ⊥ := by
  simp [negInf, Ideal.ofBits, Ideal.ieee]

theorem zero_eq : zero = 0 := Ideal.ofBits_zero_f32

/-- 1e-5 as an f32 is 10995116 · 2⁻⁴⁰. -/
theorem eps_eq : eps = ((10995116 * (2 : ℝ) ^ (-40 : Int) : ℝ) : EReal) := by
  simp [eps, Ideal.ofBits, Ideal.ieee, -EReal.coe_mul]

theorem c127_eq : c127 = ((127 : ℝ) : EReal) := by
  simp [c127, Ideal.ofBits, Ideal.ieee, -EReal.coe_mul]; norm_num

theorem one_eq : one = ((1 : ℝ) : EReal) := by
  simp [one, Ideal.ofBits, Ideal.ieee, -EReal.coe_mul]; norm_num

theorem cnt_eq : cnt = ((45088768 : ℝ) : EReal) := by
  simp [cnt, Ideal.ofBits, Ideal.ieee, -EReal.coe_mul]; norm_num

theorem eps_pos : IsPos eps := ⟨_, by positivity, eps_eq⟩
theorem c127_pos : IsPos c127 := ⟨_, by norm_num, c127_eq⟩
theorem one_pos : IsPos one := ⟨_, by norm_num, one_eq⟩
theorem cnt_pos : IsPos cnt := ⟨_, by norm_num, cnt_eq⟩

/-- A converted integer is a real number. -/
theorem lo8_real : IsReal lo8 := isReal_coe _
theorem hi8_real : IsReal hi8 := isReal_coe _
theorem lo1_real : IsReal lo1 := isReal_coe _
theorem hi1_real : IsReal hi1 := isReal_coe _

/-! ## The five facts -/

/-- v + (q − v) is q when v is real, whatever q is. -/
theorem ste_cancel {v : EReal} (hv : IsReal v) (q : EReal) : v + (q - v) = q := by
  lift v to ℝ using ⟨hv.1, hv.2⟩
  induction q using EReal.rec with
  | bot => rw [EReal.bot_sub, EReal.add_bot]
  | top => rw [EReal.top_sub_coe, EReal.coe_add_top]
  | coe s =>
    rw [← EReal.coe_sub, ← EReal.coe_add]
    congr 1
    ring

/-- A row's largest magnitude, taken from −∞ over real entries, is never +∞. -/
theorem rowMax_ne_top {n : Nat} (row : Fin n → EReal) (h : ∀ k, IsReal (row k)) : rowMax row ≠ ⊤ := by
  rw [← lt_top_iff_ne_top, rowMax, Finset.fold_max_lt]
  refine ⟨by rw [negInf_eq]; exact bot_lt_top, fun k _ => ?_⟩
  exact lt_top_iff_ne_top.2 (isReal_absE (h k)).1

/-- A quantized row of reals is real. -/
theorem actQ_real {n : Nat} (row : Fin n → EReal) (h : ∀ k, IsReal (row k)) (k : Fin n) : IsReal (actQ row k) := by
  unfold actQ aQ
  refine isReal_div (isReal_clip lo8_real hi8_real _) ?_
  unfold aScale
  exact isPos_div c127_pos (isPos_max eps_pos (rowMax_ne_top row h))

/-- A quantized weight is real when the entry and the array's sum of magnitudes are. -/
theorem wQ_real {ι : Type} [Fintype ι] (w : ι → EReal) (h : ∀ i, IsReal (w i)) (i : ι) : IsReal (wQ (wScale (absSum w)) (w i)) := by
  unfold wQ
  refine isReal_div (isReal_clip lo1_real hi1_real _) ?_
  unfold wScale
  refine isPos_div one_pos (isPos_max eps_pos ?_)
  refine (isReal_div ?_ cnt_pos).1
  unfold absSum
  rw [zero_eq]
  exact isReal_add isReal_zero (isReal_sum _ _ (fun i _ => isReal_absE (h i)))

/-- A product of real rows is real. -/
theorem dotRow_real {n : Nat} (a b : Fin n → EReal) (ha : ∀ k, IsReal (a k)) (hb : ∀ k, IsReal (b k)) : IsReal (dotRow a b) := by
  unfold dotRow
  exact isReal_sum _ _ (fun k _ => isReal_mul (ha k) (hb k))

/-- The gate of real rows is real. -/
theorem gate_real {n : Nat} (xr w1r w2r : Fin n → EReal) (hx : ∀ k, IsReal (xr k)) (h1 : ∀ k, IsReal (w1r k)) (h2 : ∀ k, IsReal (w2r k)) :
    IsReal (gate xr w1r w2r) := by
  unfold gate
  have hd := isReal_max (dotRow_real xr w1r hx h1) isReal_zero
  exact isReal_mul (isReal_mul hd hd) (dotRow_real xr w2r hx h2)

end Cert.Spec

end
-- ==== Proof.RefAct.lean ====
/- The reference's three row quantizations, read at an index: the token rows of the input (computed twice) and the gated rows; each is spelt v + (q(v) − v) and is q(v) where v is real. -/
import proofs.«143940_j18047452578029_1_alg».proof.Proof.RefRead
import proofs.«143940_j18047452578029_1_alg».proof.Proof.Spec
import proofs.«143940_j18047452578029_1_alg».proof.Proof.SpecReal
import Idealize.ShloMosaic.Lib.ValueIdx
import Idealize.ShloMosaic.Lib.Pipeline.Value
import Idealize.ShloMosaic.PureOps.Ideal.Laws

set_option maxRecDepth 16384

noncomputable section

namespace Cert.ReferenceIdeal.Hand

open Cert.ReferenceIdeal Cert.ReferenceIdeal.ReadP Idealize.ShloMosaic Idealize.ShloMosaic.ValueIdx

variable (x0 : S2x2048x4096.Idx → EReal) (x1 x2 : S11008x4096.Idx → EReal) (x3 : S4096x11008.Idx → EReal)

/-- Over a [2, 2048, n] array reduced along its last axis, the index over (b, s) with last coordinate k is (b, s, k). -/
theorem lift_ix2 {n : Nat} (h : (⟨3, ![2, 2048, n]⟩ : Shape).Reduces [2] ⟨2, ![2, 2048]⟩) (b : Fin 2) (s : Fin 2048)
    (k : Fin n) : h.lift (ix2 b s) k = ix3 b s k := by
  funext a
  apply Fin.ext
  match a with
  | ⟨0, _⟩ => rfl
  | ⟨1, _⟩ => rfl
  | ⟨2, _⟩ => rfl

/-- The maximum along the last axis of the magnitudes of a [2, 2048, n] array, from −∞, at (b, s): the largest
    magnitude of the row (b, s, ·). -/
theorem reduce_rowMax {n : Nat} (y : (⟨3, ![2, 2048, n]⟩ : Shape).Idx → EReal) (init : S_.Idx → EReal)
    (hinit : ∀ i, init i = Spec.negInf)
    (h' : (⟨3, ![2, 2048, n]⟩ : Shape).ReducesTo [2] ⟨2, ![2, 2048]⟩)
    (h : (⟨3, ![2, 2048, n]⟩ : Shape).Reduces [2] ⟨2, ![2, 2048]⟩) (hu : 0 < S_.numel) (b : Fin 2) (s : Fin 2048) :
    Host.reduce (FloatOps.maximumf (F := Ideal) (φ := .f32)) (fun i => FloatOps.hostAbsf (F := Ideal) (φ := .f32) (y i)) init h' hu (ix2 b s)
      = Spec.rowMax (fun k : Fin n => y (ix3 b s k)) := by
  rw [Host.reduce_eq_fold_single (FloatOps.maximumf (F := Ideal) (φ := .f32)) _ init h' h hu (ix2 b s), hinit]
  unfold Spec.rowMax
  refine Finset.fold_congr (fun k _ => ?_)
  show FloatOps.hostAbsf (F := Ideal) (φ := .f32) (y (h.lift (ix2 b s) k)) = Spec.absE (y (ix3 b s k))
  exact congrArg (fun i => FloatOps.hostAbsf (F := Ideal) (φ := .f32) (y i)) (lift_ix2 h b s k)

/-! ## The first quantization of the token rows -/

theorem v1_rowMax (b : Fin 2) (s : Fin 2048) :
    val_main_v1 (F := Ideal) x0 (ix2 b s) = Spec.rowMax (fun k' : Fin 4096 => x0 (ix3 b s k')) :=
  reduce_rowMax x0 _ (fun _ => rfl) _ (by decide) _ b s

/-- The row's scale, at any index of the [2, 2048, 1] array that lies over (b, s). -/
theorem v5_scale (b : Fin 2) (s : Fin 2048) (i : S2x2048x1.Idx) (hi : idx_main_v2 i = ix2 b s) :
    val_main_v5 (F := Ideal) x0 i = Spec.aScale (Spec.rowMax (fun k' : Fin 4096 => x0 (ix3 b s k'))) := by
  rw [val_main_v5_apply, val_main_v4_apply, val_main_cst_1_apply, val_main_v3_apply, val_main_call0_v1_apply,
    val_main_call0_v0_apply, val_main_cst_0_apply, val_main_v2_apply, hi, v1_rowMax]
  rfl

/-- The quantized entry before the reference adds and subtracts the entry itself. -/
theorem v11_q (b : Fin 2) (s : Fin 2048) (k : Fin 4096) :
    val_main_v11 (F := Ideal) x0 (ix3 b s k)
      = Spec.aQ (Spec.aScale (Spec.rowMax (fun k' : Fin 4096 => x0 (ix3 b s k')))) (x0 (ix3 b s k)) := by
  rw [val_main_v11_apply, val_main_v9_apply, val_main_v10_apply, val_main_call2_v4_apply, val_main_call2_v3_apply,
    val_main_c_2_apply, val_main_call2_v2_apply, val_main_call2_v1_apply, val_main_call2_v0_apply, val_main_c_apply,
    val_main_v8_apply, val_main_v7_apply, val_main_v6_apply,
    v5_scale x0 b s (idx_main_v6 (ix3 b s k)) (funext fun a => match a with | ⟨0, _⟩ => rfl | ⟨1, _⟩ => rfl)]
  rfl

theorem v13_apply (h0 : ∀ i, Spec.IsReal (x0 i)) (b : Fin 2) (s : Fin 2048) (k : Fin 4096) :
    val_main_v13 (F := Ideal) x0 (ix3 b s k) = Spec.actQ (fun k' : Fin 4096 => x0 (ix3 b s k')) k := by
  rw [val_main_v13_apply, val_main_v12_apply, v11_q]
  exact Spec.ste_cancel (h0 (ix3 b s k)) _

/-! ## The second quantization of the token rows: the same operations again -/

theorem v31_rowMax (b : Fin 2) (s : Fin 2048) :
    val_main_v31 (F := Ideal) x0 (ix2 b s) = Spec.rowMax (fun k' : Fin 4096 => x0 (ix3 b s k')) :=
  reduce_rowMax x0 _ (fun _ => rfl) _ (by decide) _ b s

/-- The row's scale, at any index of the [2, 2048, 1] array that lies over (b, s). -/
theorem v35_scale (b : Fin 2) (s : Fin 2048) (i : S2x2048x1.Idx) (hi : idx_main_v32 i = ix2 b s) :
    val_main_v35 (F := Ideal) x0 i = Spec.aScale (Spec.rowMax (fun k' : Fin 4096 => x0 (ix3 b s k'))) := by
  rw [val_main_v35_apply, val_main_v34_apply, val_main_cst_11_apply, val_main_v33_apply, val_main_call7_v1_apply,
    val_main_call7_v0_apply, val_main_cst_10_apply, val_main_v32_apply, hi, v31_rowMax]
  rfl

/-- The quantized entry before the reference adds and subtracts the entry itself. -/
theorem v41_q (b : Fin 2) (s : Fin 2048) (k : Fin 4096) :
    val_main_v41 (F := Ideal) x0 (ix3 b s k)
      = Spec.aQ (Spec.aScale (Spec.rowMax (fun k' : Fin 4096 => x0 (ix3 b s k')))) (x0 (ix3 b s k)) := by
  rw [val_main_v41_apply, val_main_v39_apply, val_main_v40_apply, val_main_call9_v4_apply, val_main_call9_v3_apply,
    val_main_c_13_apply, val_main_call9_v2_apply, val_main_call9_v1_apply, val_main_call9_v0_apply, val_main_c_12_apply,
    val_main_v38_apply, val_main_v37_apply, val_main_v36_apply,
    v35_scale x0 b s (idx_main_v36 (ix3 b s k)) (funext fun a => match a with | ⟨0, _⟩ => rfl | ⟨1, _⟩ => rfl)]
  rfl

theorem v43_apply (h0 : ∀ i, Spec.IsReal (x0 i)) (b : Fin 2) (s : Fin 2048) (k : Fin 4096) :
    val_main_v43 (F := Ideal) x0 (ix3 b s k) = Spec.actQ (fun k' : Fin 4096 => x0 (ix3 b s k')) k := by
  rw [val_main_v43_apply, val_main_v42_apply, v41_q]
  exact Spec.ste_cancel (h0 (ix3 b s k)) _

/-! ## The quantization of the gated rows -/

theorem v60_rowMax (b : Fin 2) (s : Fin 2048) :
    val_main_v60 (F := Ideal) x0 x1 x2 (ix2 b s)
      = Spec.rowMax (fun j' : Fin 11008 => val_main_v58 (F := Ideal) x0 x1 x2 (ix3 b s j')) :=
  reduce_rowMax (val_main_v58 (F := Ideal) x0 x1 x2) _ (fun _ => rfl) _ (by decide) _ b s

/-- The gated row's scale, at any index of the [2, 2048, 1] array that lies over (b, s). -/
theorem v64_scale (b : Fin 2) (s : Fin 2048) (i : S2x2048x1.Idx) (hi : idx_main_v61 i = ix2 b s) :
    val_main_v64 (F := Ideal) x0 x1 x2 i
      = Spec.aScale (Spec.rowMax (fun j' : Fin 11008 => val_main_v58 (F := Ideal) x0 x1 x2 (ix3 b s j'))) := by
  rw [val_main_v64_apply, val_main_v63_apply, val_main_cst_22_apply, val_main_v62_apply, val_main_call13_v1_apply,
    val_main_call13_v0_apply, val_main_cst_21_apply, val_main_v61_apply, hi, v60_rowMax]
  rfl

/-- The quantized gated value before the reference adds and subtracts the value itself. -/
theorem v70_q (b : Fin 2) (s : Fin 2048) (j : Fin 11008) :
    val_main_v70 (F := Ideal) x0 x1 x2 (ix3 b s j)
      = Spec.aQ (Spec.aScale (Spec.rowMax (fun j' : Fin 11008 => val_main_v58 (F := Ideal) x0 x1 x2 (ix3 b s j'))))
          (val_main_v58 (F := Ideal) x0 x1 x2 (ix3 b s j)) := by
  rw [val_main_v70_apply, val_main_v68_apply, val_main_v69_apply, val_main_call15_v4_apply, val_main_call15_v3_apply,
    val_main_c_24_apply, val_main_call15_v2_apply, val_main_call15_v1_apply, val_main_call15_v0_apply, val_main_c_23_apply,
    val_main_v67_apply, val_main_v66_apply, val_main_v65_apply,
    v64_scale x0 x1 x2 b s (idx_main_v65 (ix3 b s j)) (funext fun a => match a with | ⟨0, _⟩ => rfl | ⟨1, _⟩ => rfl)]
  generalize val_main_v58 (F := Ideal) x0 x1 x2 = g
  rfl

theorem v72_apply (b : Fin 2) (s : Fin 2048)
    (hg : ∀ j : Fin 11008, Spec.IsReal (val_main_v58 (F := Ideal) x0 x1 x2 (ix3 b s j))) (j : Fin 11008) :
    val_main_v72 (F := Ideal) x0 x1 x2 (ix3 b s j)
      = Spec.actQ (fun j' : Fin 11008 => val_main_v58 (F := Ideal) x0 x1 x2 (ix3 b s j')) j := by
  rw [val_main_v72_apply, val_main_v71_apply, v70_q]
  generalize val_main_v58 (F := Ideal) x0 x1 x2 = g at hg ⊢
  exact Spec.ste_cancel (hg j) _

end Cert.ReferenceIdeal.Hand

end
-- ==== Proof.RefW.lean ====
/- The reference's three weight quantizations, read at an index: each is spelt w + (q(w) − w) and is q(w) where w is real. -/
import proofs.«143940_j18047452578029_1_alg».proof.Proof.RefRead
import proofs.«143940_j18047452578029_1_alg».proof.Proof.Spec
import proofs.«143940_j18047452578029_1_alg».proof.Proof.SpecReal
import Idealize.ShloMosaic.Lib.ValueIdx
import Idealize.ShloMosaic.Lib.Pipeline.Value
import Idealize.ShloMosaic.PureOps.Ideal.Laws

set_option maxRecDepth 16384

noncomputable section

namespace Cert.ReferenceIdeal.Hand

open Cert.ReferenceIdeal Cert.ReferenceIdeal.ReadP Idealize.ShloMosaic Idealize.ShloMosaic.ValueIdx

variable (x0 : S2x2048x4096.Idx → EReal) (x1 x2 : S11008x4096.Idx → EReal) (x3 : S4096x11008.Idx → EReal)

/-- The first array's scale, read at the one index of a scalar: 1 / max(1e-5, (0 + Σ |w|) / count). -/
theorem v18_eq (i0 : S_.Idx) :
    val_main_v18 (F := Ideal) x1 i0 = Spec.wScale (Spec.absSum x1) := by
  rw [val_main_v18_apply, val_main_v17_apply, val_main_v16_apply, val_main_v15_apply, val_main_call3_v0_apply,
    val_main_cst_5_apply, val_main_cst_6_apply, val_main_cst_4_apply, val_main_cst_3_apply]
  simp only [val_main_v14_apply]
  rfl

/-- The second array's scale. -/
theorem v48_eq (i0 : S_.Idx) :
    val_main_v48 (F := Ideal) x2 i0 = Spec.wScale (Spec.absSum x2) := by
  rw [val_main_v48_apply, val_main_v47_apply, val_main_v46_apply, val_main_v45_apply, val_main_call10_v0_apply,
    val_main_cst_16_apply, val_main_cst_17_apply, val_main_cst_15_apply, val_main_cst_14_apply]
  simp only [val_main_v44_apply]
  rfl

/-- The third array's scale (4096 rows of 11008: the same count of entries). -/
theorem v77_eq (i0 : S_.Idx) :
    val_main_v77 (F := Ideal) x3 i0 = Spec.wScale (Spec.absSum x3) := by
  rw [val_main_v77_apply, val_main_v76_apply, val_main_v75_apply, val_main_v74_apply, val_main_call16_v0_apply,
    val_main_cst_27_apply, val_main_cst_28_apply, val_main_cst_26_apply, val_main_cst_25_apply]
  simp only [val_main_v73_apply]
  rfl

/- Each entry is w + (q − w) with q = clip(round(w · s), −1, 1) / s at the array's scale s; both broadcasts of s
   read the same scalar, and w + (q − w) = q because w is real. -/
theorem v26_apply (h1 : ∀ i, Spec.IsReal (x1 i)) (j : Fin 11008) (k : Fin 4096) :
    val_main_v26 (F := Ideal) x1 (ix2 j k) = Spec.qW x1 j k := by
  rw [val_main_v26_apply, val_main_v25_apply, val_main_v24_apply, val_main_v22_apply, val_main_v23_apply,
    val_main_call5_v4_apply, val_main_call5_v3_apply, val_main_c_8_apply, val_main_call5_v2_apply,
    val_main_call5_v1_apply, val_main_call5_v0_apply, val_main_c_7_apply, val_main_v21_apply,
    val_main_v20_apply, val_main_v19_apply, v18_eq]
  exact Spec.ste_cancel (h1 _) _

theorem v56_apply (h2 : ∀ i, Spec.IsReal (x2 i)) (j : Fin 11008) (k : Fin 4096) :
    val_main_v56 (F := Ideal) x2 (ix2 j k) = Spec.qW x2 j k := by
  rw [val_main_v56_apply, val_main_v55_apply, val_main_v54_apply, val_main_v52_apply, val_main_v53_apply,
    val_main_call12_v4_apply, val_main_call12_v3_apply, val_main_c_19_apply, val_main_call12_v2_apply,
    val_main_call12_v1_apply, val_main_call12_v0_apply, val_main_c_18_apply, val_main_v51_apply,
    val_main_v50_apply, val_main_v49_apply, v48_eq]
  exact Spec.ste_cancel (h2 _) _

theorem v85_apply (h3 : ∀ i, Spec.IsReal (x3 i)) (h : Fin 4096) (j : Fin 11008) :
    val_main_v85 (F := Ideal) x3 (ix2 h j) = Spec.qW x3 h j := by
  rw [val_main_v85_apply, val_main_v84_apply, val_main_v83_apply, val_main_v81_apply, val_main_v82_apply,
    val_main_call18_v4_apply, val_main_call18_v3_apply, val_main_c_30_apply, val_main_call18_v2_apply,
    val_main_call18_v1_apply, val_main_call18_v0_apply, val_main_c_29_apply, val_main_v80_apply,
    val_main_v79_apply, val_main_v78_apply, v77_eq]
  exact Spec.ste_cancel (h3 _) _

end Cert.ReferenceIdeal.Hand

end
-- ==== Proof.RefDot.lean ====
/- The reference's products and gate, read at an index, and its result: entry (b, s, h) is the specification's function of token (b, s)'s row. -/
import proofs.«143940_j18047452578029_1_alg».proof.Proof.RefRead
import proofs.«143940_j18047452578029_1_alg».proof.Proof.Spec
import proofs.«143940_j18047452578029_1_alg».proof.Proof.SpecReal
import proofs.«143940_j18047452578029_1_alg».proof.Proof.RefAct
import proofs.«143940_j18047452578029_1_alg».proof.Proof.RefW
import Idealize.ShloMosaic.Lib.ValueIdx
import Idealize.ShloMosaic.Lib.Pipeline.Value
import Idealize.ShloMosaic.PureOps.Ideal.Laws

set_option maxRecDepth 16384

noncomputable section

namespace Cert.ReferenceIdeal.Hand

open Cert.ReferenceIdeal Cert.ReferenceIdeal.ReadP Idealize.ShloMosaic Idealize.ShloMosaic.ValueIdx

variable (x0 : S2x2048x4096.Idx → EReal) (x1 x2 : S11008x4096.Idx → EReal) (x3 : S4096x11008.Idx → EReal)

theorem v58_apply (h0 : ∀ i, Spec.IsReal (x0 i)) (h1 : ∀ i, Spec.IsReal (x1 i)) (h2 : ∀ i, Spec.IsReal (x2 i))
    (b : Fin 2) (s : Fin 2048) (j : Fin 11008) :
    val_main_v58 (F := Ideal) x0 x1 x2 (ix3 b s j)
      = Spec.gatedRow (Spec.actQ (fun k : Fin 4096 => x0 (ix3 b s k))) (Spec.qW x1) (Spec.qW x2) j := by
  -- the coordinates the two contractions read: the token's row on the left, row j of the weights on the right
  have hl27 : ∀ k : Fin 4096, lidx_main_v27 (ix3 b s j) k = ix3 b s k := fun k =>
    funext fun a => Fin.ext (by match a with | ⟨0, _⟩ => rfl | ⟨1, _⟩ => rfl | ⟨2, _⟩ => rfl)
  have hr27 : ∀ k : Fin 4096, ridx_main_v27 (ix3 b s j) k = ix2 j k := fun k =>
    funext fun a => Fin.ext (by match a with | ⟨0, _⟩ => rfl | ⟨1, _⟩ => rfl)
  have hl57 : ∀ k : Fin 4096, lidx_main_v57 (ix3 b s j) k = ix3 b s k := fun k =>
    funext fun a => Fin.ext (by match a with | ⟨0, _⟩ => rfl | ⟨1, _⟩ => rfl | ⟨2, _⟩ => rfl)
  have hr57 : ∀ k : Fin 4096, ridx_main_v57 (ix3 b s j) k = ix2 j k := fun k =>
    funext fun a => Fin.ext (by match a with | ⟨0, _⟩ => rfl | ⟨1, _⟩ => rfl)
  -- the first product is the quantized row against row j of the first quantized weights
  have e27 : val_main_v27 (F := Ideal) x0 x1 (ix3 b s j)
      = Spec.dotRow (Spec.actQ (fun k : Fin 4096 => x0 (ix3 b s k))) (Spec.qW x1 j) := by
    rw [val_main_v27_apply]
    unfold Spec.dotRow
    refine Finset.sum_congr rfl fun k _ => ?_
    rw [hl27 k, hr27 k, v13_apply x0 h0 b s k, v26_apply x1 h1 j k]
  -- the second product likewise, against the second quantized weights
  have e57 : val_main_v57 (F := Ideal) x0 x2 (ix3 b s j)
      = Spec.dotRow (Spec.actQ (fun k : Fin 4096 => x0 (ix3 b s k))) (Spec.qW x2 j) := by
    rw [val_main_v57_apply]
    unfold Spec.dotRow
    refine Finset.sum_congr rfl fun k _ => ?_
    rw [hl57 k, hr57 k, v43_apply x0 h0 b s k, v56_apply x2 h2 j k]
  -- the gate: relu is the maximum with the constant 0, squared, times the second product
  rw [val_main_v58_apply, val_main_v29_apply, val_main_v28_apply, val_main_call6_v0_apply, val_main_call6_cst_apply,
    e27, e57]
  simp only [Ideal.mulf_def, Ideal.maximumf_def, Ideal.ofBits_def, Ideal.ofBits_zero_f32]
  rfl

theorem v86_apply (h0 : ∀ i, Spec.IsReal (x0 i)) (h1 : ∀ i, Spec.IsReal (x1 i)) (h2 : ∀ i, Spec.IsReal (x2 i)) (h3 : ∀ i, Spec.IsReal (x3 i))
    (b : Fin 2) (s : Fin 2048) (h : Fin 4096) :
    val_main_v86 (F := Ideal) x0 x1 x2 x3 (ix3 b s h)
      = Spec.outRow (fun k : Fin 4096 => x0 (ix3 b s k)) (Spec.qW x1) (Spec.qW x2) (Spec.qW x3) h := by
  -- the coordinates the last contraction reads: the token's gated row on the left, row h of the weights on the right
  have hl : ∀ k : Fin 11008, lidx_main_v86 (ix3 b s h) k = ix3 b s k := fun k =>
    funext fun a => Fin.ext (by match a with | ⟨0, _⟩ => rfl | ⟨1, _⟩ => rfl | ⟨2, _⟩ => rfl)
  have hr : ∀ k : Fin 11008, ridx_main_v86 (ix3 b s h) k = ix2 h k := fun k =>
    funext fun a => Fin.ext (by match a with | ⟨0, _⟩ => rfl | ⟨1, _⟩ => rfl)
  -- the token's gated values are the specification's gated row
  have hrow : (fun j' : Fin 11008 => val_main_v58 (F := Ideal) x0 x1 x2 (ix3 b s j'))
      = Spec.gatedRow (Spec.actQ (fun k : Fin 4096 => x0 (ix3 b s k))) (Spec.qW x1) (Spec.qW x2) :=
    funext fun j' => v58_apply x0 x1 x2 h0 h1 h2 b s j'
  -- and they are real numbers: a gate of a quantized real row against quantized real weights
  have hg : ∀ j : Fin 11008, Spec.IsReal (val_main_v58 (F := Ideal) x0 x1 x2 (ix3 b s j)) := by
    intro j
    rw [v58_apply x0 x1 x2 h0 h1 h2 b s j]
    exact Spec.gate_real _ _ _ (Spec.actQ_real _ (fun k => h0 _))
      (fun k => Spec.wQ_real x1 h1 (ix2 j k)) (fun k => Spec.wQ_real x2 h2 (ix2 j k))
  rw [val_main_v86_apply]
  unfold Spec.outRow Spec.dotRow
  refine Finset.sum_congr rfl fun k _ => ?_
  rw [hl k, hr k, v72_apply x0 x1 x2 b s hg k, v85_apply x3 h3 h k, hrow]

end Cert.ReferenceIdeal.Hand

end
-- ==== Proof.KRegion0.lean ====
/- The first kernel's result array, entry by entry: the gate of one token row against one row of each weight array. -/
import proofs.«143940_j18047452578029_1_alg».proof.Proof.Gen.KernelIdeal.Frame
import proofs.«143940_j18047452578029_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Cert.Spec (tok)

/-! ## The two products' operand indices

The contraction of a [1024, 4096] by a [4096, 256] operand over the left operand's axis 1 and the right operand's
axis 0: at result index `i` and contraction index `q` the left operand is read at (i 0, q) and the right at (q, i 1). -/

theorem gateDot_lhs_row (i : S1024x256.Idx) (q : dot_S1024x4096_S4096x256_S1024x256_1_0_0_1_n_n.contr.Idx) :
    (dot_S1024x4096_S4096x256_S1024x256_1_0_0_1_n_n.lhsIdx i q 0).val = (i 0).val := by
  unfold DotDims.lhsIdx
  rw [dif_neg (show ¬(0 : Fin S1024x4096.rank) ∈ dot_S1024x4096_S4096x256_S1024x256_1_0_0_1_n_n.lhsBatch by decide),
    dif_pos (show (0 : Fin S1024x4096.rank) ∈ dot_S1024x4096_S4096x256_S1024x256_1_0_0_1_n_n.lhsNonContracting by decide)]
  rfl

theorem gateDot_lhs_col (i : S1024x256.Idx) (q : dot_S1024x4096_S4096x256_S1024x256_1_0_0_1_n_n.contr.Idx) :
    (dot_S1024x4096_S4096x256_S1024x256_1_0_0_1_n_n.lhsIdx i q 1).val = (q ⟨0, by decide⟩).val :=
  dot_S1024x4096_S4096x256_S1024x256_1_0_0_1_n_n.lhsIdx_val_of_single rfl i q

theorem gateDot_rhs_row (i : S1024x256.Idx) (q : dot_S1024x4096_S4096x256_S1024x256_1_0_0_1_n_n.contr.Idx) :
    (dot_S1024x4096_S4096x256_S1024x256_1_0_0_1_n_n.rhsIdx i q 0).val = (q ⟨0, by decide⟩).val :=
  dot_S1024x4096_S4096x256_S1024x256_1_0_0_1_n_n.rhsIdx_val_of_single rfl i q

theorem gateDot_rhs_col (i : S1024x256.Idx) (q : dot_S1024x4096_S4096x256_S1024x256_1_0_0_1_n_n.contr.Idx) :
    (dot_S1024x4096_S4096x256_S1024x256_1_0_0_1_n_n.rhsIdx i q 1).val = (i 1).val := by
  unfold DotDims.rhsIdx
  rw [dif_neg (show ¬(1 : Fin S4096x256.rank) ∈ dot_S1024x4096_S4096x256_S1024x256_1_0_0_1_n_n.rhsBatch by decide),
    dif_pos (show (1 : Fin S4096x256.rank) ∈ dot_S1024x4096_S4096x256_S1024x256_1_0_0_1_n_n.rhsNonContracting by decide)]
  rfl

/-- The product into a zero accumulator, entry (p, q): the sum over the 4096 contracted coordinates of row p of the
    left operand times column q of the right. -/
theorem gateDot_at (A : FVec Ideal S1024x4096 .bf16) (B : FVec Ideal S4096x256 .bf16) (p : Fin 1024) (q : Fin 256) :
    matmul dot_S1024x4096_S4096x256_S1024x256_1_0_0_1_n_n none A B (constant (F := Ideal) S1024x256 .f32 0x00000000#32) (ix2 p q)
      = ∑ k : Fin 4096, A (ix2 p k) * B (ix2 k q) := by
  show FloatOps.matmul dot_S1024x4096_S4096x256_S1024x256_1_0_0_1_n_n none A B (constant (F := Ideal) S1024x256 .f32 0x00000000#32) (ix2 p q) = _
  rw [Ideal.matmul_constant_zero_apply,
    ← Equiv.sum_comp (contrEquiv1 dot_S1024x4096_S4096x256_S1024x256_1_0_0_1_n_n 4096 rfl rfl).symm]
  refine Finset.sum_congr rfl fun k _ => ?_
  have hk := contrEquiv1_symm_val dot_S1024x4096_S4096x256_S1024x256_1_0_0_1_n_n 4096 rfl rfl k
  have el : dot_S1024x4096_S4096x256_S1024x256_1_0_0_1_n_n.lhsIdx (ix2 p q)
      ((contrEquiv1 dot_S1024x4096_S4096x256_S1024x256_1_0_0_1_n_n 4096 rfl rfl).symm k) = ix2 p k :=
    funext fun a => Fin.ext (by
      match a with
      | ⟨0, _⟩ => exact gateDot_lhs_row _ _
      | ⟨1, _⟩ => exact (gateDot_lhs_col _ _).trans hk)
  have er : dot_S1024x4096_S4096x256_S1024x256_1_0_0_1_n_n.rhsIdx (ix2 p q)
      ((contrEquiv1 dot_S1024x4096_S4096x256_S1024x256_1_0_0_1_n_n 4096 rfl rfl).symm k) = ix2 k q :=
    funext fun a => Fin.ext (by
      match a with
      | ⟨0, _⟩ => exact (gateDot_rhs_row _ _).trans hk
      | ⟨1, _⟩ => exact gateDot_rhs_col _ _)
  rw [el, er]

/-- The transposed [256, 4096] block, entry (k, q), is the block's entry (q, k). -/
theorem wBlkT_at (x : FVec Ideal S256x4096 .bf16) (k : Fin 4096) (q : Fin 256) :
    transpose S4096x256 [1, 0] x transposes_S256x4096_p1_0_S4096x256 (ix2 k q) = x (ix2 q k) := by
  refine transpose_apply [1, 0] x transposes_S256x4096_p1_0_S4096x256 (ix2 k q) (ix2 q k) fun b => ?_
  match b with
  | ⟨0, _⟩ => rfl
  | ⟨1, _⟩ => rfl

/-- THE BODY'S RESULT BLOCK, entry (p, q): the gate of row p of the token block against row q of each weight block. -/
theorem gatePay_at (x0 : Vec Ideal S1024x4096 .bf16) (x1 x2 : Vec Ideal S256x4096 .bf16) (p : Fin 1024) (q : Fin 256) :
    (k0_pay1 (F := Ideal) x0 x1 x2 : S1024x256.Idx → EReal) (ix2 p q)
      = Spec.gate (fun k : Fin 4096 => (x0 : S1024x4096.Idx → EReal) (ix2 p k))
          (fun k : Fin 4096 => (x1 : S256x4096.Idx → EReal) (ix2 q k))
          (fun k : Fin 4096 => (x2 : S256x4096.Idx → EReal) (ix2 q k)) := by
  unfold k0_pay1
  -- the three casts to the same shape are the identity
  have e0 := shapeCast_self x0 shapeCasts_S1024x4096_S1024x4096
  have e1 := shapeCast_self x1 shapeCasts_S256x4096_S256x4096
  have e2 := shapeCast_self x2 shapeCasts_S256x4096_S256x4096
  rw [e0, e1, e2]
  -- the pointwise operations, then the two products, at (p, q)
  rw [mulf_apply, mulf_apply, maximumf_apply, broadcast_apply, gateDot_at, gateDot_at]
  -- each weight block enters transposed
  have t1 : ∀ k : Fin 4096, transpose S4096x256 [1, 0] x1 transposes_S256x4096_p1_0_S4096x256 (ix2 k q) = x1 (ix2 q k) :=
    fun k => wBlkT_at x1 k q
  have t2 : ∀ k : Fin 4096, transpose S4096x256 [1, 0] x2 transposes_S256x4096_p1_0_S4096x256 (ix2 k q) = x2 (ix2 q k) :=
    fun k => wBlkT_at x2 k q
  simp only [t1, t2]
  -- the floor of the maximum is the word of 0.0
  show (max _ (Ideal.ofBits .f32 0x00000000#32) * max _ (Ideal.ofBits .f32 0x00000000#32)) * _ = _
  rw [Ideal.ofBits_zero_f32]
  rfl

/-- The same at any index of the block. -/
theorem gatePay_idx (x0 : Vec Ideal S1024x4096 .bf16) (x1 x2 : Vec Ideal S256x4096 .bf16) (i : S1024x256.Idx) :
    (k0_pay1 (F := Ideal) x0 x1 x2 : S1024x256.Idx → EReal) i
      = Spec.gate (fun k : Fin 4096 => (x0 : S1024x4096.Idx → EReal) (ix2 (i 0 : Fin 1024) k))
          (fun k : Fin 4096 => (x1 : S256x4096.Idx → EReal) (ix2 (i 1 : Fin 256) k))
          (fun k : Fin 4096 => (x2 : S256x4096.Idx → EReal) (ix2 (i 1 : Fin 256) k)) := by
  obtain ⟨p, q, rfl⟩ : ∃ (p : Fin 1024) (q : Fin 256), i = ix2 p q := ⟨i 0, i 1, eq_ix2 i⟩
  exact gatePay_at x0 x1 x2 p q

variable (V : (c : Dev nD) → (b : Ref sig .tc) → Buf (Elt Ideal) ((c : Thread nD τ).loc b))

/-! ## From the blocks to the array

The grid is 4 × 43: point t is row block t / 43 of the token array and row block t % 43 of each weight array, and its
result block is block (t / 43, t % 43) of the [4096, 11008] result. -/

theorem gateOff0 : (![0, 0] : Fin 2 → Nat) = fun _ => 0 := funext fun a => by fin_cases a <;> rfl

/-- The whole result array as one function of the three arrays the region finds: entry (r, j) is the gate of row r of
    the token array against row j of each weight array. -/
def gateArr (c : Dev nD) : S4096x11008.Idx → EReal := fun i =>
  Spec.gate (fun k : Fin 4096 => (V c main_v13 : S4096x4096.Idx → EReal) (ix2 (i 0 : Fin 4096) k))
    (fun k : Fin 4096 => (V c main_v25 : S11008x4096.Idx → EReal) (ix2 (i 1 : Fin 11008) k))
    (fun k : Fin 4096 => (V c main_v37 : S11008x4096.Idx → EReal) (ix2 (i 1 : Fin 11008) k))

/-- The four windows' block indices at every point of the grid, in closed form. -/
theorem gateGrid_idx : ∀ t : Fin cfg0.N,
    win0_3.index t (0 : Fin 2) = t.val / 43 ∧ win0_3.index t (1 : Fin 2) = t.val % 43
    ∧ win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = t.val % 43 ∧ win0_2.index t (1 : Fin 2) = 0 :=
  (by decide +kernel : ∀ t : Fin grid0.N, _)

/-- The token block at point t, entry (p, k), is the token array's entry (1024 · (t / 43) + p, k). -/
theorem tokBlk_at (c : Dev nD) (t : Fin cfg0.N) (p : Fin 1024) (k : Fin 4096) (r : Fin 4096)
    (hr : r.val = t.val / 43 * 1024 + p.val) :
    (iblk0 V c 0 t : S1024x4096.Idx → EReal) (ix2 p k) = (V c main_v13 : S4096x4096.Idx → EReal) (ix2 r k) := by
  obtain ⟨-, -, e0, e1, -⟩ := gateGrid_idx t
  show (V c main_v13 : S4096x4096.Idx → EReal) (((cfg0.win 0).blk t).view.emb (ix2 p k)) = _
  refine congrArg _ (funext fun a => Fin.ext ?_)
  match a with
  | ⟨0, _⟩ => show win0_0.index t (0 : Fin 2) * 1024 + 1 * p.val = r.val; rw [e0, hr]; omega
  | ⟨1, _⟩ => show win0_0.index t (1 : Fin 2) * 4096 + 1 * k.val = k.val; rw [e1]; omega

/-- The first weight block at point t, entry (q, k), is the first weight array's entry (256 · (t % 43) + q, k). -/
theorem w1Blk_at (c : Dev nD) (t : Fin cfg0.N) (q : Fin 256) (k : Fin 4096) (j : Fin 11008)
    (hj : j.val = t.val % 43 * 256 + q.val) :
    (iblk0 V c 1 t : S256x4096.Idx → EReal) (ix2 q k) = (V c main_v25 : S11008x4096.Idx → EReal) (ix2 j k) := by
  obtain ⟨-, -, -, -, e0, e1, -⟩ := gateGrid_idx t
  show (V c main_v25 : S11008x4096.Idx → EReal) (((cfg0.win 1).blk t).view.emb (ix2 q k)) = _
  refine congrArg _ (funext fun a => Fin.ext ?_)
  match a with
  | ⟨0, _⟩ => show win0_1.index t (0 : Fin 2) * 256 + 1 * q.val = j.val; rw [e0, hj]; omega
  | ⟨1, _⟩ => show win0_1.index t (1 : Fin 2) * 4096 + 1 * k.val = k.val; rw [e1]; omega

/-- The second weight block at point t, entry (q, k), is the second weight array's entry (256 · (t % 43) + q, k). -/
theorem w2Blk_at (c : Dev nD) (t : Fin cfg0.N) (q : Fin 256) (k : Fin 4096) (j : Fin 11008)
    (hj : j.val = t.val % 43 * 256 + q.val) :
    (iblk0 V c 2 t : S256x4096.Idx → EReal) (ix2 q k) = (V c main_v37 : S11008x4096.Idx → EReal) (ix2 j k) := by
  obtain ⟨-, -, -, -, -, -, e0, e1⟩ := gateGrid_idx t
  show (V c main_v37 : S11008x4096.Idx → EReal) (((cfg0.win 2).blk t).view.emb (ix2 q k)) = _
  refine congrArg _ (funext fun a => Fin.ext ?_)
  match a with
  | ⟨0, _⟩ => show win0_2.index t (0 : Fin 2) * 256 + 1 * q.val = j.val; rw [e0, hj]; omega
  | ⟨1, _⟩ => show win0_2.index t (1 : Fin 2) * 4096 + 1 * k.val = k.val; rw [e1]; omega

/-- WHAT POINT t WRITES BACK is block t of `gateArr`. -/
theorem gate_flushed_eq (c : Dev nD) (t : Fin cfg0.N) :
    (dat0 (F := Ideal) V c).flushed 3 t = ((cfg0.win 3).blk t).view.read (Elt Ideal) (gateArr V c) := by
  show (cfg0.win 3).cut (grid0.coords t) ((dat0 (F := Ideal) V c).after 3 t) = _
  rw [after0_3]
  unfold out0_3
  rw [View.canon_unit_zero gateOff0]
  simp only [View.ld_unit_zero (S := S1024x4096) gateOff0, View.ld_unit_zero (S := S256x4096) gateOff0]
  obtain ⟨e0, e1, -⟩ := gateGrid_idx t
  funext y
  have hy0 : (y 0).val < 1024 := (y 0).isLt
  have hy1 : (y 1).val < 256 := (y 1).isLt
  -- where the block's entry y sits in the array
  have hR : ((((cfg0.win 3).blk t).view.emb y) 0).val = t.val / 43 * 1024 + (y 0).val := by
    show win0_3.index t (0 : Fin 2) * 1024 + 1 * (y 0).val = _
    rw [e0]; omega
  have hC : ((((cfg0.win 3).blk t).view.emb y) 1).val = t.val % 43 * 256 + (y 1).val := by
    show win0_3.index t (1 : Fin 2) * 256 + 1 * (y 1).val = _
    rw [e1]; omega
  refine (gatePay_idx (iblk0 V c 0 t) (iblk0 V c 1 t) (iblk0 V c 2 t) ((cfg0.win 3).xinj (grid0.coords t) y)).trans ?_
  show _ = gateArr V c (((cfg0.win 3).blk t).view.emb y)
  unfold gateArr
  exact congr (congr (congrArg (Spec.gate (n := 4096))
      (funext fun k => tokBlk_at V c t _ k _ hR))
      (funext fun k => w1Blk_at V c t _ k _ hC))
      (funext fun k => w2Blk_at V c t _ k _ hC)

/-- An index of the result array is in point t's block iff each coordinate is in the block's range on its axis. -/
theorem gate_mem_blk (t : Fin cfg0.N) (i : S4096x11008.Idx) :
    i ∈ ((cfg0.win 3).blk t).view.set
      ↔ ∀ a : Fin 2, win0_3.index t a * S1024x256.size a ≤ (i a).val
          ∧ (i a).val < win0_3.index t a * S1024x256.size a + S1024x256.size a := by
  show i ∈ ((View.whole main_v50).slice (win0_3.rect t)).set ↔ _
  rw [View.set_slice_whole, Rect.mem_set_unit]
  exact Iff.rfl

/-- Every index (r, j) of the result array is in the block of the point (r / 1024, j / 256). -/
theorem gate_cover (i : S4096x11008.Idx) :
    ∃ t : Fin cfg0.N, (cfg0.win 3).flush t = true ∧ i ∈ ((cfg0.win 3).blk t).view.set := by
  have hi0 : (i 0).val < 4096 := (i 0).isLt
  have hi1 : (i 1).val < 11008 := (i 1).isLt
  obtain ⟨t, ht⟩ : ∃ t : Fin cfg0.N, t.val = (i 0).val / 1024 * 43 + (i 1).val / 256 :=
    ⟨⟨(i 0).val / 1024 * 43 + (i 1).val / 256, by show _ < 172; omega⟩, rfl⟩
  obtain ⟨e0, e1, -⟩ := gateGrid_idx t
  refine ⟨t, flush0_3 t, ?_⟩
  rw [gate_mem_blk]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 256 ≤ (i 1).val ∧ (i 1).val < win0_3.index t (1 : Fin 2) * 256 + 256
    rw [e1, ht]; omega

theorem arr0 (c : Dev nD) (r : Fin 4096) (j : Fin 11008) :
    ((dat0 (F := Ideal) V c).arrAt 3 cfg0.N : S4096x11008.Idx → EReal) (ix2 r j)
      = Spec.gate (fun k : Fin 4096 => (V c main_v13 : S4096x4096.Idx → EReal) (ix2 r k))
          (fun k : Fin 4096 => (V c main_v25 : S11008x4096.Idx → EReal) (ix2 j k))
          (fun k : Fin 4096 => (V c main_v37 : S11008x4096.Idx → EReal) (ix2 j k)) := by
  exact congrFun ((dat0 (F := Ideal) V c).arrAt_eq_of_cover 3 (gateArr V c) (fun t _ => gate_flushed_eq V c t) gate_cover) (ix2 r j)

end Cert.KernelIdeal.Hand

end
-- ==== Proof.KRegion1.lean ====
/- The second kernel's result array, entry by entry: the product of one quantized gated row and one weight row. -/
import proofs.«143940_j18047452578029_1_alg».proof.Proof.Gen.KernelIdeal.Frame
import proofs.«143940_j18047452578029_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Cert.Spec (tok)

variable (V : (c : Dev nD) → (b : Ref sig .tc) → Buf (Elt Ideal) ((c : Thread nD τ).loc b))

/-! The second kernel alone: its block product at an index, its three index maps over the grid, the tiling of its output. -/
namespace Region1

/-- The zero offsets of a whole-buffer access, as a constant function. -/
theorem hz1 : (![0, 0] : Fin 2 → Nat) = fun _ => 0 := funext fun a => by fin_cases a <;> rfl

/-! ## The block product at an index

The body multiplies a [512, 11008] block by the transpose of a [256, 11008] block: entry (p, q) of the
result is the product of row p of the first block and row q of the second. -/

theorem lhs_b_0 (i : S512x256.Idx) (q : dot_S512x11008_S11008x256_S512x256_1_0_0_1_n_n.contr.Idx) :
    (dot_S512x11008_S11008x256_S512x256_1_0_0_1_n_n.lhsIdx i q 0).val = (i 0).val := by
  unfold DotDims.lhsIdx
  rw [dif_neg (show ¬(0 : Fin S512x11008.rank) ∈ dot_S512x11008_S11008x256_S512x256_1_0_0_1_n_n.lhsBatch by decide), dif_pos (show (0 : Fin S512x11008.rank) ∈ dot_S512x11008_S11008x256_S512x256_1_0_0_1_n_n.lhsNonContracting by decide)]
  rfl
theorem lhs_b_1 (i : S512x256.Idx) (q : dot_S512x11008_S11008x256_S512x256_1_0_0_1_n_n.contr.Idx) :
    (dot_S512x11008_S11008x256_S512x256_1_0_0_1_n_n.lhsIdx i q 1).val = (q ⟨0, by decide⟩).val :=
  dot_S512x11008_S11008x256_S512x256_1_0_0_1_n_n.lhsIdx_val_of_single rfl i q
theorem rhs_b_0 (i : S512x256.Idx) (q : dot_S512x11008_S11008x256_S512x256_1_0_0_1_n_n.contr.Idx) :
    (dot_S512x11008_S11008x256_S512x256_1_0_0_1_n_n.rhsIdx i q 0).val = (q ⟨0, by decide⟩).val :=
  dot_S512x11008_S11008x256_S512x256_1_0_0_1_n_n.rhsIdx_val_of_single rfl i q
theorem rhs_b_1 (i : S512x256.Idx) (q : dot_S512x11008_S11008x256_S512x256_1_0_0_1_n_n.contr.Idx) :
    (dot_S512x11008_S11008x256_S512x256_1_0_0_1_n_n.rhsIdx i q 1).val = (i 1).val := by
  unfold DotDims.rhsIdx
  rw [dif_neg (show ¬(1 : Fin S11008x256.rank) ∈ dot_S512x11008_S11008x256_S512x256_1_0_0_1_n_n.rhsBatch by decide), dif_pos (show (1 : Fin S11008x256.rank) ∈ dot_S512x11008_S11008x256_S512x256_1_0_0_1_n_n.rhsNonContracting by decide)]
  rfl

/-- The product into a zero accumulator, at entry (p, q): the sum over the 11008 columns of the products. -/
theorem mm_b_apply (a : FVec Ideal S512x11008 .bf16) (b : FVec Ideal S11008x256 .bf16) (p : Fin 512) (q : Fin 256) :
    FloatOps.matmul dot_S512x11008_S11008x256_S512x256_1_0_0_1_n_n none a b (constant (F := Ideal) S512x256 .f32 0x00000000#32) (ix2 p q)
      = ∑ k : Fin 11008, a (ix2 p k) * b (ix2 k q) := by
  rw [Ideal.matmul_constant_zero_apply, ← Equiv.sum_comp (contrEquiv1 dot_S512x11008_S11008x256_S512x256_1_0_0_1_n_n 11008 rfl rfl).symm]
  refine Finset.sum_congr rfl fun k _ => ?_
  have hk := contrEquiv1_symm_val dot_S512x11008_S11008x256_S512x256_1_0_0_1_n_n 11008 rfl rfl k
  have el : dot_S512x11008_S11008x256_S512x256_1_0_0_1_n_n.lhsIdx (ix2 p q) ((contrEquiv1 dot_S512x11008_S11008x256_S512x256_1_0_0_1_n_n 11008 rfl rfl).symm k) = ix2 p k := funext fun a => Fin.ext (by
    match a with
    | ⟨0, _⟩ => exact lhs_b_0 _ _
    | ⟨1, _⟩ => exact (lhs_b_1 _ _).trans hk)
  have er : dot_S512x11008_S11008x256_S512x256_1_0_0_1_n_n.rhsIdx (ix2 p q) ((contrEquiv1 dot_S512x11008_S11008x256_S512x256_1_0_0_1_n_n 11008 rfl rfl).symm k) = ix2 k q := funext fun a => Fin.ext (by
    match a with
    | ⟨0, _⟩ => exact (rhs_b_0 _ _).trans hk
    | ⟨1, _⟩ => exact rhs_b_1 _ _)
  rw [el, er]

/-- The body's stored value at entry (p, q) of its block: row p of the first loaded block times row q of the second. -/
theorem pay_b_apply (x0 : Vec Ideal S512x11008 .bf16) (x1 : Vec Ideal S256x11008 .bf16) (p : Fin 512) (q : Fin 256) :
    (k1_pay1 (F := Ideal) x0 x1 : S512x256.Idx → EReal) (ix2 p q)
      = ∑ k : Fin 11008, (x0 : S512x11008.Idx → EReal) (ix2 p k) * (x1 : S256x11008.Idx → EReal) (ix2 q k) := by
  unfold k1_pay1
  refine (mm_b_apply _ _ p q).trans ?_
  refine Finset.sum_congr rfl fun k _ => ?_
  rw [shapeCast_self, shapeCast_self, transpose_ix2_apply]

/-! ## The whole array, and each point's block of it -/

/-- Entry (r, h) of the product array: row r of `a` times row h of `b`, summed over the 11008 columns. -/
def prodArr (a b : S4096x11008.Idx → EReal) : S4096x4096.Idx → EReal := fun i =>
  Spec.dotRow (fun j : Fin 11008 => a (ix2 ⟨(i 0).val, idx2_lt0 i⟩ j)) (fun j : Fin 11008 => b (ix2 ⟨(i 1).val, idx2_lt1 i⟩ j))

/-- The payload at any index of its block, the coordinates read off the index. -/
theorem pay_b_at (x0 : Vec Ideal S512x11008 .bf16) (x1 : Vec Ideal S256x11008 .bf16) (y : S512x256.Idx) :
    (k1_pay1 (F := Ideal) x0 x1 : S512x256.Idx → EReal) y
      = ∑ k : Fin 11008, (x0 : S512x11008.Idx → EReal) (ix2 ⟨(y 0).val, idx2_lt0 y⟩ k) * (x1 : S256x11008.Idx → EReal) (ix2 ⟨(y 1).val, idx2_lt1 y⟩ k) := by
  obtain ⟨p, q, rfl⟩ : ∃ (p : Fin 512) (q : Fin 256), y = ix2 p q := ⟨y 0, y 1, eq_ix2 y⟩
  exact pay_b_apply x0 x1 p q

/-- The three index maps over the 8 × 16 grid: the first input's block row is the output's block row, the second
    input's block row is the output's block column, and both inputs' blocks span all 11008 columns. -/
theorem idx_b : ∀ t : Fin cfg1.N,
    win1_0.index t (0 : Fin 2) = win1_2.index t (0 : Fin 2) ∧ win1_0.index t (1 : Fin 2) = 0
    ∧ win1_1.index t (0 : Fin 2) = win1_2.index t (1 : Fin 2) ∧ win1_1.index t (1 : Fin 2) = 0
    ∧ win1_2.index t (0 : Fin 2) ≤ 7 ∧ win1_2.index t (1 : Fin 2) ≤ 15 :=
  (by decide +kernel : ∀ t : Fin grid1.N, _)

/-- Every block of the 8 × 16 tiling of the output is some point's. -/
theorem onto_b : ∀ (q0 : Fin 8) (q1 : Fin 16), ∃ t : Fin cfg1.N, win1_2.index t = ![q0.val, q1.val] :=
  (by decide +kernel : ∀ (q0 : Fin 8) (q1 : Fin 16), ∃ t : Fin grid1.N, win1_2.index t = ![q0.val, q1.val])

/-- Entry (p, k) of the first input's block at point `t` is the entry of its array at block index × block size plus
    the coordinate inside the block, on each axis. -/
theorem blk0_apply (c : Dev nD) (t : Fin cfg1.N) (p : Fin 512) (k : Fin 11008) (i : S4096x11008.Idx)
    (h0 : (i 0).val = win1_0.index t (0 : Fin 2) * 512 + p.val) (h1 : (i 1).val = win1_0.index t (1 : Fin 2) * 11008 + k.val) :
    (iblk1 (F := Ideal) V c 0 t : Vec Ideal S512x11008 .bf16) (ix2 p k) = (V c main_v63 : S4096x11008.Idx → EReal) i := by
  unfold iblk1
  rw [View.read_apply]
  show V c main_v63 _ = V c main_v63 _
  refine congrArg _ (funext fun a => Fin.ext ?_)
  match a with
  | ⟨0, _⟩ => show win1_0.index t (0 : Fin 2) * 512 + 1 * p.val = (i 0).val; omega
  | ⟨1, _⟩ => show win1_0.index t (1 : Fin 2) * 11008 + 1 * k.val = (i 1).val; omega

/-- The same for the second input's block. -/
theorem blk1_apply (c : Dev nD) (t : Fin cfg1.N) (q : Fin 256) (k : Fin 11008) (i : S4096x11008.Idx)
    (h0 : (i 0).val = win1_1.index t (0 : Fin 2) * 256 + q.val) (h1 : (i 1).val = win1_1.index t (1 : Fin 2) * 11008 + k.val) :
    (iblk1 (F := Ideal) V c 1 t : Vec Ideal S256x11008 .bf16) (ix2 q k) = (V c main_v49 : S4096x11008.Idx → EReal) i := by
  unfold iblk1
  rw [View.read_apply]
  show V c main_v49 _ = V c main_v49 _
  refine congrArg _ (funext fun a => Fin.ext ?_)
  match a with
  | ⟨0, _⟩ => show win1_1.index t (0 : Fin 2) * 256 + 1 * q.val = (i 0).val; omega
  | ⟨1, _⟩ => show win1_1.index t (1 : Fin 2) * 11008 + 1 * k.val = (i 1).val; omega

/-- What point `t` writes back is its block of the product array. -/
theorem flushed_b (c : Dev nD) (t : Fin cfg1.N) :
    (dat1 (F := Ideal) V c).flushed 2 t
      = ((cfg1.win 2).blk t).view.read (Elt Ideal) (prodArr (V c main_v63) (V c main_v49)) := by
  show (cfg1.win 2).cut (grid1.coords t) ((dat1 (F := Ideal) V c).after 2 t) = _
  rw [after1_2]
  unfold out1_2
  rw [View.canon_unit_zero hz1]
  simp only [View.ld_unit_zero (S := S512x11008) hz1, View.ld_unit_zero (S := S256x11008) hz1]
  obtain ⟨e0, e1, e2, e3, -, -⟩ := idx_b t
  funext j
  have hj0 : (j 0).val < 512 := (j 0).isLt
  have hj1 : (j 1).val < 256 := (j 1).isLt
  refine (pay_b_at (iblk1 (F := Ideal) V c 0 t) (iblk1 (F := Ideal) V c 1 t) ((cfg1.win 2).xinj (grid1.coords t) j)).trans ?_
  rw [View.read_apply]
  unfold prodArr Spec.dotRow
  refine Finset.sum_congr rfl fun k _ => ?_
  refine congrArg₂ (· * ·) ?_ ?_
  · refine blk0_apply V c t ⟨(j 0).val, hj0⟩ k _ ?_ ?_
    · show win1_2.index t (0 : Fin 2) * 512 + 1 * (j 0).val = win1_0.index t (0 : Fin 2) * 512 + (j 0).val; omega
    · show k.val = win1_0.index t (1 : Fin 2) * 11008 + k.val; omega
  · refine blk1_apply V c t ⟨(j 1).val, hj1⟩ k _ ?_ ?_
    · show win1_2.index t (1 : Fin 2) * 256 + 1 * (j 1).val = win1_1.index t (0 : Fin 2) * 256 + (j 1).val; omega
    · show k.val = win1_1.index t (1 : Fin 2) * 11008 + k.val; omega

/-- An index of the array is in point `t`'s block iff each coordinate is in the block's range on its axis. -/
theorem mem_blk_b (t : Fin cfg1.N) (i : S4096x4096.Idx) :
    i ∈ ((cfg1.win 2).blk t).view.set ↔ ∀ a : Fin 2, win1_2.index t a * S512x256.size a ≤ (i a).val ∧ (i a).val < win1_2.index t a * S512x256.size a + S512x256.size a := by
  show i ∈ ((View.whole main_v64).slice (win1_2.rect t)).set ↔ _
  rw [View.set_slice_whole, Rect.mem_set_unit]
  exact Iff.rfl

/-- The blocks tile the array: entry (r, h) lies in the block of the point at (r / 512, h / 256). -/
theorem cover_b (i : S4096x4096.Idx) :
    ∃ t : Fin cfg1.N, (cfg1.win 2).flush t = true ∧ i ∈ ((cfg1.win 2).blk t).view.set := by
  have hi0 : (i 0).val < 4096 := (i 0).isLt
  have hi1 : (i 1).val < 4096 := (i 1).isLt
  obtain ⟨t, ht⟩ := onto_b ⟨(i 0).val / 512, by omega⟩ ⟨(i 1).val / 256, by omega⟩
  have q0 : win1_2.index t (0 : Fin 2) = (i 0).val / 512 := congrFun ht 0
  have q1 : win1_2.index t (1 : Fin 2) = (i 1).val / 256 := congrFun ht 1
  refine ⟨t, flush1_2 t, ?_⟩
  rw [mem_blk_b]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 256 ≤ (i 1).val ∧ (i 1).val < win1_2.index t (1 : Fin 2) * 256 + 256; omega

/-- After all 128 points the output array is the product array. -/
theorem final_b (c : Dev nD) :
    (dat1 (F := Ideal) V c).arrAt 2 cfg1.N = prodArr (V c main_v63) (V c main_v49) :=
  (dat1 (F := Ideal) V c).arrAt_eq_of_cover 2 (prodArr (V c main_v63) (V c main_v49)) (fun t _ => flushed_b V c t) cover_b

end Region1

/-- Entry (r, h) of the second kernel's output array after all its grid points: row r of the first operand
    times row h of the second, summed over the 11008 columns. -/
theorem arr1 (c : Dev nD) (r : Fin 4096) (h : Fin 4096) :
    ((dat1 (F := Ideal) V c).arrAt 2 cfg1.N : S4096x4096.Idx → EReal) (ix2 r h)
      = Spec.dotRow (fun j : Fin 11008 => (V c main_v63 : S4096x11008.Idx → EReal) (ix2 r j))
          (fun j : Fin 11008 => (V c main_v49 : S4096x11008.Idx → EReal) (ix2 h j)) := by
  rw [Region1.final_b V c]
  rfl

end Cert.KernelIdeal.Hand

end
-- ==== Proof.KHostAct.lean ====
/- The kernel program's host stretches that quantize activations, read at an index, and its closing reshape. -/
import proofs.«143940_j18047452578029_1_alg».proof.Proof.Gen.KernelIdeal.Frame
import proofs.«143940_j18047452578029_1_alg».proof.Proof.Spec
import Idealize.ShloMosaic.Lib.ValueIdx
import Idealize.ShloMosaic.Lib.Pipeline.Value
import Idealize.ShloMosaic.PureOps.Ideal.Laws
import Idealize.ShloMosaic.Lib.StableHlo.Run
set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Cert.Spec (tok)

variable (m : (ℓ : Loc nD τ sig) → Buf (Elt Ideal) ℓ) (ρ : Dev nD → PrngReg)

/-- An array of extended reals read at an index (fixes the codomain of a buffer read to the extended reals). -/
private abbrev rd {s : Shape} (f : s.Idx → EReal) (i : s.Idx) : EReal := f i

/-! ## Host operations read at an index, at the ideal instance (all definitional) -/

private theorem hostDivf_apply {s : Shape} (a b : FVec Ideal s .f32) (i : s.Idx) : Host.divf a b i = Ideal.div (a i) (b i) := rfl
private theorem hostAbsf_apply {s : Shape} (a : FVec Ideal s .f32) (i : s.Idx) : Host.absf a i = Spec.absE (a i) := rfl
private theorem hostRoundeven_apply {s : Shape} (a : FVec Ideal s .f32) (i : s.Idx) : Host.roundeven a i = Spec.rnd (a i) := rfl

/-- Inserting coordinate `k` on axis 1 over the rank-1 index `r` gives the index `(r, k)`. -/
private theorem lift_row {n : Nat} {t : Shape} (hR : (⟨2, ![4096, n]⟩ : Shape).Reduces [1] t) (j : t.Idx) (r : Fin 4096) (k : Fin n)
    (hj : ∀ h0 : 0 < t.rank, (j ⟨0, h0⟩).val = r.val) :
    hR.lift j k = ix2 r k := by
  funext a
  apply Fin.ext
  show hR.liftVal j k.val a = (ix2 r k a).val
  unfold Shape.Reduces.liftVal
  match a with
  | ⟨0, _⟩ => exact (dif_neg Nat.zero_ne_one).trans ((dif_pos Nat.zero_lt_one).trans (hj _))
  | ⟨1, _⟩ => exact dif_pos rfl

/-! ## The arithmetic of a row quantization, once every intermediate array is read at an index -/

/-- If the intermediate arrays of the quantization are, entry by entry, what the program's operations compute from the
    rows `x`, the last one is the rows' quantization. -/
private theorem actQ_of_reads {n : Nat} (x : Fin 4096 → Fin n → EReal) (v3 v4 v6 : Fin 4096 → EReal) (v8 v9 v10 v13 : Fin 4096 → Fin n → EReal)
    (h3 : ∀ r, v3 r = Spec.rowMax (x r)) (h4 : ∀ r, v4 r = max Spec.eps (v3 r)) (h6 : ∀ r, v6 r = Ideal.div Spec.c127 (v4 r))
    (h8 : ∀ r k, v8 r k = x r k * v6 r) (h9 : ∀ r k, v9 r k = Spec.rnd (v8 r k))
    (h10 : ∀ r k, v10 r k = min Spec.hi8 (max Spec.lo8 (v9 r k))) (h13 : ∀ r k, v13 r k = Ideal.div (v10 r k) (v6 r))
    (r : Fin 4096) (k : Fin n) : v13 r k = Spec.actQ (x r) k := by
  rw [h13, h10, h9, h8, h6, h4, h3]
  rfl

/-- The contents of an f32 buffer of shape `s` at the ideal instance: a function from its indices to the extended reals. -/
private abbrev C32 (s : Shape) : Type := (⟨s, .f32⟩ : BufTy).Contents (Elt Ideal)

section Stretch0
variable (V : Valuation τ sig (Elt Ideal))

private theorem s0_v0 : StableHlo.after hostOps0 V (Proc.devRef .tc main_v0)
    = fun i => shapeCast S4096x4096 (V (Proc.devRef .tc main_arg0)) shapeCasts_S2x2048x4096_S4096x4096 i := by
  after_results
  rfl

private theorem s0_v3 : StableHlo.after hostOps0 V (Proc.devRef .tc main_v3)
    = (broadcastInDim S4096x1 ![0] bcast_S4096_S4096x1_0 : C32 S4096 → C32 S4096x1)
        (((fun x v => Host.reduce (FloatOps.maximumf (F := Ideal) (φ := .f32)) x v reducesTo_S4096x4096_S4096_d1 h_S_) : C32 S4096x4096 → C32 S_ → C32 S4096)
          ((Host.absf (F := Ideal) (φ := .f32) : C32 S4096x4096 → C32 S4096x4096) (StableHlo.after hostOps0 V (Proc.devRef .tc main_v0)))
          (constant (F := Ideal) S_ .f32 0xFF800000#32)) := by
  rw [s0_v0]
  after_results
  rfl

private theorem s0_cst0 : StableHlo.after hostOps0 V (Proc.devRef .tc main_cst_0) = (constant (F := Ideal) S_ .f32 0x3727C5AC#32 : C32 S_) := by
  after_results

end Stretch0

/-! ## Region 0's entry: the stretches that quantize the rows of argument 0, one at a time over any contents `V` -/

section Reads0
variable (V : Valuation τ sig (Elt Ideal))

/-- Row `b·2048 + s` of the flattened argument is row `(b, s)` of the argument. -/
private theorem s0_v0_apply (b : Fin 2) (s : Fin 2048) (k : Fin 4096) :
    rd (s := S4096x4096) (StableHlo.after hostOps0 V (Proc.devRef .tc main_v0)) (ix2 (tok b s) k)
      = rd (s := S2x2048x4096) (V (Proc.devRef .tc main_arg0)) (ix3 b s k) := by
  rw [s0_v0]
  refine shapeCast_apply _ shapeCasts_S2x2048x4096_S4096x4096 (ix2 (tok b s) k) (ix3 b s k) ?_
  rw [Shape.rowMajor_val_two, Shape.rowMajor_val_three]
  rfl

/-- The kept-dimension row maximum is the row's largest magnitude, from −∞. -/
private theorem s0_v3_apply (r : Fin 4096) (z : Fin 1) :
    rd (s := S4096x1) (StableHlo.after hostOps0 V (Proc.devRef .tc main_v3)) (ix2 r z)
      = Spec.rowMax fun k : Fin 4096 => rd (s := S4096x4096) (StableHlo.after hostOps0 V (Proc.devRef .tc main_v0)) (ix2 r k) := by
  have hR : S4096x4096.Reduces [1] S4096 := by decide
  rw [s0_v3]
  refine (broadcastInDim_apply _ bcast_S4096_S4096x1_0 _ (ix2 r z) (ix1 r) (fun a => match a with
    | ⟨0, _⟩ => by show r.val = if (4096 : Nat) = 1 then 0 else r.val; rw [if_neg (by decide)])).trans ?_
  refine (Host.reduce_eq_fold_single (FloatOps.maximumf (F := Ideal) (φ := .f32)) _ _ reducesTo_S4096x4096_S4096_d1 hR h_S_ (ix1 r)).trans ?_
  refine Finset.fold_congr fun (k : Fin 4096) _ => ?_
  exact congrArg (fun i => Spec.absE (rd (s := S4096x4096) (StableHlo.after hostOps0 V (Proc.devRef .tc main_v0)) i))
    (lift_row hR (ix1 r) r k (fun _ => rfl))

private theorem s0_cst0_apply (i : S_.Idx) :
    rd (s := S_) (StableHlo.after hostOps0 V (Proc.devRef .tc main_cst_0)) i = Spec.eps := by
  rw [s0_cst0]; rfl

private theorem s1_v4_apply (r : Fin 4096) (z : Fin 1) :
    rd (s := S4096x1) (StableHlo.after hostOps0_1 V (Proc.devRef .tc main_v4)) (ix2 r z)
      = max (rd (s := S_) (V (Proc.devRef .tc main_cst_0)) ix0) (rd (s := S4096x1) (V (Proc.devRef .tc main_v3)) (ix2 r z)) := by
  after_results
  simp only [rd, cast_eq, id]
  rw [maximumf_apply, broadcastInDim_apply _ bcast_S_S4096x1 _ (ix2 r z) ix0 (fun a => a.elim0)]

private theorem s1_v0 : StableHlo.after hostOps0_1 V (Proc.devRef .tc main_v0) = V (Proc.devRef .tc main_v0) := by
  after_results

private theorem s2_v6_apply (r : Fin 4096) (z : Fin 1) :
    rd (s := S4096x1) (StableHlo.after hostOps0_2 V (Proc.devRef .tc main_v6)) (ix2 r z)
      = Ideal.div Spec.c127 (rd (s := S4096x1) (V (Proc.devRef .tc main_v4)) (ix2 r z)) := by
  after_results
  dsimp only [rd]
  rw [hostDivf_apply, broadcastInDim_apply _ bcast_S_S4096x1 _ (ix2 r z) ix0 (fun a => a.elim0)]
  rfl

private theorem s2_v8_apply (r : Fin 4096) (k : Fin 4096) :
    rd (s := S4096x4096) (StableHlo.after hostOps0_2 V (Proc.devRef .tc main_v8)) (ix2 r k)
      = rd (s := S4096x4096) (V (Proc.devRef .tc main_v0)) (ix2 r k)
          * rd (s := S4096x1) (StableHlo.after hostOps0_2 V (Proc.devRef .tc main_v6)) (ix2 r 0) := by
  rw [s2_v6_apply]
  after_results
  dsimp only [rd]
  rw [mulf_apply, broadcastInDim_apply _ bcast_S4096x1_S4096x4096_0_1 _ (ix2 r k) (ix2 r 0) (fun a => match a with
    | ⟨0, _⟩ => by show r.val = if (4096 : Nat) = 1 then 0 else r.val; rw [if_neg (by decide)]
    | ⟨1, _⟩ => by show 0 = if (1 : Nat) = 1 then 0 else k.val; rw [if_pos rfl]),
    hostDivf_apply, broadcastInDim_apply _ bcast_S_S4096x1 _ (ix2 r 0) ix0 (fun a => a.elim0)]
  rfl

private theorem s3_v9_apply (i : S4096x4096.Idx) :
    rd (s := S4096x4096) (StableHlo.after hostOps0_3 V (Proc.devRef .tc main_v9)) i
      = Spec.rnd (rd (s := S4096x4096) (V (Proc.devRef .tc main_v8)) i) := by
  after_results
  simp only [rd, cast_eq]
  rfl

private theorem s3_v6 : StableHlo.after hostOps0_3 V (Proc.devRef .tc main_v6) = V (Proc.devRef .tc main_v6) := by
  after_results

private theorem s4_c : StableHlo.after hostOps0_4 V (Proc.devRef .tc main_c) = (constantI S_ 32 4294967168#32 : (⟨S_, .i32⟩ : BufTy).Contents (Elt Ideal)) := by
  after_results
private theorem s4_c2 : StableHlo.after hostOps0_4 V (Proc.devRef .tc main_c_2) = (constantI S_ 32 127#32 : (⟨S_, .i32⟩ : BufTy).Contents (Elt Ideal)) := by
  after_results
private theorem s4_v9 : StableHlo.after hostOps0_4 V (Proc.devRef .tc main_v9) = V (Proc.devRef .tc main_v9) := by
  after_results
private theorem s4_v6 : StableHlo.after hostOps0_4 V (Proc.devRef .tc main_v6) = V (Proc.devRef .tc main_v6) := by
  after_results

private theorem s5_v10_apply (hc : V (Proc.devRef .tc main_c) = (constantI S_ 32 4294967168#32 : (⟨S_, .i32⟩ : BufTy).Contents (Elt Ideal)))
    (hc2 : V (Proc.devRef .tc main_c_2) = (constantI S_ 32 127#32 : (⟨S_, .i32⟩ : BufTy).Contents (Elt Ideal))) (i : S4096x4096.Idx) :
    rd (s := S4096x4096) (StableHlo.after hostOps0_5 V (Proc.devRef .tc main_v10)) i
      = min Spec.hi8 (max Spec.lo8 (rd (s := S4096x4096) (V (Proc.devRef .tc main_v9)) i)) := by
  after_results
  simp only [rd, cast_eq]
  rw [hc, hc2, minimumf_apply, maximumf_apply, broadcastInDim_apply _ bcast_S_S4096x4096 _ i ix0 (fun a => a.elim0),
    broadcastInDim_apply _ bcast_S_S4096x4096 _ i ix0 (fun a => a.elim0)]
  rfl

private theorem s5_v6 : StableHlo.after hostOps0_5 V (Proc.devRef .tc main_v6) = V (Proc.devRef .tc main_v6) := by
  after_results

private theorem s6_v13_apply (r : Fin 4096) (k : Fin 4096) :
    rd (s := S4096x4096) (StableHlo.after hostOps0_6 V (Proc.devRef .tc main_v13)) (ix2 r k)
      = Ideal.div (rd (s := S4096x4096) (V (Proc.devRef .tc main_v10)) (ix2 r k)) (rd (s := S4096x1) (V (Proc.devRef .tc main_v6)) (ix2 r 0)) := by
  after_results
  dsimp only [rd]
  rw [truncf_apply, hostDivf_apply, broadcastInDim_apply _ bcast_S4096x1_S4096x4096_0_1 _ (ix2 r k) (ix2 r 0) (fun a => match a with
    | ⟨0, _⟩ => by show r.val = if (4096 : Nat) = 1 then 0 else r.val; rw [if_neg (by decide)]
    | ⟨1, _⟩ => by show 0 = if (1 : Nat) = 1 then 0 else k.val; rw [if_pos rfl])]

end Reads0

/-! ## Region 0's entry: the boundaries' contents at the buffers the quantization goes through -/

private theorem W1_v3 (c : Dev nD) (r : Fin 4096) :
    rd (s := S4096x1) (W1 m ρ c (Proc.devRef .tc main_v3)) (ix2 r 0)
      = Spec.rowMax fun k : Fin 4096 => rd (s := S4096x4096) (W1 m ρ c (Proc.devRef .tc main_v0)) (ix2 r k) :=
  s0_v3_apply (W0 m ρ c) r 0

private theorem W2_v4 (c : Dev nD) (r : Fin 4096) :
    rd (s := S4096x1) (W2 m ρ c (Proc.devRef .tc main_v4)) (ix2 r 0)
      = max Spec.eps (rd (s := S4096x1) (W1 m ρ c (Proc.devRef .tc main_v3)) (ix2 r 0)) := by
  refine (s1_v4_apply (W1 m ρ c) r 0).trans ?_
  rw [show rd (s := S_) (W1 m ρ c (Proc.devRef .tc main_cst_0)) ix0 = Spec.eps from s0_cst0_apply (W0 m ρ c) ix0]

private theorem W3_v6 (c : Dev nD) (r : Fin 4096) :
    rd (s := S4096x1) (W3 m ρ c (Proc.devRef .tc main_v6)) (ix2 r 0)
      = Ideal.div Spec.c127 (rd (s := S4096x1) (W2 m ρ c (Proc.devRef .tc main_v4)) (ix2 r 0)) :=
  s2_v6_apply (W2 m ρ c) r 0

private theorem W3_v8 (c : Dev nD) (r k : Fin 4096) :
    rd (s := S4096x4096) (W3 m ρ c (Proc.devRef .tc main_v8)) (ix2 r k)
      = rd (s := S4096x4096) (W1 m ρ c (Proc.devRef .tc main_v0)) (ix2 r k)
          * rd (s := S4096x1) (W3 m ρ c (Proc.devRef .tc main_v6)) (ix2 r 0) := by
  refine (s2_v8_apply (W2 m ρ c) r k).trans ?_
  rw [show W2 m ρ c (Proc.devRef .tc main_v0) = W1 m ρ c (Proc.devRef .tc main_v0) from s1_v0 (W1 m ρ c)]

private theorem W4_v9 (c : Dev nD) (i : S4096x4096.Idx) :
    rd (s := S4096x4096) (W4 m ρ c (Proc.devRef .tc main_v9)) i
      = Spec.rnd (rd (s := S4096x4096) (W3 m ρ c (Proc.devRef .tc main_v8)) i) :=
  s3_v9_apply (W3 m ρ c) i

private theorem W6_v6 (c : Dev nD) : W6 m ρ c (Proc.devRef .tc main_v6) = W3 m ρ c (Proc.devRef .tc main_v6) :=
  (s5_v6 (W5 m ρ c)).trans ((s4_v6 (W4 m ρ c)).trans (s3_v6 (W3 m ρ c)))

private theorem W6_v10 (c : Dev nD) (i : S4096x4096.Idx) :
    rd (s := S4096x4096) (W6 m ρ c (Proc.devRef .tc main_v10)) i
      = min Spec.hi8 (max Spec.lo8 (rd (s := S4096x4096) (W4 m ρ c (Proc.devRef .tc main_v9)) i)) := by
  refine (s5_v10_apply (W5 m ρ c) (s4_c (W4 m ρ c)) (s4_c2 (W4 m ρ c)) i).trans ?_
  rw [show W5 m ρ c (Proc.devRef .tc main_v9) = W4 m ρ c (Proc.devRef .tc main_v9) from s4_v9 (W4 m ρ c)]

private theorem W7_v13 (c : Dev nD) (r k : Fin 4096) :
    rd (s := S4096x4096) (W7 m ρ c (Proc.devRef .tc main_v13)) (ix2 r k)
      = Ideal.div (rd (s := S4096x4096) (W6 m ρ c (Proc.devRef .tc main_v10)) (ix2 r k))
          (rd (s := S4096x1) (W3 m ρ c (Proc.devRef .tc main_v6)) (ix2 r 0)) := by
  refine (s6_v13_apply (W6 m ρ c) r k).trans ?_
  rw [W6_v6]

/-- The eighteen stretches between the quantization of argument 0 and region 0's entry (the three weight arrays'
    quantizations) do not write the quantized activations. -/
private theorem W25_v13 (c : Dev nD) : W25 m ρ c (Proc.devRef .tc main_v13) = W7 m ρ c (Proc.devRef .tc main_v13) := by
  show StableHlo.after hostOps0_24 (StableHlo.after hostOps0_23 (StableHlo.after hostOps0_22 (StableHlo.after hostOps0_21
    (StableHlo.after hostOps0_20 (StableHlo.after hostOps0_19 (StableHlo.after hostOps0_18 (StableHlo.after hostOps0_17
    (StableHlo.after hostOps0_16 (StableHlo.after hostOps0_15 (StableHlo.after hostOps0_14 (StableHlo.after hostOps0_13
    (StableHlo.after hostOps0_12 (StableHlo.after hostOps0_11 (StableHlo.after hostOps0_10 (StableHlo.after hostOps0_9
    (StableHlo.after hostOps0_8 (StableHlo.after hostOps0_7 (W7 m ρ c)))))))))))))))))) (Proc.devRef .tc main_v13)
      = W7 m ρ c (Proc.devRef .tc main_v13)
  generalize W7 m ρ c = V
  after_results

theorem v13_apply (c : Dev nD) (b : Fin 2) (s : Fin 2048) (k : Fin 4096) :
    (V25 m ρ c main_v13 : S4096x4096.Idx → EReal) (ix2 (tok b s) k)
      = Spec.actQ (fun k' : Fin 4096 => (m ((c : Thread nD τ).loc main_arg0) : S2x2048x4096.Idx → EReal) (ix3 b s k')) k := by
  show rd (s := S4096x4096) (W25 m ρ c (Proc.devRef .tc main_v13)) (ix2 (tok b s) k)
    = Spec.actQ (fun k' : Fin 4096 => rd (s := S2x2048x4096) (m ((c : Thread nD τ).loc main_arg0)) (ix3 b s k')) k
  -- the argument's row (b, s) is row b·2048 + s of its flattening
  rw [W25_v13, show (fun k' : Fin 4096 => rd (s := S2x2048x4096) (m ((c : Thread nD τ).loc main_arg0)) (ix3 b s k'))
      = fun k' : Fin 4096 => rd (s := S4096x4096) (W1 m ρ c (Proc.devRef .tc main_v0)) (ix2 (tok b s) k')
    from funext fun k' => (s0_v0_apply (W0 m ρ c) b s k').symm]
  exact actQ_of_reads
    (fun r k => rd (s := S4096x4096) (W1 m ρ c (Proc.devRef .tc main_v0)) (ix2 r k))
    (fun r => rd (s := S4096x1) (W1 m ρ c (Proc.devRef .tc main_v3)) (ix2 r 0))
    (fun r => rd (s := S4096x1) (W2 m ρ c (Proc.devRef .tc main_v4)) (ix2 r 0))
    (fun r => rd (s := S4096x1) (W3 m ρ c (Proc.devRef .tc main_v6)) (ix2 r 0))
    (fun r k => rd (s := S4096x4096) (W3 m ρ c (Proc.devRef .tc main_v8)) (ix2 r k))
    (fun r k => rd (s := S4096x4096) (W4 m ρ c (Proc.devRef .tc main_v9)) (ix2 r k))
    (fun r k => rd (s := S4096x4096) (W6 m ρ c (Proc.devRef .tc main_v10)) (ix2 r k))
    (fun r k => rd (s := S4096x4096) (W7 m ρ c (Proc.devRef .tc main_v13)) (ix2 r k))
    (fun r => W1_v3 m ρ c r) (fun r => W2_v4 m ρ c r) (fun r => W3_v6 m ρ c r) (fun r k => W3_v8 m ρ c r k)
    (fun r k => W4_v9 m ρ c (ix2 r k)) (fun r k => W6_v10 m ρ c (ix2 r k)) (fun r k => W7_v13 m ρ c r k) (tok b s) k

/-! ## Region 1's entry: the stretches that quantize the rows of region 0's output, one at a time over any contents `V` -/

section Reads1
variable (V : Valuation τ sig (Elt Ideal))

private theorem t0_v53 : StableHlo.after hostOps1 V (Proc.devRef .tc main_v53)
    = (broadcastInDim S4096x1 ![0] bcast_S4096_S4096x1_0 : C32 S4096 → C32 S4096x1)
        (((fun x v => Host.reduce (FloatOps.maximumf (F := Ideal) (φ := .f32)) x v reducesTo_S4096x11008_S4096_d1 h_S_) : C32 S4096x11008 → C32 S_ → C32 S4096)
          ((Host.absf (F := Ideal) (φ := .f32) : C32 S4096x11008 → C32 S4096x11008) (V (Proc.devRef .tc main_v50)))
          (constant (F := Ideal) S_ .f32 0xFF800000#32)) := by
  after_results

/-- The kept-dimension row maximum is the row's largest magnitude, from −∞. -/
private theorem t0_v53_apply (r : Fin 4096) (z : Fin 1) :
    rd (s := S4096x1) (StableHlo.after hostOps1 V (Proc.devRef .tc main_v53)) (ix2 r z)
      = Spec.rowMax fun j : Fin 11008 => rd (s := S4096x11008) (V (Proc.devRef .tc main_v50)) (ix2 r j) := by
  have hR : S4096x11008.Reduces [1] S4096 := by decide
  rw [t0_v53]
  refine (broadcastInDim_apply _ bcast_S4096_S4096x1_0 _ (ix2 r z) (ix1 r) (fun a => match a with
    | ⟨0, _⟩ => by show r.val = if (4096 : Nat) = 1 then 0 else r.val; rw [if_neg (by decide)])).trans ?_
  refine (Host.reduce_eq_fold_single (FloatOps.maximumf (F := Ideal) (φ := .f32)) _ _ reducesTo_S4096x11008_S4096_d1 hR h_S_ (ix1 r)).trans ?_
  refine Finset.fold_congr fun (j : Fin 11008) _ => ?_
  exact congrArg (fun i => Spec.absE (rd (s := S4096x11008) (V (Proc.devRef .tc main_v50)) i))
    (lift_row hR (ix1 r) r j (fun _ => rfl))

private theorem t0_cst22_apply (i : S_.Idx) :
    rd (s := S_) (StableHlo.after hostOps1 V (Proc.devRef .tc main_cst_22)) i = Spec.eps := by
  after_results
  rfl

private theorem t0_v50 : StableHlo.after hostOps1 V (Proc.devRef .tc main_v50) = V (Proc.devRef .tc main_v50) := by
  after_results

private theorem t1_v54_apply (r : Fin 4096) (z : Fin 1) :
    rd (s := S4096x1) (StableHlo.after hostOps1_1 V (Proc.devRef .tc main_v54)) (ix2 r z)
      = max (rd (s := S_) (V (Proc.devRef .tc main_cst_22)) ix0) (rd (s := S4096x1) (V (Proc.devRef .tc main_v53)) (ix2 r z)) := by
  after_results
  simp only [rd, cast_eq, id]
  rw [maximumf_apply, broadcastInDim_apply _ bcast_S_S4096x1 _ (ix2 r z) ix0 (fun a => a.elim0)]

private theorem t1_v50 : StableHlo.after hostOps1_1 V (Proc.devRef .tc main_v50) = V (Proc.devRef .tc main_v50) := by
  after_results

private theorem t2_v56_apply (r : Fin 4096) (z : Fin 1) :
    rd (s := S4096x1) (StableHlo.after hostOps1_2 V (Proc.devRef .tc main_v56)) (ix2 r z)
      = Ideal.div Spec.c127 (rd (s := S4096x1) (V (Proc.devRef .tc main_v54)) (ix2 r z)) := by
  after_results
  dsimp only [rd]
  rw [hostDivf_apply, broadcastInDim_apply _ bcast_S_S4096x1 _ (ix2 r z) ix0 (fun a => a.elim0)]
  rfl

private theorem t2_v58_apply (r : Fin 4096) (j : Fin 11008) :
    rd (s := S4096x11008) (StableHlo.after hostOps1_2 V (Proc.devRef .tc main_v58)) (ix2 r j)
      = rd (s := S4096x11008) (V (Proc.devRef .tc main_v50)) (ix2 r j)
          * rd (s := S4096x1) (StableHlo.after hostOps1_2 V (Proc.devRef .tc main_v56)) (ix2 r 0) := by
  rw [t2_v56_apply]
  after_results
  dsimp only [rd]
  rw [mulf_apply, broadcastInDim_apply _ bcast_S4096x1_S4096x11008_0_1 _ (ix2 r j) (ix2 r 0) (fun a => match a with
    | ⟨0, _⟩ => by show r.val = if (4096 : Nat) = 1 then 0 else r.val; rw [if_neg (by decide)]
    | ⟨1, _⟩ => by show 0 = if (1 : Nat) = 1 then 0 else j.val; rw [if_pos rfl]),
    hostDivf_apply, broadcastInDim_apply _ bcast_S_S4096x1 _ (ix2 r 0) ix0 (fun a => a.elim0)]
  rfl

private theorem t3_v59_apply (i : S4096x11008.Idx) :
    rd (s := S4096x11008) (StableHlo.after hostOps1_3 V (Proc.devRef .tc main_v59)) i
      = Spec.rnd (rd (s := S4096x11008) (V (Proc.devRef .tc main_v58)) i) := by
  after_results
  simp only [rd, cast_eq]
  rfl

private theorem t3_v56 : StableHlo.after hostOps1_3 V (Proc.devRef .tc main_v56) = V (Proc.devRef .tc main_v56) := by
  after_results

private theorem t4_c24 : StableHlo.after hostOps1_4 V (Proc.devRef .tc main_c_24) = (constantI S_ 32 4294967168#32 : (⟨S_, .i32⟩ : BufTy).Contents (Elt Ideal)) := by
  after_results
private theorem t4_c25 : StableHlo.after hostOps1_4 V (Proc.devRef .tc main_c_25) = (constantI S_ 32 127#32 : (⟨S_, .i32⟩ : BufTy).Contents (Elt Ideal)) := by
  after_results
private theorem t4_v59 : StableHlo.after hostOps1_4 V (Proc.devRef .tc main_v59) = V (Proc.devRef .tc main_v59) := by
  after_results
private theorem t4_v56 : StableHlo.after hostOps1_4 V (Proc.devRef .tc main_v56) = V (Proc.devRef .tc main_v56) := by
  after_results

private theorem t5_v60_apply (hc : V (Proc.devRef .tc main_c_24) = (constantI S_ 32 4294967168#32 : (⟨S_, .i32⟩ : BufTy).Contents (Elt Ideal)))
    (hc2 : V (Proc.devRef .tc main_c_25) = (constantI S_ 32 127#32 : (⟨S_, .i32⟩ : BufTy).Contents (Elt Ideal))) (i : S4096x11008.Idx) :
    rd (s := S4096x11008) (StableHlo.after hostOps1_5 V (Proc.devRef .tc main_v60)) i
      = min Spec.hi8 (max Spec.lo8 (rd (s := S4096x11008) (V (Proc.devRef .tc main_v59)) i)) := by
  after_results
  simp only [rd, cast_eq]
  rw [hc, hc2, minimumf_apply, maximumf_apply, broadcastInDim_apply _ bcast_S_S4096x11008 _ i ix0 (fun a => a.elim0),
    broadcastInDim_apply _ bcast_S_S4096x11008 _ i ix0 (fun a => a.elim0)]
  rfl

private theorem t5_v56 : StableHlo.after hostOps1_5 V (Proc.devRef .tc main_v56) = V (Proc.devRef .tc main_v56) := by
  after_results

private theorem t6_v63_apply (r : Fin 4096) (j : Fin 11008) :
    rd (s := S4096x11008) (StableHlo.after hostOps1_6 V (Proc.devRef .tc main_v63)) (ix2 r j)
      = Ideal.div (rd (s := S4096x11008) (V (Proc.devRef .tc main_v60)) (ix2 r j)) (rd (s := S4096x1) (V (Proc.devRef .tc main_v56)) (ix2 r 0)) := by
  after_results
  dsimp only [rd]
  rw [truncf_apply, hostDivf_apply, broadcastInDim_apply _ bcast_S4096x1_S4096x11008_0_1 _ (ix2 r j) (ix2 r 0) (fun a => match a with
    | ⟨0, _⟩ => by show r.val = if (4096 : Nat) = 1 then 0 else r.val; rw [if_neg (by decide)]
    | ⟨1, _⟩ => by show 0 = if (1 : Nat) = 1 then 0 else j.val; rw [if_pos rfl])]

end Reads1

/-! ## Region 1's entry: the boundaries' contents at the buffers the quantization goes through -/

private theorem W27_v53 (c : Dev nD) (r : Fin 4096) :
    rd (s := S4096x1) (W27 m ρ c (Proc.devRef .tc main_v53)) (ix2 r 0)
      = Spec.rowMax fun j : Fin 11008 => rd (s := S4096x11008) (W26 m ρ c (Proc.devRef .tc main_v50)) (ix2 r j) :=
  t0_v53_apply (W26 m ρ c) r 0

private theorem W28_v54 (c : Dev nD) (r : Fin 4096) :
    rd (s := S4096x1) (W28 m ρ c (Proc.devRef .tc main_v54)) (ix2 r 0)
      = max Spec.eps (rd (s := S4096x1) (W27 m ρ c (Proc.devRef .tc main_v53)) (ix2 r 0)) := by
  refine (t1_v54_apply (W27 m ρ c) r 0).trans ?_
  rw [show rd (s := S_) (W27 m ρ c (Proc.devRef .tc main_cst_22)) ix0 = Spec.eps from t0_cst22_apply (W26 m ρ c) ix0]

private theorem W29_v56 (c : Dev nD) (r : Fin 4096) :
    rd (s := S4096x1) (W29 m ρ c (Proc.devRef .tc main_v56)) (ix2 r 0)
      = Ideal.div Spec.c127 (rd (s := S4096x1) (W28 m ρ c (Proc.devRef .tc main_v54)) (ix2 r 0)) :=
  t2_v56_apply (W28 m ρ c) r 0

private theorem W28_v50 (c : Dev nD) : W28 m ρ c (Proc.devRef .tc main_v50) = W26 m ρ c (Proc.devRef .tc main_v50) :=
  (t1_v50 (W27 m ρ c)).trans (t0_v50 (W26 m ρ c))

private theorem W29_v58 (c : Dev nD) (r : Fin 4096) (j : Fin 11008) :
    rd (s := S4096x11008) (W29 m ρ c (Proc.devRef .tc main_v58)) (ix2 r j)
      = rd (s := S4096x11008) (W26 m ρ c (Proc.devRef .tc main_v50)) (ix2 r j)
          * rd (s := S4096x1) (W29 m ρ c (Proc.devRef .tc main_v56)) (ix2 r 0) := by
  refine (t2_v58_apply (W28 m ρ c) r j).trans ?_
  rw [W28_v50]

private theorem W30_v59 (c : Dev nD) (i : S4096x11008.Idx) :
    rd (s := S4096x11008) (W30 m ρ c (Proc.devRef .tc main_v59)) i
      = Spec.rnd (rd (s := S4096x11008) (W29 m ρ c (Proc.devRef .tc main_v58)) i) :=
  t3_v59_apply (W29 m ρ c) i

private theorem W32_v56 (c : Dev nD) : W32 m ρ c (Proc.devRef .tc main_v56) = W29 m ρ c (Proc.devRef .tc main_v56) :=
  (t5_v56 (W31 m ρ c)).trans ((t4_v56 (W30 m ρ c)).trans (t3_v56 (W29 m ρ c)))

private theorem W32_v60 (c : Dev nD) (i : S4096x11008.Idx) :
    rd (s := S4096x11008) (W32 m ρ c (Proc.devRef .tc main_v60)) i
      = min Spec.hi8 (max Spec.lo8 (rd (s := S4096x11008) (W30 m ρ c (Proc.devRef .tc main_v59)) i)) := by
  refine (t5_v60_apply (W31 m ρ c) (t4_c24 (W30 m ρ c)) (t4_c25 (W30 m ρ c)) i).trans ?_
  rw [show W31 m ρ c (Proc.devRef .tc main_v59) = W30 m ρ c (Proc.devRef .tc main_v59) from t4_v59 (W30 m ρ c)]

private theorem W33_v63 (c : Dev nD) (r : Fin 4096) (j : Fin 11008) :
    rd (s := S4096x11008) (W33 m ρ c (Proc.devRef .tc main_v63)) (ix2 r j)
      = Ideal.div (rd (s := S4096x11008) (W32 m ρ c (Proc.devRef .tc main_v60)) (ix2 r j))
          (rd (s := S4096x1) (W29 m ρ c (Proc.devRef .tc main_v56)) (ix2 r 0)) := by
  refine (t6_v63_apply (W32 m ρ c) r j).trans ?_
  rw [W32_v56]

theorem v63_apply (c : Dev nD) (r : Fin 4096) (j : Fin 11008) :
    (V33 m ρ c main_v63 : S4096x11008.Idx → EReal) (ix2 r j)
      = Spec.actQ (fun j' : Fin 11008 => (V26 m ρ c main_v50 : S4096x11008.Idx → EReal) (ix2 r j')) j := by
  show rd (s := S4096x11008) (W33 m ρ c (Proc.devRef .tc main_v63)) (ix2 r j)
    = Spec.actQ (fun j' : Fin 11008 => rd (s := S4096x11008) (W26 m ρ c (Proc.devRef .tc main_v50)) (ix2 r j')) j
  exact actQ_of_reads
    (fun r j => rd (s := S4096x11008) (W26 m ρ c (Proc.devRef .tc main_v50)) (ix2 r j))
    (fun r => rd (s := S4096x1) (W27 m ρ c (Proc.devRef .tc main_v53)) (ix2 r 0))
    (fun r => rd (s := S4096x1) (W28 m ρ c (Proc.devRef .tc main_v54)) (ix2 r 0))
    (fun r => rd (s := S4096x1) (W29 m ρ c (Proc.devRef .tc main_v56)) (ix2 r 0))
    (fun r j => rd (s := S4096x11008) (W29 m ρ c (Proc.devRef .tc main_v58)) (ix2 r j))
    (fun r j => rd (s := S4096x11008) (W30 m ρ c (Proc.devRef .tc main_v59)) (ix2 r j))
    (fun r j => rd (s := S4096x11008) (W32 m ρ c (Proc.devRef .tc main_v60)) (ix2 r j))
    (fun r j => rd (s := S4096x11008) (W33 m ρ c (Proc.devRef .tc main_v63)) (ix2 r j))
    (fun r => W27_v53 m ρ c r) (fun r => W28_v54 m ρ c r) (fun r => W29_v56 m ρ c r) (fun r j => W29_v58 m ρ c r j)
    (fun r j => W30_v59 m ρ c (ix2 r j)) (fun r j => W32_v60 m ρ c (ix2 r j)) (fun r j => W33_v63 m ρ c r j) r j

/-! ## The closing reshape -/

/-- The closing stretch writes the last buffer as the shape cast of the second kernel's output. -/
private theorem v65_val (c : Dev nD) :
    W35 m ρ c (Proc.devRef .tc main_v65)
      = fun i => shapeCast S2x2048x4096 (W34 m ρ c (Proc.devRef .tc main_v64)) shapeCasts_S4096x4096_S2x2048x4096 i := by
  show StableHlo.after hostOps2 (W34 m ρ c) (Proc.devRef .tc main_v65) = _
  after_results
  rfl

theorem v65_apply (c : Dev nD) (b : Fin 2) (s : Fin 2048) (h : Fin 4096) :
    (W35 m ρ c (Proc.devRef .tc main_v65) : S2x2048x4096.Idx → EReal) (ix3 b s h)
      = (V34 m ρ c main_v64 : S4096x4096.Idx → EReal) (ix2 (tok b s) h) := by
  -- entry (b, s, h) of the [2, 2048, 4096] array and entry (b·2048 + s, h) of the [4096, 4096] one have the same row-major position
  rw [v65_val]
  refine shapeCast_apply _ shapeCasts_S4096x4096_S2x2048x4096 (ix3 b s h) (ix2 (tok b s) h) ?_
  rw [Shape.rowMajor_val_two, Shape.rowMajor_val_three]
  rfl

end Cert.KernelIdeal.Hand

end
-- ==== Proof.KHostW.lean ====
/- The kernel program's host stretches that quantize the three weight arrays, read at an index. -/
import proofs.«143940_j18047452578029_1_alg».proof.Proof.Gen.KernelIdeal.Frame
import proofs.«143940_j18047452578029_1_alg».proof.Proof.Spec
import Idealize.ShloMosaic.Lib.ValueIdx
import Idealize.ShloMosaic.Lib.Pipeline.Value
import Idealize.ShloMosaic.PureOps.Ideal.Laws
import Idealize.ShloMosaic.Lib.StableHlo.Run
set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Cert.Spec (tok)

variable (m : (ℓ : Loc nD τ sig) → Buf (Elt Ideal) ℓ) (ρ : Dev nD → PrngReg)

/-! ## The quantization as the host operations compose it, for any array shape -/

/-- The array's scale as a rank-0 value: 1 / max(1e-5, (0 + Σ|x|) / count). -/
def wsc {s : Shape} {axes : List (Fin s.rank)} (hr : s.ReducesTo axes S_) (x : FVec Ideal s .f32) : FVec Ideal S_ .f32 :=
  Host.divf (constant S_ .f32 0x3F800000#32)
    (maximumf (id (constant S_ .f32 0x3727C5AC#32))
      (Host.divf (Host.reduceAdd (Host.absf x) (constant S_ .f32 0x00000000#32) hr h_S_) (constant S_ .f32 0x4C2C0000#32)))

/-- The quantized array: clip(round(x · scale), −1, 1) / scale, narrowed to bf16. -/
def wq {s : Shape} {axes : List (Fin s.rank)} (hb : S_.BroadcastsInDim s (![] : Fin 0 → Fin s.rank)) (hr : s.ReducesTo axes S_)
    (x : FVec Ideal s .f32) : FVec Ideal s .bf16 :=
  truncf .bf16 (Host.divf
    (minimumf (broadcastInDim s ![] hb (sitofp .f32 (constantI S_ 32 1#32)))
      (maximumf (broadcastInDim s ![] hb (sitofp .f32 (constantI S_ 32 4294967295#32)))
        (Host.roundeven (mulf x (broadcastInDim s ![] hb (wsc hr x))))))
    (broadcastInDim s ![] hb (wsc hr x))) bitsLt_bf16_f32

/-- A rank-0 value broadcast to any shape reads its one element everywhere. -/
theorem bcast0_apply {α : Type} {s : Shape} (hb : S_.BroadcastsInDim s (![] : Fin 0 → Fin s.rank)) (y : S_.Idx → α) (i : s.Idx) :
    broadcastInDim s ![] hb y i = y ix0 :=
  broadcastInDim_apply _ hb y i ix0 (fun a => a.elim0)

/-- The scale's one element is the specification's scale of the array's magnitude sum. -/
theorem wsc_apply {s : Shape} {axes : List (Fin s.rank)} (hr : s.ReducesTo axes S_) (x : FVec Ideal s .f32) :
    wsc hr x ix0 = Spec.wScale (Spec.absSum x) := by
  have hsum : Host.reduceAdd (Host.absf x) (constant (F := Ideal) S_ .f32 0x00000000#32) hr h_S_ ix0
      = Ideal.ofBits .f32 0x00000000#32 + ∑ j : s.Idx, FloatOps.hostAbsf (x j) := by
    simp only [Host.reduceAdd, Ideal.hostReduceAdd_def]
    exact Ideal.hostReduceAdd_total hr (fun b => b.elim0) _ _ ix0
  show Ideal.div (Ideal.ofBits .f32 0x3F800000#32) (max (Ideal.ofBits .f32 0x3727C5AC#32)
      (Ideal.div (Host.reduceAdd (Host.absf x) (constant (F := Ideal) S_ .f32 0x00000000#32) hr h_S_ ix0) (Ideal.ofBits .f32 0x4C2C0000#32))) = _
  rw [hsum]
  rfl

/-- The quantized array at an index is the specification's quantization of that entry at the array's scale. -/
theorem wq_apply {s : Shape} {axes : List (Fin s.rank)} (hb : S_.BroadcastsInDim s (![] : Fin 0 → Fin s.rank)) (hr : s.ReducesTo axes S_)
    (x : FVec Ideal s .f32) (i : s.Idx) :
    wq hb hr x i = Spec.wQ (Spec.wScale (Spec.absSum x)) (x i) := by
  show Ideal.div (min (broadcastInDim s ![] hb (sitofp (F := Ideal) .f32 (constantI S_ 32 1#32)) i)
      (max (broadcastInDim s ![] hb (sitofp (F := Ideal) .f32 (constantI S_ 32 4294967295#32)) i)
        (FloatOps.hostUnary .roundeven (x i * broadcastInDim s ![] hb (wsc hr x) i))))
      (broadcastInDim s ![] hb (wsc hr x) i) = _
  rw [bcast0_apply hb, bcast0_apply hb, bcast0_apply hb, wsc_apply hr x]
  rfl

/-! ## Reading the three quantized arrays through the stretches

Each lemma is over an arbitrary valuation at the start of its run of stretches: a buffer no operation of the run
writes keeps its contents, and a buffer the run writes holds its operation's function of the operands' contents. -/

/-- The stretches before the first weight's quantization leave argument 1 as it was. -/
theorem keep_arg1 (V : Valuation τ sig (Elt Ideal)) :
    StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) (V)))))) (Proc.devRef .tc main_arg1) = V (Proc.devRef .tc main_arg1) := by
  after_results_simp

/-- From the magnitude sum of argument 1 to the end of the host prologue, `main_v25` ends as the quantization of what
    argument 1 held. -/
theorem read_v25 (V : Valuation τ sig (Elt Ideal)) :
    StableHlo.after (hostOps0_24 (F := Ideal)) (StableHlo.after (hostOps0_23 (F := Ideal)) (StableHlo.after (hostOps0_22 (F := Ideal)) (StableHlo.after (hostOps0_21 (F := Ideal)) (StableHlo.after (hostOps0_20 (F := Ideal)) (StableHlo.after (hostOps0_19 (F := Ideal)) (StableHlo.after (hostOps0_18 (F := Ideal)) (StableHlo.after (hostOps0_17 (F := Ideal)) (StableHlo.after (hostOps0_16 (F := Ideal)) (StableHlo.after (hostOps0_15 (F := Ideal)) (StableHlo.after (hostOps0_14 (F := Ideal)) (StableHlo.after (hostOps0_13 (F := Ideal)) (StableHlo.after (hostOps0_12 (F := Ideal)) (StableHlo.after (hostOps0_11 (F := Ideal)) (StableHlo.after (hostOps0_10 (F := Ideal)) (StableHlo.after (hostOps0_9 (F := Ideal)) (StableHlo.after (hostOps0_8 (F := Ideal)) (StableHlo.after (hostOps0_7 (F := Ideal)) (StableHlo.after (hostOps0_6 (F := Ideal)) (V))))))))))))))))))) (Proc.devRef .tc main_v25)
      = wq bcast_S_S11008x4096 reducesTo_S11008x4096_S_d0_1 (V (Proc.devRef .tc main_arg1)) := by
  after_results_simp
  rfl

/-- The stretches before the second weight's quantization leave argument 2 as it was. -/
theorem keep_arg2 (V : Valuation τ sig (Elt Ideal)) :
    StableHlo.after (hostOps0_11 (F := Ideal)) (StableHlo.after (hostOps0_10 (F := Ideal)) (StableHlo.after (hostOps0_9 (F := Ideal)) (StableHlo.after (hostOps0_8 (F := Ideal)) (StableHlo.after (hostOps0_7 (F := Ideal)) (StableHlo.after (hostOps0_6 (F := Ideal)) (StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) (V)))))))))))) (Proc.devRef .tc main_arg2) = V (Proc.devRef .tc main_arg2) := by
  after_results_simp

/-- From the magnitude sum of argument 2 to the end of the host prologue, `main_v37` ends as the quantization of what
    argument 2 held. -/
theorem read_v37 (V : Valuation τ sig (Elt Ideal)) :
    StableHlo.after (hostOps0_24 (F := Ideal)) (StableHlo.after (hostOps0_23 (F := Ideal)) (StableHlo.after (hostOps0_22 (F := Ideal)) (StableHlo.after (hostOps0_21 (F := Ideal)) (StableHlo.after (hostOps0_20 (F := Ideal)) (StableHlo.after (hostOps0_19 (F := Ideal)) (StableHlo.after (hostOps0_18 (F := Ideal)) (StableHlo.after (hostOps0_17 (F := Ideal)) (StableHlo.after (hostOps0_16 (F := Ideal)) (StableHlo.after (hostOps0_15 (F := Ideal)) (StableHlo.after (hostOps0_14 (F := Ideal)) (StableHlo.after (hostOps0_13 (F := Ideal)) (StableHlo.after (hostOps0_12 (F := Ideal)) (V))))))))))))) (Proc.devRef .tc main_v37)
      = wq bcast_S_S11008x4096 reducesTo_S11008x4096_S_d0_1 (V (Proc.devRef .tc main_arg2)) := by
  after_results_simp
  rfl

/-- The stretches before the third weight's quantization leave argument 3 as it was. -/
theorem keep_arg3 (V : Valuation τ sig (Elt Ideal)) :
    StableHlo.after (hostOps0_17 (F := Ideal)) (StableHlo.after (hostOps0_16 (F := Ideal)) (StableHlo.after (hostOps0_15 (F := Ideal)) (StableHlo.after (hostOps0_14 (F := Ideal)) (StableHlo.after (hostOps0_13 (F := Ideal)) (StableHlo.after (hostOps0_12 (F := Ideal)) (StableHlo.after (hostOps0_11 (F := Ideal)) (StableHlo.after (hostOps0_10 (F := Ideal)) (StableHlo.after (hostOps0_9 (F := Ideal)) (StableHlo.after (hostOps0_8 (F := Ideal)) (StableHlo.after (hostOps0_7 (F := Ideal)) (StableHlo.after (hostOps0_6 (F := Ideal)) (StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) (V)))))))))))))))))) (Proc.devRef .tc main_arg3) = V (Proc.devRef .tc main_arg3) := by
  after_results_simp

/-- From the magnitude sum of argument 3 to the end of the host prologue, `main_v49` ends as the quantization of what
    argument 3 held. -/
theorem read_v49 (V : Valuation τ sig (Elt Ideal)) :
    StableHlo.after (hostOps0_24 (F := Ideal)) (StableHlo.after (hostOps0_23 (F := Ideal)) (StableHlo.after (hostOps0_22 (F := Ideal)) (StableHlo.after (hostOps0_21 (F := Ideal)) (StableHlo.after (hostOps0_20 (F := Ideal)) (StableHlo.after (hostOps0_19 (F := Ideal)) (StableHlo.after (hostOps0_18 (F := Ideal)) (V))))))) (Proc.devRef .tc main_v49)
      = wq bcast_S_S4096x11008 reducesTo_S4096x11008_S_d0_1 (V (Proc.devRef .tc main_arg3)) := by
  after_results_simp
  rfl

/-- The host stretches between the two kernel regions do not write `main_v49`. -/
theorem keep_v49 (V : Valuation τ sig (Elt Ideal)) :
    StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (V))))))) (Proc.devRef .tc main_v49) = V (Proc.devRef .tc main_v49) := by
  after_results_simp

theorem v25_apply (c : Dev nD) (j : Fin 11008) (k : Fin 4096) :
    (V25 m ρ c main_v25 : S11008x4096.Idx → EReal) (ix2 j k)
      = Spec.wQ (Spec.wScale (Spec.absSum (m ((c : Thread nD τ).loc main_arg1) : S11008x4096.Idx → EReal)))
          ((m ((c : Thread nD τ).loc main_arg1) : S11008x4096.Idx → EReal) (ix2 j k)) := by
  -- the prologue's contents of `main_v25`: the quantization of argument 1 as launched
  have hq : V25 m ρ c main_v25 = wq bcast_S_S11008x4096 reducesTo_S11008x4096_S_d0_1 (m ((c : Thread nD τ).loc main_arg1)) :=
    (read_v25 (W6 m ρ c)).trans (congrArg (wq bcast_S_S11008x4096 reducesTo_S11008x4096_S_d0_1) (keep_arg1 (W0 m ρ c)))
  exact (congrFun hq (ix2 j k)).trans (wq_apply _ _ _ _)

theorem v37_apply (c : Dev nD) (j : Fin 11008) (k : Fin 4096) :
    (V25 m ρ c main_v37 : S11008x4096.Idx → EReal) (ix2 j k)
      = Spec.wQ (Spec.wScale (Spec.absSum (m ((c : Thread nD τ).loc main_arg2) : S11008x4096.Idx → EReal)))
          ((m ((c : Thread nD τ).loc main_arg2) : S11008x4096.Idx → EReal) (ix2 j k)) := by
  -- the prologue's contents of `main_v37`: the quantization of argument 2 as launched
  have hq : V25 m ρ c main_v37 = wq bcast_S_S11008x4096 reducesTo_S11008x4096_S_d0_1 (m ((c : Thread nD τ).loc main_arg2)) :=
    (read_v37 (W12 m ρ c)).trans (congrArg (wq bcast_S_S11008x4096 reducesTo_S11008x4096_S_d0_1) (keep_arg2 (W0 m ρ c)))
  exact (congrFun hq (ix2 j k)).trans (wq_apply _ _ _ _)

theorem v49_apply (c : Dev nD) (h : Fin 4096) (j : Fin 11008) :
    (V33 m ρ c main_v49 : S4096x11008.Idx → EReal) (ix2 h j)
      = Spec.wQ (Spec.wScale (Spec.absSum (m ((c : Thread nD τ).loc main_arg3) : S4096x11008.Idx → EReal)))
          ((m ((c : Thread nD τ).loc main_arg3) : S4096x11008.Idx → EReal) (ix2 h j)) := by
  -- back across the stretches between the regions and across the first region, which has no window on `main_v49`,
  -- to the prologue's contents: the quantization of argument 3 as launched
  have hq : V33 m ρ c main_v49 = wq bcast_S_S4096x11008 reducesTo_S4096x11008_S_d0_1 (m ((c : Thread nD τ).loc main_arg3)) :=
    (keep_v49 (W26 m ρ c)).trans ((W26_of_ne m ρ c main_v49 (by decide)).trans
      ((read_v49 (W18 m ρ c)).trans (congrArg (wq bcast_S_S4096x11008 reducesTo_S4096x11008_S_d0_1) (keep_arg3 (W0 m ρ c)))))
  exact (congrFun hq (ix2 h j)).trans (wq_apply _ _ _ _)

end Cert.KernelIdeal.Hand

end
-- ==== Proof.KValue.lean ====
/-
  The kernel program's result, entry by entry. Entry (b, s, h) of the final [2, 2048, 4096] array is entry (b·2048 + s, h)
  of the second kernel's output; that is the product of the quantized gated row of token (b, s) with row h of the
  quantized third weight array; the gated row is the first kernel's output row, the gate of the token's quantized row
  against the rows of the first two quantized weight arrays. Chained, this is the specification's `outRow`.
-/
import proofs.«143940_j18047452578029_1_alg».proof.Proof.Gen.KernelIdeal.Frame
import proofs.«143940_j18047452578029_1_alg».proof.Proof.Spec
import proofs.«143940_j18047452578029_1_alg».proof.Proof.KRegion0
import proofs.«143940_j18047452578029_1_alg».proof.Proof.KRegion1
import proofs.«143940_j18047452578029_1_alg».proof.Proof.KHostAct
import proofs.«143940_j18047452578029_1_alg».proof.Proof.KHostW
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Cert.Spec (tok)

variable (m : (ℓ : Loc nD τ sig) → Buf (Elt Ideal) ℓ) (ρ : Dev nD → PrngReg)

/-- The four argument arrays of core `c`, as functions of their literal index types. -/
abbrev xArr (c : Dev nD) : S2x2048x4096.Idx → EReal := m ((c : Thread nD τ).loc main_arg0)
abbrev w1Arr (c : Dev nD) : S11008x4096.Idx → EReal := m ((c : Thread nD τ).loc main_arg1)
abbrev w2Arr (c : Dev nD) : S11008x4096.Idx → EReal := m ((c : Thread nD τ).loc main_arg2)
abbrev w3Arr (c : Dev nD) : S4096x11008.Idx → EReal := m ((c : Thread nD τ).loc main_arg3)

/-- The first kernel's output, row of token (b, s): the gated row of the specification. -/
theorem gated_apply (c : Dev nD) (b : Fin 2) (s : Fin 2048) (j : Fin 11008) :
    (V26 m ρ c main_v50 : S4096x11008.Idx → EReal) (ix2 (tok b s) j)
      = Spec.gatedRow (Spec.actQ (fun k : Fin 4096 => xArr m c (ix3 b s k))) (Spec.qW (w1Arr m c)) (Spec.qW (w2Arr m c)) j := by
  have e0 : (V26 m ρ c main_v50 : S4096x11008.Idx → EReal)
      = ((dat0 (F := Ideal) (V25 m ρ) c).arrAt 3 cfg0.N : S4096x11008.Idx → EReal) := W26_arr m ρ c 3
  rw [e0, arr0]
  have h13 : (fun k : Fin 4096 => (V25 m ρ c main_v13 : S4096x4096.Idx → EReal) (ix2 (tok b s) k))
      = Spec.actQ (fun k : Fin 4096 => xArr m c (ix3 b s k)) := funext fun k => v13_apply m ρ c b s k
  have h25 : (fun k : Fin 4096 => (V25 m ρ c main_v25 : S11008x4096.Idx → EReal) (ix2 j k)) = Spec.qW (w1Arr m c) j :=
    funext fun k => v25_apply m ρ c j k
  have h37 : (fun k : Fin 4096 => (V25 m ρ c main_v37 : S11008x4096.Idx → EReal) (ix2 j k)) = Spec.qW (w2Arr m c) j :=
    funext fun k => v37_apply m ρ c j k
  rw [h13, h25, h37]
  rfl

/-- The kernel program's result at (b, s, h). -/
theorem kernel_apply (c : Dev nD) (b : Fin 2) (s : Fin 2048) (h : Fin 4096) :
    (W35 m ρ c (Proc.devRef .tc main_v65) : S2x2048x4096.Idx → EReal) (ix3 b s h)
      = Spec.outRow (fun k : Fin 4096 => xArr m c (ix3 b s k)) (Spec.qW (w1Arr m c)) (Spec.qW (w2Arr m c)) (Spec.qW (w3Arr m c)) h := by
  rw [v65_apply]
  have e1 : (V34 m ρ c main_v64 : S4096x4096.Idx → EReal)
      = ((dat1 (F := Ideal) (V33 m ρ) c).arrAt 2 cfg1.N : S4096x4096.Idx → EReal) := W34_arr m ρ c 2
  rw [e1, arr1]
  have h63 : (fun j : Fin 11008 => (V33 m ρ c main_v63 : S4096x11008.Idx → EReal) (ix2 (tok b s) j))
      = Spec.actQ (Spec.gatedRow (Spec.actQ (fun k : Fin 4096 => xArr m c (ix3 b s k))) (Spec.qW (w1Arr m c)) (Spec.qW (w2Arr m c))) := by
    funext j
    rw [v63_apply]
    exact congrArg (fun row => Spec.actQ row j) (funext fun j' => gated_apply m ρ c b s j')
  have h49 : (fun j : Fin 11008 => (V33 m ρ c main_v49 : S4096x11008.Idx → EReal) (ix2 h j)) = Spec.qW (w3Arr m c) h :=
    funext fun j => v49_apply m ρ c h j
  rw [h63, h49]
  rfl

end Cert.KernelIdeal.Hand

end
-- ==== Proof.PreReal.lean ====
/- The precondition read back: when the printed predicate "every |entry| < +∞, for all four arrays" is all ones, every entry of every argument array is a real number. -/
import proofs.«143940_j18047452578029_1_alg».proof.Pre_finite_inputs
import proofs.«143940_j18047452578029_1_alg».proof.Proof.Spec
import Idealize.ShloMosaic.Lib.ReduceAll
import Idealize.ShloMosaic.Lib.ValueIdx

noncomputable section

namespace Cert.Pre_finite_inputs.Hand

open Idealize.ShloMosaic Cert.Pre_finite_inputs

/-- A shape of rank 0 has exactly one index: there is no axis to give a coordinate on. -/
instance subsingleton_scalar_idx : Subsingleton S_.Idx := ⟨fun a b => funext fun d => d.elim0⟩

/-- The f32 word 0x7F800000 (sign 0, exponent all ones, fraction 0) denotes +∞. -/
theorem ofBits_posInf : Ideal.ofBits .f32 0x7F800000#32 = (⊤ : EReal) := by
  simp [Ideal.ofBits, Ideal.ieee]

/-- An extended real whose magnitude max(x, −x) lies strictly below +∞ is a real number:
    x ≤ max(x, −x) < ⊤ excludes x = ⊤, and −x < ⊤ excludes x = ⊥ because −⊥ = ⊤. -/
theorem isReal_of_abs_lt_top (x : EReal) (h : max x (-x) < ⊤) : Spec.IsReal x := by
  rw [max_lt_iff] at h
  refine ⟨ne_of_lt h.1, ?_⟩
  intro hb
  rw [hb, EReal.neg_bot] at h
  exact lt_irrefl _ h.2

/-- An `i1` word made from a decision is 1 exactly when the decided statement holds. -/
theorem of_ofBool_decide_eq_one {p : Prop} [Decidable p] (h : BitVec.ofBool (decide p) = 1#1) : p := by
  by_contra hn
  rw [decide_eq_false hn] at h
  exact absurd h (by decide)

/-- For an array of any shape: if the conjunction over all axes of the tests |a i| < +∞ comes out 1,
    every entry of the array is a real number. -/
theorem real_of_all_lt_inf {S : Shape} {axes : List (Fin S.rank)} (a : FVec Ideal S .f32)
    (hb : S_.BroadcastsInDim S (![] : Fin 0 → Fin S.rank)) (init : IVec S_ 1)
    (h : S.ReducesTo axes S_) (hu : 0 < S_.numel)
    (e : Host.reduce IntOp.andi
          (cmpf .olt (Host.absf a) (broadcastInDim S ![] hb (constant S_ .f32 0x7F800000#32))) init h hu ValueIdx.ix0 = 1#1) :
    ∀ i, Spec.IsReal (a i) := by
  intro i
  -- the conjunction is 1, so the test at index i is 1
  have hi := Host.reduce_andi_all _ init h hu ValueIdx.ix0 e i
  -- that test is the order's comparison of max(a i, −a i) with the value of the broadcast literal
  have hi' : BitVec.ofBool (decide (max (a i : EReal) (-(a i : EReal)) < Ideal.ofBits .f32 0x7F800000#32)) = 1#1 := hi
  rw [ofBits_posInf] at hi'
  exact isReal_of_abs_lt_top (a i) (of_ofBool_decide_eq_one hi')

theorem real_of_pre [Facts] (a0 : FVec Ideal S2x2048x4096 .f32) (a1 a2 : FVec Ideal S11008x4096 .f32) (a3 : FVec Ideal S4096x11008 .f32)
    (h : fn (F := Ideal) a0 a1 a2 a3 = fun _ => 1#1) :
    (∀ i, Spec.IsReal (a0 i)) ∧ (∀ i, Spec.IsReal (a1 i)) ∧ (∀ i, Spec.IsReal (a2 i)) ∧ (∀ i, Spec.IsReal (a3 i)) := by
  have h0 := congrFun h ValueIdx.ix0
  dsimp only [fn, fn_part1] at h0
  -- the result is ((t0 ∧ t1) ∧ t2) ∧ t3, one conjunction of tests per array
  obtain ⟨h012, h3⟩ := IntOp.andi_eq_one.1 h0
  obtain ⟨h01, h2⟩ := IntOp.andi_eq_one.1 h012
  obtain ⟨h0', h1⟩ := IntOp.andi_eq_one.1 h01
  exact ⟨real_of_all_lt_inf a0 _ _ _ _ h0', real_of_all_lt_inf a1 _ _ _ _ h1,
    real_of_all_lt_inf a2 _ _ _ _ h2, real_of_all_lt_inf a3 _ _ _ _ h3⟩

end Cert.Pre_finite_inputs.Hand

end
-- ==== Proof.lean ====
/-
  The certificate of a gated MLP with quantized layers: a Pallas program of two kernels (gate-and-up products with the
  squared-relu gate; the down product) around host code that quantizes activations per token row to int8 and weights per
  array to {−1, 0, 1}, against a plain jnp reference that spells every quantization v + (q(v) − v).

  Over the extended reals both programs compute one function of each token's row and of the three weight arrays
  (Proof/Spec.lean, `outRow`): entry (b, s, h) of the result is the product of the quantized gated row of token (b, s)
  with row h of the quantized third weight array. The kernel side: its run keeps the result buffer at the last
  boundary's contents (Proof/KRun.lean), which is read back through the closing reshape, the second kernel's blocks
  (Proof/KRegion1.lean), the host stretch that quantizes the gated rows, the first kernel's blocks (Proof/KRegion0.lean)
  and the host stretches that quantize the input rows and the weights (Proof/KHostAct.lean, Proof/KHostW.lean), chained in
  Proof/KValue.lean. The reference side: its operation list (Proof/RefRun.lean), its stages one operation at a time (Proof/RefRead.lean) and its run over the stages (Proof/RefRunVal.lean),
  each v + (q(v) − v) collapsed where v is real (Proof/RefAct.lean, Proof/RefW.lean), the products and the gate in
  Proof/RefDot.lean. The collapse needs real numbers: the inputs are real by the precondition (Proof/PreReal.lean), the
  gated values because sums, products, maxima and quotients by positive reals of real numbers are real
  (Proof/SpecReal.lean). The ideal pass rewrote nothing, so `preserves` is `True`.
-/
import proofs.«143940_j18047452578029_1_alg».proof.Defs
import proofs.«143940_j18047452578029_1_alg».proof.Proof.Gen.Kernel
import proofs.«143940_j18047452578029_1_alg».proof.Proof.Gen.Kernel.Skeleton
import proofs.«143940_j18047452578029_1_alg».proof.Proof.Gen.Kernel.Launch
import proofs.«143940_j18047452578029_1_alg».proof.Proof.Gen.Kernel.Points
import proofs.«143940_j18047452578029_1_alg».proof.Proof.Gen.Kernel.Frame
import proofs.«143940_j18047452578029_1_alg».proof.Proof.Gen.KernelIdeal
import proofs.«143940_j18047452578029_1_alg».proof.Proof.Gen.KernelIdeal.Skeleton
import proofs.«143940_j18047452578029_1_alg».proof.Proof.Gen.KernelIdeal.Launch
import proofs.«143940_j18047452578029_1_alg».proof.Proof.Gen.KernelIdeal.Points
import proofs.«143940_j18047452578029_1_alg».proof.Proof.Gen.KernelIdeal.Frame
import proofs.«143940_j18047452578029_1_alg».proof.Proof.Gen.ReferenceIdeal
import proofs.«143940_j18047452578029_1_alg».proof.Proof.Gen.Pre_finite_inputs
import proofs.«143940_j18047452578029_1_alg».proof.Proof.RefRun
import proofs.«143940_j18047452578029_1_alg».proof.Proof.RefRead
import proofs.«143940_j18047452578029_1_alg».proof.Proof.RefRunVal
import proofs.«143940_j18047452578029_1_alg».proof.Proof.RefDot
import proofs.«143940_j18047452578029_1_alg».proof.Proof.KRun
import proofs.«143940_j18047452578029_1_alg».proof.Proof.KValue
import proofs.«143940_j18047452578029_1_alg».proof.Proof.PreReal
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run_val (F := Ideal) m ρ)

/-- Both runs end with the result at the same function of arguments that agree: entry by entry, the specification's
    `outRow` of the token's row and the three quantized weight arrays. -/
theorem algebraic : Cert.algebraic_KernelIdeal_ReferenceIdeal := by
  intro m ρ m' ρ' hpre hagree
  refine ⟨fun c => Cert.KernelIdeal.Gen.W35 m ρ c (Proc.devRef .tc Cert.KernelIdeal.main_v65),
    Cert.KernelIdeal.Gen.run_v65 m ρ, ?_⟩
  refine (θ_run Cert.ReferenceIdeal.defs _ _).mono (fun _ h c => ⟨(h c).1.trans ?_, (h c).2⟩)
    (Cert.ReferenceIdeal.ValueP.run_val (F := Ideal) m' ρ')
  rw [(hagree c).1, (hagree c).2.1, (hagree c).2.2.1, (hagree c).2.2.2]
  obtain ⟨r0, r1, r2, r3⟩ := Cert.Pre_finite_inputs.Hand.real_of_pre _ _ _ _ (hpre c)
  funext i
  obtain ⟨b, s, h, rfl⟩ : ∃ (b : Fin 2) (s : Fin 2048) (h : Fin 4096), i = ix3 b s h := ⟨i 0, i 1, i 2, eq_ix3 i⟩
  exact (Cert.ReferenceIdeal.Hand.v86_apply _ _ _ _ r0 r1 r2 r3 b s h).trans
    (Cert.KernelIdeal.Hand.kernel_apply m ρ c b s h).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
